-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg2 : IVec S2x800000 32) (main_arg5 : FVec F S128x128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg2 main_v29
  let main_c_11 : IVec S_ 32 := constantI S_ 32 50000#32
  let main_v31 : IVec S2x800000 32 := broadcastInDim S2x800000 ![] bcast_S_S2x800000 main_c_11
  let main_v32 : IVec S2x800000 1 := cmpi .slt main_arg2 main_v31
  let main_v33 : IVec S2x800000 1 := andi main_v30 main_v32
  fn_part2 (F := F) main_v28 main_v33

def fn {F : FTy → Type} [FloatOps F] (main_arg0 : FVec F S50000x128 .f32) (main_arg1 : FVec F S800000x128 .f32) (main_arg2 : IVec S2x800000 32) (main_arg3 : FVec F S128x128 .f32) (main_arg4 : FVec F S128x128 .f32) (main_arg5 : FVec F S128x128 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S2000x128 : Shape := ⟨2, ![2000, 128]⟩
abbrev S2000x384 : Shape := ⟨2, ![2000, 384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8 : Shape := ⟨2, ![800000, 8]⟩
abbrev S2000x8 : Shape := ⟨2, ![2000, 8]⟩
abbrev S50000x8 : Shape := ⟨2, ![50000, 8]⟩

abbrev nBuf : Space → Nat
  | .hbm => 100
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x8, .f32⟩
  | .hbm, ⟨8, _⟩ => ⟨S8x128, .f32⟩
  | .hbm, ⟨9, _⟩ => ⟨S8x128, .f32⟩
  | .hbm, ⟨10, _⟩ => ⟨S128x384, .f32⟩
  | .hbm, ⟨11, _⟩ => ⟨S50000x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x128, .f32⟩
  | .hbm, ⟨61, _⟩ => ⟨S800000x128, .i1⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S1, .i32⟩
  | .hbm, ⟨74, _⟩ => ⟨S_, .i32⟩
  | .hbm, ⟨75, _⟩ => ⟨S800000x1, .i32⟩
  | .hbm, ⟨76, _⟩ => ⟨S800000x1, .i1⟩
  | .hbm, ⟨77, _⟩ => ⟨S1x1, .i32⟩
  | .hbm, ⟨78, _⟩ => ⟨S800000x1, .i32⟩
  | .hbm, ⟨79, _⟩ => ⟨S800000x1, .i1⟩
  | .hbm, ⟨80, _⟩ => ⟨S800000x1, .i1⟩
  | .hbm, ⟨81, _⟩ => ⟨S_, .i1⟩
  | .hbm, ⟨82, _⟩ => ⟨S800000, .i1⟩
  | .hbm, ⟨83, _⟩ => ⟨S800000x128, .f32⟩
  | .hbm, ⟨84, _⟩ => ⟨S800000x128, .i1⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S800000x128, .f32⟩
  | .hbm, ⟨90, _⟩ => ⟨S800000x8, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S_, .f32⟩
  | .hbm, ⟨96, _⟩ => ⟨S50000x8, .f32⟩
  | .hbm, ⟨97, _⟩ => ⟨S800000x1, .i32⟩
  | .hbm, ⟨98, _⟩ => ⟨S50000x8, .f32⟩
  | .hbm, ⟨99, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .f32⟩
  | .local _ .vmem, ⟨4, _⟩ => ⟨S2000x384, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x8, .f32⟩
  | .local _ .vmem, ⟨15, _⟩ => ⟨S8x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x8, .f32⟩
  | .local _ .vmem, ⟨21, _⟩ => ⟨S2000x8, .f32⟩
  | .local _ .vmem, ⟨22, _⟩ => ⟨S2000x128, .f32⟩
  | .local _ .vmem, ⟨23, _⟩ => ⟨S2000x128, .f32⟩
  | .local _ .vmem, ⟨24, _⟩ => ⟨S2000x8, .f32⟩
  | .local _ .vmem, ⟨25, _⟩ => ⟨S2000x8, .f32⟩
  | .local _ .vmem, ⟨26, _⟩ => ⟨S8x128, .f32⟩
  | .local _ .vmem, ⟨27, _⟩ => ⟨S2000x128, .f32⟩
  | .local _ .vmem, ⟨28, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v10 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v11 : Ref sig .tc := ⟨.hbm, 87, rfl⟩
abbrev main_v12_0 : Ref sig .tc := ⟨.hbm, 88, rfl⟩
abbrev main_v12_1 : Ref sig .tc := ⟨.hbm, 89, rfl⟩
abbrev main_v12_2 : Ref sig .tc := ⟨.hbm, 90, rfl⟩
abbrev main_cst_2 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_cst_3 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S2000x8_S2000x8_0_0 : ∀ a, (![0, 0] : Fin 2 → Nat) a + S2000x8.size a ≤ S2000x8.size a
  h_S2000x8 : 0 < S2000x8.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S2000x8_S2000x8 : S2000x8.ShapeCasts S2000x8
  dot_S2000x128_S128x384_S2000x384_1_0_0_1_n_n_wf : DotDims.WF S2000x128 S128x384 S2000x384 [1] [0] [0] [1] [] []
  gather_S50000x128_S800000x1_S800000x128_1_0_n_n_0_1_1128_wf : GatherDims.WF S50000x128 S800000x1 S800000x128 [1] [0] [] [0] [] 1 ![1, 128]
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  dot_S2000x8_S8x128_S2000x128_1_0_0_1_n_n_wf : DotDims.WF S2000x8 S8x128 S2000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .f32 = 32 ∨ (Rect.block (s := S50000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S800000x128.size a
  hwx1_0 : ∀ i : grid1.Coords, EltTy.bits .f32 = 32 ∨ (Rect.block (s := S800000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S800000x128.size a
  hwx1_1 : ∀ i : grid1.Coords, EltTy.bits .f32 = 32 ∨ (Rect.block (s := S800000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S800000x128.size a
  hwx1_2 : ∀ i : grid1.Coords, EltTy.bits .f32 = 32 ∨ (Rect.block (s := S800000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S800000x128.size a
  hwx1_3 : ∀ i : grid1.Coords, EltTy.bits .f32 = 32 ∨ (Rect.block (s := S800000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S800000x128.size a
  hwx1_7 : ∀ i : grid1.Coords, EltTy.bits .f32 = 32 ∨ (Rect.block (s := S800000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S800000x128.size a
  hwx1_8 : ∀ i : grid1.Coords, EltTy.bits .f32 = 32 ∨ (Rect.block (s := S800000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x8.size a ≤ S800000x8.size a
  hwx1_9 : ∀ i : grid1.Coords, EltTy.bits .f32 = 32 ∨ (Rect.block (s := S800000x8) S2000x8.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x8.size a ≤ S50000x8.size a
  hwx2_1 : ∀ i : grid2.Coords, EltTy.bits .f32 = 32 ∨ (Rect.block (s := S50000x8) S2000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_2) S2000x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S2000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_cst_1) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S50000x8x16 : Shape := ⟨3, ![50000, 8, 16]⟩
abbrev S800000x8x16 : Shape := ⟨3, ![800000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S50000x128, .f32⟩
  | .hbm, ⟨8, _⟩ => ⟨S50000x8x16, .f32⟩
  | .hbm, ⟨9, _⟩ => ⟨S50000x128, .f32⟩
  | .hbm, ⟨10, _⟩ => ⟨S50000x8x16, .f32⟩
  | .hbm, ⟨11, _⟩ => ⟨S50000x128, .f32⟩
  | .hbm, ⟨12, _⟩ => ⟨S50000x8x16, .f32⟩
  | .hbm, ⟨13, _⟩ => ⟨S800000x128, .f32⟩
  | .hbm, ⟨14, _⟩ => ⟨S800000x8x16, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x8x16, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x8x16, .f32⟩
  | .hbm, ⟨37, _⟩ => ⟨S800000x8x16, .f32⟩
  | .hbm, ⟨38, _⟩ => ⟨S_, .f32⟩
  | .hbm, ⟨39, _⟩ => ⟨S800000x8x16, .f32⟩
  | .hbm, ⟨40, _⟩ => ⟨S800000x8x16, .f32⟩
  | .hbm, ⟨41, _⟩ => ⟨S800000x8x16, .f32⟩
  | .hbm, ⟨42, _⟩ => ⟨S_, .f32⟩
  | .hbm, ⟨43, _⟩ => ⟨S800000x8, .f32⟩
  | .hbm, ⟨44, _⟩ => ⟨S800000x8x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S800000x8x1, .f32⟩
  | .hbm, ⟨49, _⟩ => ⟨S800000x8x1, .f32⟩
  | .hbm, ⟨50, _⟩ => ⟨S_, .f32⟩
  | .hbm, ⟨51, _⟩ => ⟨S800000x8x1, .f32⟩
  | .hbm, ⟨52, _⟩ => ⟨S800000x8x1, .f32⟩
  | .hbm, ⟨53, _⟩ => ⟨S800000x8x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x8x16, .f32⟩
  | .hbm, ⟨63, _⟩ => ⟨S800000x8x16, .f32⟩
  | .hbm, ⟨64, _⟩ => ⟨S800000x8x16, .f32⟩
  | .hbm, ⟨65, _⟩ => ⟨S_, .f32⟩
  | .hbm, ⟨66, _⟩ => ⟨S50000x8x16, .f32⟩
  | .hbm, ⟨67, _⟩ => ⟨S800000x1, .i32⟩
  | .hbm, ⟨68, _⟩ => ⟨S50000x8x16, .f32⟩
  | .hbm, ⟨69, _⟩ => ⟨S_, .f32⟩
  | .hbm, ⟨70, _⟩ => ⟨S50000x8x1, .f32⟩
  | .hbm, ⟨71, _⟩ => ⟨S800000x1, .i32⟩
  | .hbm, ⟨72, _⟩ => ⟨S50000x8x1, .f32⟩
  | .hbm, ⟨73, _⟩ => ⟨S_, .f32⟩
  | .hbm, ⟨74, _⟩ => ⟨S50000x8x1, .f32⟩
  | .hbm, ⟨75, _⟩ => ⟨S50000x8x1, .f32⟩
  | .hbm, ⟨76, _⟩ => ⟨S50000x8x16, .f32⟩
  | .hbm, ⟨77, _⟩ => ⟨S50000x8x16, .f32⟩
  | .hbm, ⟨78, _⟩ => ⟨S50000x128, .f32⟩
  | .hbm, ⟨79, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S800000x128_S800000x8x16 : S800000x128.ShapeCasts S800000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  shapeCasts_S800000x8x16_S800000x128 : S800000x8x16.ShapeCasts S800000x128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.R0.lean ====
/-
  KERNEL REGION 0 (the node projection: one `[2000, 128] · [128, 384]` product per grid point), at any float
  instance, stated at a PARAMETER `V`: the TensorCore's buffer contents when the region is entered.

  The region has three windows: window 0 walks the node features in blocks of 2000 rows, window 1 holds the whole
  `[128, 384]` weight table (fetched once), window 2 walks the result in blocks of 2000 rows. At grid point `t` the body
  loads both input blocks whole and stores the product whole: so what window 2's staging buffer holds after the body
  is `out0_2` of the two input blocks, and both input blocks are left in place. That is the region's proof data
  (`dat0`), and the body meets the pipeline's obligation at every point (`body_obligation0`).
-/
import proofs.«423218_j15375982920242_3_alg».proof.Proof.Gen.KernelIdeal.Launch
import proofs.«423218_j15375982920242_3_alg».proof.Proof.Gen.KernelIdeal.Skeleton
import proofs.«423218_j15375982920242_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole table at every point: it is fetched once and its block
    index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2000x128 := Rect.unit (s := S2000x128) ![0, 0] S2000x128.size inb_S2000x128_S2000x128_0_0
abbrev r0_w : Rect S128x384 := Rect.unit (s := S128x384) ![0, 0] S128x384.size inb_S128x384_S128x384_0_0
abbrev r0_o : Rect S2000x384 := Rect.unit (s := S2000x384) ![0, 0] S2000x384.size inb_S2000x384_S2000x384_0_0

/-! ## What the body leaves in the result window's buffer -/

/-- The result window's staging buffer after the body: its one store, the product of the two loaded blocks. -/
def out0_2 (x0 : Vec F S2000x128 .f32) (x1 : Vec F S128x384 .f32) : Vec F S2000x384 .f32 :=
  View.canon [⟨r0_o, k0_pay1 (View.ld x0 r0_x) (View.ld x1 r0_w)⟩]

/-- The one store covers the buffer. -/
theorem cover0_2 (p0 : Vec F S2000x384 .f32) (y : S2000x384.Idx) :
    ∃ pc ∈ ([⟨r0_o, p0⟩] : List (View.Piece (Elt F) S2000x384 .f32)), y ∈ pc.1.set :=
  View.cover_of_tiled [⟨r0_o, p0⟩] S2000x384.size (by rfl) y

/-! ## The body's triple -/

set_option maxHeartbeats 1000000 in
/-- The body on whole staging memrefs — the inputs' at contents `x0`, `x1`, the result's at anything — runs to the
    continuation holding the inputs' as they were and the result's at `out0_2 x0 x1`. -/
theorem sound_kernel0 (c : Dev nD) (E : Set ℕ) (i : grid0.Coords) (arg1 : Memref sig .tc .vmem S2000x128 .f32) (harg1 : arg1.IsWhole)
    (arg2 : Memref sig .tc .vmem S128x384 .f32) (harg2 : arg2.IsWhole) (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of region 0 on core `c`: the arrays as the region finds them; after the body at point `t` each
    input's buffer at its block and the result's at the product of the two; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.R1.lean ====
/- Kernel region 1 (custom_call 1, `cc1__edge_kernel`, pipeline `cfg1`, 10 windows), its class-A half at a
   parameter `V` — the TensorCore's buffer contents when the region is entered —, at any `F`: each window's block at a
   point (`iblk1`), each output's buffer after the body as the canon of its one store over the input blocks
   (`out1_W`), the body's triple (`sound_kernel1`), the proof data (`dat1`) and the body obligation
   (`body_obligation1`). Inputs: 0 key rows, 1 query rows, 2 edge features, 3 value rows (a [2000,128] block per
   point), 4 the edge projection [128,128], 5 the pooling table [128,8], 6 its transpose [8,128] (whole arrays, block
   index constant). Outputs: 7 scores, 8 messages ([2000,128] blocks), 9 gates ([2000,8] blocks). -/
import proofs.«423218_j15375982920242_3_alg».proof.Proof.Gen.KernelIdeal.Launch
import proofs.«423218_j15375982920242_3_alg».proof.Proof.Gen.KernelIdeal.Skeleton
import proofs.«423218_j15375982920242_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S128x8 := Rect.unit (s := S128x8) ![0, 0] S128x8.size inb_S128x8_S128x8_0_0
abbrev r1_3 : Rect S8x128 := Rect.unit (s := S8x128) ![0, 0] S8x128.size inb_S8x128_S8x128_0_0
abbrev r1_4 : Rect S2000x8 := Rect.unit (s := S2000x8) ![0, 0] S2000x8.size inb_S2000x8_S2000x8_0_0

/-! ## What the body leaves in each output window's buffer -/

/-- Window 7's staging buffer after the body, from the input windows' blocks: its one store as a piece, the payload
    `k1_pay1` of the loaded blocks. -/
def out1_7 (x0 : Vec F S2000x128 .f32) (x1 : Vec F S2000x128 .f32) (x2 : Vec F S2000x128 .f32) (x4 : Vec F S128x128 .f32) : Vec F S2000x128 .f32 :=
  View.canon [⟨r1_0, k1_pay1 (View.ld x0 r1_0) (View.ld x1 r1_0) (View.ld x2 r1_0) (View.ld x4 r1_1)⟩]

/-- Its store tiles the buffer, so it covers it. -/
theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-- Window 8's staging buffer after the body, from the input windows' blocks: its one store as a piece, the payload
    the payload `k1_pay3` of the loaded blocks. -/
def out1_8 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_0, k1_pay3 (View.ld x0 r1_0) (View.ld x1 r1_0) (View.ld x2 r1_0) (View.ld x3 r1_0) (View.ld x4 r1_1) (View.ld x5 r1_2) (View.ld x6 r1_3)⟩]

/-- Its store tiles the buffer, so it covers it. -/
theorem cover1_8 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-- Window 9's staging buffer after the body, from the input windows' blocks: its one store as a piece, the payload
    the payload `k1_pay2` of the loaded blocks. -/
def out1_9 (x0 : Vec F S2000x128 .f32) (x1 : Vec F S2000x128 .f32) (x2 : Vec F S2000x128 .f32) (x4 : Vec F S128x128 .f32) (x5 : Vec F S128x8 .f32) : Vec F S2000x8 .f32 :=
  View.canon [⟨r1_4, k1_pay2 (View.ld x0 r1_0) (View.ld x1 r1_0) (View.ld x2 r1_0) (View.ld x4 r1_1) (View.ld x5 r1_2)⟩]

/-- Its store tiles the buffer, so it covers it. -/
theorem cover1_9 (p0 : Vec F S2000x8 .f32) (y : S2000x8.Idx) :
    ∃ pc ∈ ([⟨r1_4, p0⟩] : List (View.Piece (Elt F) S2000x8 .f32)), y ∈ pc.1.set :=
  View.cover_of_tiled [⟨r1_4, p0⟩] S2000x8.size (by rfl) y

/-! ## The body's triple -/

set_option maxHeartbeats 1000000 in
/-- The kernel body on whole staging memrefs, the inputs' at read contents `xW` and the outputs' at anything, runs to
    the continuation holding the inputs' as they were and each output's at `out1_W` of the inputs'. The loads of the
    output memrefs read whatever is there; their values are unused. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S128x8 .f32) (harg6 : arg6.IsWhole) (arg7 : Memref sig .tc .vmem S8x128 .f32) (harg7 : arg7.IsWhole) (arg8 : Memref sig .tc .vmem S2000x128 .f32) (harg8 : arg8.IsWhole) (arg9 : Memref sig .tc .vmem S2000x128 .f32) (harg9 : arg9.IsWhole) (arg10 : Memref sig .tc .vmem S2000x8 .f32) (harg10 : arg10.IsWhole)
    (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x4) ∗ owns (c : Thread nD τ) arg9 fullShare (out1_8 x0 x1 x2 x3 x4 x5 x6) ∗ owns (c : Thread nD τ) arg10 fullShare (out1_9 x0 x1 x2 x4 x5)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and each output's at `out1_W` of the input blocks; the invariant the class's
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 4 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.R2.lean ====
import proofs.«423218_j15375982920242_3_alg».proof.Proof.Gen.KernelIdeal.Launch
import proofs.«423218_j15375982920242_3_alg».proof.Proof.Gen.KernelIdeal.Skeleton
import proofs.«423218_j15375982920242_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 2 (the finalize kernel), its one-control-case half

The third pipeline of the program walks 25 row blocks. At each point it hands the body four staging buffers: a
[2000,128] block of the aggregated messages, the matching [2000,8] block of the aggregated gates, the whole [8,128]
pooling table (transposed; fetched once, its block index never moves), and the [2000,128] output block. The body loads
the three inputs whole, computes one payload from them, and stores it over the whole output block. This file states,
at any float carrier `F` and at any buffer contents `V` on entry to the region: each window's block at a point, what
the body leaves in the output buffer as a function of the three input blocks, the body's triple, the pipeline's proof
data, and the body obligation the pipeline's loop rule asks for. -/

-- membership in a rectangle with an axis of 2000 coordinates: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a row block of the aggregated messages, fetched at every point): its current staging buffer holds
    its block at every point, for any proof data whose array is `V`'s (`hA`) and whose body leaves the block in place
    (`hafter`). The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the matching row block of the aggregated gates, fetched at every point): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole pooling table, fetched at the first point only): at a later point nothing was fetched,
    but the block index is the constant (0,0), so the buffer still holds the block of this point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S2000x8 := Rect.unit (s := S2000x8) ![0, 0] S2000x8.size inb_S2000x8_S2000x8_0_0
abbrev r2_2 : Rect S8x128 := Rect.unit (s := S8x128) ![0, 0] S8x128.size inb_S8x128_S8x128_0_0

/-! ## What the body leaves in the output window's buffer -/

/-- Window 3's staging buffer after the body, from the three input blocks: its one store, of the payload computed from
    the inputs as loaded through the whole-block rectangles. -/
def out2_3 (x0 : Vec F S2000x128 .f32) (x1 : Vec F S2000x8 .f32) (x2 : Vec F S8x128 .f32) : Vec F S2000x128 .f32 :=
  View.canon [⟨r2_0, k2_pay1 (View.ld x0 r2_0) (View.ld x1 r2_1) (View.ld x2 r2_2)⟩]

/-- The one store is the whole block, so it covers the buffer. -/
theorem cover2_3 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The body on whole staging memrefs — the three inputs' at contents `x0`, `x1`, `x2`, the output's at anything —
    runs to the continuation holding the inputs' as they were and the output's at `out2_3 x0 x1 x2`: three whole
    loads, a fourth of the output buffer whose value is not used, and one whole store of the payload. -/
theorem sound_kernel2 (c : Dev nD) (E : Set ℕ) (i : grid2.Coords) (arg1 : Memref sig .tc .vmem S2000x128 .f32) (harg1 : arg1.IsWhole)
    (arg2 : Memref sig .tc .vmem S2000x8 .f32) (harg2 : arg2.IsWhole) (arg3 : Memref sig .tc .vmem S8x128 .f32) (harg3 : arg3.IsWhole)
    (arg4 : Memref sig .tc .vmem S2000x128 .f32) (harg4 : arg4.IsWhole)
    (x0 : Vec F S2000x128 .f32) (x1 : Vec F S2000x8 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core `c`: the arrays as the region finds them (`V`); after the body at point `t`
    each input's buffer at its block and the output's at `out2_3` of the three input blocks; the invariant the one
    that leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (every window's current staging buffer, in window order), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Run.lean ====
/-
  THE RUN of the whole program: three kernel regions among six stretches of host operations, at any float instance.

  The buffers' contents at the ten boundaries between @main's nine items are a fold from the launch memory
  (`W0 … W9`): a host stretch maps the contents by its operations' composed function; a kernel region replaces each of its
  windows' arrays by what the pipeline's write-backs leave (an input window's array is left as it was) and touches
  nothing else. Each region's proof data are taken at the contents the region is entered with. Every weakly fair
  execution of @main then ends with EVERY unscoped buffer at its `W9` contents (`run_all`); so the argument arrays end as
  launched (none is written by a host operation or is a region's output), and the two results are `W9` read at their buffers.
-/
import proofs.«423218_j15375982920242_3_alg».proof.Proof.R0
import proofs.«423218_j15375982920242_3_alg».proof.Proof.R1
import proofs.«423218_j15375982920242_3_alg».proof.Proof.R2
import proofs.«423218_j15375982920242_3_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the column slices and the edge list's rows, -/
abbrev W3 : Dev nD → Valuation τ sig (Elt F) := fun c => StableHlo.after hostOps1 (W2 m ρ c)
/-- the key rows taken, -/
abbrev W4 : Dev nD → Valuation τ sig (Elt F) := fun c => StableHlo.after hostOps1_1 (W3 m ρ c)
/-- the query rows taken, -/
abbrev W5 : Dev nD → Valuation τ sig (Elt F) := fun c => StableHlo.after hostOps1_2 (W4 m ρ c)
/-- the value rows taken (region 1's entry). -/
abbrev W6 : Dev nD → Valuation τ sig (Elt F) := fun c => StableHlo.after hostOps1_3 (W5 m ρ c)
abbrev U6 : (c : Dev nD) → (b : Ref sig .tc) → Buf (Elt F) ((c : Thread nD τ).loc b) := fun c b => W6 m ρ c b
/-- At region 1's exit. -/
def W7 (c : Dev nD) : Valuation τ sig (Elt F) :=
  Pipeline.withArrays spec1 c (W6 m ρ c) fun w => (dat1 (U6 m ρ) c).arrAt w cfg1.N
theorem W7_arr (c : Dev nD) (w : Fin cfg1.W) :
    W7 m ρ c (Proc.devRef .tc (Pipeline.arrRef spec1 w)) = (dat1 (U6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev U7 : (c : Dev nD) → (b : Ref sig .tc) → Buf (Elt F) ((c : Thread nD τ).loc b) := fun c b => W7 m ρ c b
theorem hF1 (c : Dev nD) (w : Fin cfg1.W) : (dat1 (U6 m ρ) c).arrAt w cfg1.N = U7 m ρ c (Pipeline.arrRef spec1 w) :=
  (W7_arr m ρ c w).symm
theorem hrest1 (c : Dev nD) : ∀ b, b ∉ Finset.univ.image (Pipeline.arrRef spec1) → U7 m ρ c b = U6 m ρ c b :=
  fun b hb => W7_of_ne m ρ c b fun w e => hb (Finset.mem_image.mpr ⟨w, Finset.mem_univ _, e⟩)

/-- After the two aggregations (region 2's entry). -/
abbrev W8 : Dev nD → Valuation τ sig (Elt F) := fun c => StableHlo.after hostOps2 (W7 m ρ c)
abbrev U8 : (c : Dev nD) → (b : Ref sig .tc) → Buf (Elt F) ((c : Thread nD τ).loc b) := fun c b => W8 m ρ c b
/-- At region 2's exit: the end of @main. -/
def W9 (c : Dev nD) : Valuation τ sig (Elt F) :=
  Pipeline.withArrays spec2 c (W8 m ρ c) fun w => (dat2 (U8 m ρ) c).arrAt w cfg2.N
theorem W9_arr (c : Dev nD) (w : Fin cfg2.W) :
    W9 m ρ c (Proc.devRef .tc (Pipeline.arrRef spec2 w)) = (dat2 (U8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev U9 : (c : Dev nD) → (b : Ref sig .tc) → Buf (Elt F) ((c : Thread nD τ).loc b) := fun c b => W9 m ρ c b
theorem hF2 (c : Dev nD) (w : Fin cfg2.W) : (dat2 (U8 m ρ) c).arrAt w cfg2.N = U9 m ρ c (Pipeline.arrRef spec2 w) :=
  (W9_arr m ρ c w).symm
theorem hrest2 (c : Dev nD) : ∀ b, b ∉ Finset.univ.image (Pipeline.arrRef spec2) → U9 m ρ c b = U8 m ρ c b :=
  fun b hb => W9_of_ne m ρ c b fun w e => hb (Finset.mem_image.mpr ⟨w, Finset.mem_univ _, e⟩)

/-- An INPUT window's array leaves its region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
theorem W7_in (c : Dev nD) (w : Fin cfg1.W) (hw : (cfg1.win w).isOut = false) :
    W7 m ρ c (Proc.devRef .tc (Pipeline.arrRef spec1 w)) = W6 m ρ c (Proc.devRef .tc (Pipeline.arrRef spec1 w)) :=
  (W7_arr m ρ c w).trans (((dat1 (U6 m ρ) c).arrAt_in w hw _).trans (A_eq1 (U6 m ρ) c w))
theorem W9_in (c : Dev nD) (w : Fin cfg2.W) (hw : (cfg2.win w).isOut = false) :
    W9 m ρ c (Proc.devRef .tc (Pipeline.arrRef spec2 w)) = W8 m ρ c (Proc.devRef .tc (Pipeline.arrRef spec2 w)) :=
  (W9_arr m ρ c w).trans (((dat2 (U8 m ρ) c).arrAt_in w hw _).trans (A_eq2 (U8 m ρ) c w))

/-! ## The argument arrays through the fold -/

/-- `main_arg0` ends as launched: no host operation writes it and it is no region's output. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps2 _ hostOps2_writes (by decide : main_arg0 ∉ hostOps2_W)
    _ = W6 m ρ c (Proc.devRef .tc main_arg0) := W7_of_ne m ρ c main_arg0 (by decide)
    _ = W5 m ρ c (Proc.devRef .tc main_arg0) := StableHlo.after_of_writes_sub hostOps1_3 _ hostOps1_3_writes (by decide : main_arg0 ∉ hostOps1_3_W)
    _ = W4 m ρ c (Proc.devRef .tc main_arg0) := StableHlo.after_of_writes_sub hostOps1_2 _ hostOps1_2_writes (by decide : main_arg0 ∉ hostOps1_2_W)
    _ = W3 m ρ c (Proc.devRef .tc main_arg0) := StableHlo.after_of_writes_sub hostOps1_1 _ hostOps1_1_writes (by decide : main_arg0 ∉ hostOps1_1_W)
    _ = W2 m ρ c (Proc.devRef .tc main_arg0) := StableHlo.after_of_writes_sub hostOps1 _ hostOps1_writes (by decide : main_arg0 ∉ hostOps1_W)
    _ = W1 m ρ c (Proc.devRef .tc main_arg0) := W2_in m ρ c 0 rfl
    _ = W0 m ρ c (Proc.devRef .tc main_arg0) := StableHlo.after_of_writes_sub hostOps0 _ hostOps0_writes (by decide : main_arg0 ∉ hostOps0_W)
    _ = m ((c : Thread nD τ).loc main_arg0) := rfl

/-- `main_arg1` ends as launched: no host operation writes it and it is no region's output. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps2 _ hostOps2_writes (by decide : main_arg1 ∉ hostOps2_W)
    _ = W6 m ρ c (Proc.devRef .tc main_arg1) := W7_in m ρ c 2 rfl
    _ = W5 m ρ c (Proc.devRef .tc main_arg1) := StableHlo.after_of_writes_sub hostOps1_3 _ hostOps1_3_writes (by decide : main_arg1 ∉ hostOps1_3_W)
    _ = W4 m ρ c (Proc.devRef .tc main_arg1) := StableHlo.after_of_writes_sub hostOps1_2 _ hostOps1_2_writes (by decide : main_arg1 ∉ hostOps1_2_W)
    _ = W3 m ρ c (Proc.devRef .tc main_arg1) := StableHlo.after_of_writes_sub hostOps1_1 _ hostOps1_1_writes (by decide : main_arg1 ∉ hostOps1_1_W)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- `main_arg2` ends as launched: no host operation writes it and it is no region's output. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps2 _ hostOps2_writes (by decide : main_arg2 ∉ hostOps2_W)
    _ = W6 m ρ c (Proc.devRef .tc main_arg2) := W7_of_ne m ρ c main_arg2 (by decide)
    _ = W5 m ρ c (Proc.devRef .tc main_arg2) := StableHlo.after_of_writes_sub hostOps1_3 _ hostOps1_3_writes (by decide : main_arg2 ∉ hostOps1_3_W)
    _ = W4 m ρ c (Proc.devRef .tc main_arg2) := StableHlo.after_of_writes_sub hostOps1_2 _ hostOps1_2_writes (by decide : main_arg2 ∉ hostOps1_2_W)
    _ = W3 m ρ c (Proc.devRef .tc main_arg2) := StableHlo.after_of_writes_sub hostOps1_1 _ hostOps1_1_writes (by decide : main_arg2 ∉ hostOps1_1_W)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-- `main_arg3` ends as launched: no host operation writes it and it is no region's output. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps2 _ hostOps2_writes (by decide : main_arg3 ∉ hostOps2_W)
    _ = W6 m ρ c (Proc.devRef .tc main_arg3) := W7_of_ne m ρ c main_arg3 (by decide)
    _ = W5 m ρ c (Proc.devRef .tc main_arg3) := StableHlo.after_of_writes_sub hostOps1_3 _ hostOps1_3_writes (by decide : main_arg3 ∉ hostOps1_3_W)
    _ = W4 m ρ c (Proc.devRef .tc main_arg3) := StableHlo.after_of_writes_sub hostOps1_2 _ hostOps1_2_writes (by decide : main_arg3 ∉ hostOps1_2_W)
    _ = W3 m ρ c (Proc.devRef .tc main_arg3) := StableHlo.after_of_writes_sub hostOps1_1 _ hostOps1_1_writes (by decide : main_arg3 ∉ hostOps1_1_W)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- `main_arg4` ends as launched: no host operation writes it and it is no region's output. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps2 _ hostOps2_writes (by decide : main_arg4 ∉ hostOps2_W)
    _ = W6 m ρ c (Proc.devRef .tc main_arg4) := W7_of_ne m ρ c main_arg4 (by decide)
    _ = W5 m ρ c (Proc.devRef .tc main_arg4) := StableHlo.after_of_writes_sub hostOps1_3 _ hostOps1_3_writes (by decide : main_arg4 ∉ hostOps1_3_W)
    _ = W4 m ρ c (Proc.devRef .tc main_arg4) := StableHlo.after_of_writes_sub hostOps1_2 _ hostOps1_2_writes (by decide : main_arg4 ∉ hostOps1_2_W)
    _ = W3 m ρ c (Proc.devRef .tc main_arg4) := StableHlo.after_of_writes_sub hostOps1_1 _ hostOps1_1_writes (by decide : main_arg4 ∉ hostOps1_1_W)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- `main_arg5` ends as launched: no host operation writes it and it is no region's output. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps2 _ hostOps2_writes (by decide : main_arg5 ∉ hostOps2_W)
    _ = W6 m ρ c (Proc.devRef .tc main_arg5) := W7_of_ne m ρ c main_arg5 (by decide)
    _ = W5 m ρ c (Proc.devRef .tc main_arg5) := StableHlo.after_of_writes_sub hostOps1_3 _ hostOps1_3_writes (by decide : main_arg5 ∉ hostOps1_3_W)
    _ = W4 m ρ c (Proc.devRef .tc main_arg5) := StableHlo.after_of_writes_sub hostOps1_2 _ hostOps1_2_writes (by decide : main_arg5 ∉ hostOps1_2_W)
    _ = W3 m ρ c (Proc.devRef .tc main_arg5) := StableHlo.after_of_writes_sub hostOps1_1 _ hostOps1_1_writes (by decide : main_arg5 ∉ hostOps1_1_W)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- `main_arg6` ends as launched: no host operation writes it and it is no region's output. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps2 _ hostOps2_writes (by decide : main_arg6 ∉ hostOps2_W)
    _ = W6 m ρ c (Proc.devRef .tc main_arg6) := W7_in m ρ c 4 rfl
    _ = W5 m ρ c (Proc.devRef .tc main_arg6) := StableHlo.after_of_writes_sub hostOps1_3 _ hostOps1_3_writes (by decide : main_arg6 ∉ hostOps1_3_W)
    _ = W4 m ρ c (Proc.devRef .tc main_arg6) := StableHlo.after_of_writes_sub hostOps1_2 _ hostOps1_2_writes (by decide : main_arg6 ∉ hostOps1_2_W)
    _ = W3 m ρ c (Proc.devRef .tc main_arg6) := StableHlo.after_of_writes_sub hostOps1_1 _ hostOps1_1_writes (by decide : main_arg6 ∉ hostOps1_1_W)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U6 m ρ) c
  | ⟨2, _⟩ => fun c => dat2 (U8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the class's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split
    out of the unscoped buffers and put back at the exit contents; the generator register goes into the class's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (U6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U6 m ρ c) (U7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers and put back at the exit contents; the generator register goes into the class's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U8 m ρ c) (U9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine items in order. -/
abbrev segsA : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ) ]
/-- @main IS the run of the segments. -/
theorem main_run (c : Dev nD) : main (F := F) c = Pipeline.Seg.run (segsA m ρ) := (main_chain c).trans (by chain_rfl)

set_option backward.isDefEq.respectTransparency.types false in
/-- THE RUN: from any memory with zero counters, every weakly fair execution of @main on the TensorCores terminates,
    nothing faulting, and in every final state each unscoped buffer of each core holds its `W9` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segsA m ρ)
    (fun c Q => by rw [main_run m ρ c])
    (by simp only [segsA, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME, at any float instance: every execution terminates, nothing faulting, and the seven argument arrays end
    as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.KernelIdeal.Gen

end
-- ==== Proof.Spec.lean ====
/-
  THE SPECIFICATION: what one graph-attention layer computes, as exact extended reals, index by index.

  Node features `h : [50000, 128]`, edge features `e : [800000, 128]`, the edge list `idx : [2, 800000]` (row 0 the
  source node of an edge, row 1 its destination) and four projections `wq wk wv we : [128, 128]`. With
  `Q = h·wq`, `K = h·wk`, `V = h·wv` on the nodes and `P = e·we` on the edges:
    * the edge score is `score e j = K[src e, j] · Q[dst e, j] · ¼ · P[e, j]`;
    * the 128 columns are 8 heads of 16 lanes; the head's gate is `gate e a = exp (clip (∑ lanes of head a, score) to [-5, 5])`;
    * an edge sends `V[src e, j] · gate e (head of j)` and `gate e a` to its destination node, where they are summed
      (`num n j`, `den n a`: sums over the edges whose destination is `n`);
    * the node result is `num n j / (den n (head of j) + ε)`.
  A node row named by an index word is the word read signed and clamped into `[0, 49999]` (`row`): on the domain
  the certificate is stated on, `0 ≤ idx < 50000`, that is the index itself.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨2, ![50000, 128]⟩
abbrev SE : Shape := ⟨2, ![800000, 128]⟩
abbrev SI : Shape := ⟨2, ![2, 800000]⟩
abbrev SW : Shape := ⟨2, ![128, 128]⟩

/-- The node row an index word names: read signed, clamped into `[0, 49999]`. -/
def row (b : BitVec 32) : Fin 50000 := ⟨min b.toInt.toNat 49999, by omega⟩

/-- The head a column belongs to: columns `16a … 16a + 15` are head `a`. -/
def headOf (j : Fin 128) : Fin 8 := ⟨j.val / 16, by omega⟩

/-- Lane `d` of head `a` as a column. -/
def lane (a : Fin 8) (d : Fin 16) : Fin 128 := ⟨16 * a.val + d.val, by omega⟩

/-- A projection `x · w` of `R` rows of 128 features, at row `r` and column `j`. -/
def mm {R : Nat} (x : (⟨2, ![R, 128]⟩ : Shape).Idx → EReal) (w : SW.Idx → EReal) (r : Fin R) (j : Fin 128) : EReal :=
  ∑ k : Fin 128, x (ix2 r k) * w (ix2 k j)

/-- The scale `1/√16`, the word `0.25`. -/
def quarter : EReal := Ideal.ofBits .f32 0x3E800000#32
/-- The clip's bounds, the words `-5` and `5`. -/
def lo : EReal := Ideal.ofBits .f32 0xC0A00000#32
def hi : EReal := Ideal.ofBits .f32 0x40A00000#32
/-- The guard added to the normaliser, the word nearest `1e-6`. -/
def eps : EReal := Ideal.ofBits .f32 0x358637BD#32

section
variable (h : SN.Idx → EReal) (ee : SE.Idx → EReal) (idx : SI.Idx → BitVec 32) (wq wk wv we : SW.Idx → EReal)

/-- The source and destination node rows of edge `e`. -/
def src (e : Fin 800000) : Fin 50000 := row (idx (ix2 0 e))
def dst (e : Fin 800000) : Fin 50000 := row (idx (ix2 1 e))

/-- The edge score: key of the source times query of the destination, scaled, gated by the edge projection. -/
def score (e : Fin 800000) (j : Fin 128) : EReal :=
  mm h wk (src idx e) j * mm h wq (dst idx e) j * quarter * mm ee we e j

/-- A head's gate: the exponential of its lanes' summed score clipped to `[-5, 5]`. -/
def gate (e : Fin 800000) (a : Fin 8) : EReal :=
  Ideal.exp (min hi (max lo (∑ d : Fin 16, score h ee idx wq wk we e (lane a d))))

/-- What edge `e` sends to its destination in column `j`: the source's value, weighted by the head's gate. -/
def msg (e : Fin 800000) (j : Fin 128) : EReal :=
  mm h wv (src idx e) j * gate h ee idx wq wk we e (headOf j)

/-- The edges whose destination word, read signed, is node `n`. -/
def into (n : Fin 50000) : Finset (Fin 800000) :=
  Finset.univ.filter fun e => (idx (ix2 1 e)).toInt = (n.val : Int)

/-- The aggregated messages and the aggregated gates at node `n`. -/
def num (n : Fin 50000) (j : Fin 128) : EReal := ∑ e ∈ into idx n, msg h ee idx wq wk wv we e j
def den (n : Fin 50000) (a : Fin 8) : EReal := ∑ e ∈ into idx n, gate h ee idx wq wk we e a

/-- THE NODE RESULT, as an array. -/
def nodeOut : SN.Idx → EReal := fun i =>
  Ideal.div (num h ee idx wq wk wv we (i 0) (i 1)) (den h ee idx wq wk we (i 0) (headOf (i 1)) + eps)

/-- THE EDGE RESULT, as an array: the scores. -/
def edgeOut : SE.Idx → EReal := fun i => score h ee idx wq wk we (i 0) (i 1)

end

end Cert.Spec

end
-- ==== Proof.Payloads.lean ====
/-
  THE KERNEL BODIES' ARITHMETIC READ AT AN INDEX, over the extended reals.

  Each kernel body's pure arithmetic is a term over the blocks it loads. At the exact instance a float is an extended
  real, a narrowing of the format and a cast to the same shape change nothing, and a matrix product into a zero
  accumulator is the plain sum over the contraction coordinate of the operands' products. So:
    * the projection body at (r, j) is  ∑ k, x (r, k) · w (k, j);
    * the edge body's score at (r, j) is  ks (r, j) · qd (r, j) · ¼ · ∑ k, eb (r, k) · we (k, j);
    * its gate at (r, a) is  exp (clip to [-5, 5] of ∑ j, score (r, j) · P (j, a));
    * its message at (r, j) is  vs (r, j) · ∑ a, gate (r, a) · Pt (a, j);
    * the finalize body at (r, j) is  wv (r, j) · ∑ a, (1 / (z (r, a) + ε)) · Pt (a, j).
-/
import proofs.«423218_j15375982920242_3_alg».proof.Proof.Gen.KernelIdeal.Skeleton
import proofs.«423218_j15375982920242_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

variable [Cert.KernelIdeal.Facts]

/-! ## The four matrix products at an index

For each product's dimension numbers: the left operand's index at output index `i` and contraction index `q` is
`(i 0, q)`, the right operand's is `(q, i 1)`; so the product into a zero accumulator, read at `(r, j)`, is the sum over
the contraction coordinate `k` of `L (r, k) · R (k, j)`. -/

/-! ### [2000,128] × [128,384] -/

theorem lhsA_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhsA_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhsA_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhsA_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The [2000,128] × [128,384] product into a zero accumulator at `(r, j)`: `∑ k, L (r, k) · R (k, j)`. -/
theorem mmA_apply {φ₁ φ₂ : FTy} (prec : Option ContractPrecision) (L : FVec Ideal S2000x128 φ₁) (R : FVec Ideal S128x384 φ₂)
    (r : Fin 2000) (j : Fin 384) :
    matmul dot_S2000x128_S128x384_S2000x384_1_0_0_1_n_n prec L R (constant (F := Ideal) S2000x384 .f32 0x00000000#32) (ix2 r j)
      = ∑ k : Fin 128, L (ix2 r k) * R (ix2 k j) := by
  simp only [matmul]
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 r j) ((contrEquiv1 dot_S2000x128_S128x384_S2000x384_1_0_0_1_n_n 128 rfl rfl).symm k) = ix2 r k := funext fun a => Fin.ext (by
    match a with
    | ⟨0, _⟩ => exact lhsA_0 _ _
    | ⟨1, _⟩ => exact (lhsA_1 _ _).trans hk)
  have er : dot_S2000x128_S128x384_S2000x384_1_0_0_1_n_n.rhsIdx (ix2 r j) ((contrEquiv1 dot_S2000x128_S128x384_S2000x384_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-! ### [2000,128] × [128,128] -/

theorem lhsB_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsB_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsB_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsB_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The [2000,128] × [128,128] product into a zero accumulator at `(r, j)`: `∑ k, L (r, k) · R (k, j)`. -/
theorem mmB_apply {φ₁ φ₂ : FTy} (prec : Option ContractPrecision) (L : FVec Ideal S2000x128 φ₁) (R : FVec Ideal S128x128 φ₂)
    (r : Fin 2000) (j : Fin 128) :
    matmul dot_S2000x128_S128x128_S2000x128_1_0_0_1_n_n prec L R (constant (F := Ideal) S2000x128 .f32 0x00000000#32) (ix2 r j)
      = ∑ k : Fin 128, L (ix2 r k) * R (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ### [2000,128] × [128,8] -/

theorem lhsC_0 (i : S2000x8.Idx) (q : dot_S2000x128_S128x8_S2000x8_1_0_0_1_n_n.contr.Idx) :
    (dot_S2000x128_S128x8_S2000x8_1_0_0_1_n_n.lhsIdx i q 0).val = (i 0).val := by
  unfold DotDims.lhsIdx
  rw [dif_neg (show ¬(0 : Fin S2000x128.rank) ∈ dot_S2000x128_S128x8_S2000x8_1_0_0_1_n_n.lhsBatch by decide), dif_pos (show (0 : Fin S2000x128.rank) ∈ dot_S2000x128_S128x8_S2000x8_1_0_0_1_n_n.lhsNonContracting by decide)]
  rfl
theorem lhsC_1 (i : S2000x8.Idx) (q : dot_S2000x128_S128x8_S2000x8_1_0_0_1_n_n.contr.Idx) :
    (dot_S2000x128_S128x8_S2000x8_1_0_0_1_n_n.lhsIdx i q 1).val = (q ⟨0, by decide⟩).val :=
  dot_S2000x128_S128x8_S2000x8_1_0_0_1_n_n.lhsIdx_val_of_single rfl i q
theorem rhsC_0 (i : S2000x8.Idx) (q : dot_S2000x128_S128x8_S2000x8_1_0_0_1_n_n.contr.Idx) :
    (dot_S2000x128_S128x8_S2000x8_1_0_0_1_n_n.rhsIdx i q 0).val = (q ⟨0, by decide⟩).val :=
  dot_S2000x128_S128x8_S2000x8_1_0_0_1_n_n.rhsIdx_val_of_single rfl i q
theorem rhsC_1 (i : S2000x8.Idx) (q : dot_S2000x128_S128x8_S2000x8_1_0_0_1_n_n.contr.Idx) :
    (dot_S2000x128_S128x8_S2000x8_1_0_0_1_n_n.rhsIdx i q 1).val = (i 1).val := by
  unfold DotDims.rhsIdx
  rw [dif_neg (show ¬(1 : Fin S128x8.rank) ∈ dot_S2000x128_S128x8_S2000x8_1_0_0_1_n_n.rhsBatch by decide), dif_pos (show (1 : Fin S128x8.rank) ∈ dot_S2000x128_S128x8_S2000x8_1_0_0_1_n_n.rhsNonContracting by decide)]
  rfl

/-- The [2000,128] × [128,8] product into a zero accumulator at `(r, j)`: `∑ k, L (r, k) · R (k, j)`. -/
theorem mmC_apply {φ₁ φ₂ : FTy} (prec : Option ContractPrecision) (L : FVec Ideal S2000x128 φ₁) (R : FVec Ideal S128x8 φ₂)
    (r : Fin 2000) (j : Fin 8) :
    matmul dot_S2000x128_S128x8_S2000x8_1_0_0_1_n_n prec L R (constant (F := Ideal) S2000x8 .f32 0x00000000#32) (ix2 r j)
      = ∑ k : Fin 128, L (ix2 r k) * R (ix2 k j) := by
  simp only [matmul]
  rw [Ideal.matmul_constant_zero_apply, ← Equiv.sum_comp (contrEquiv1 dot_S2000x128_S128x8_S2000x8_1_0_0_1_n_n 128 rfl rfl).symm]
  refine Finset.sum_congr rfl fun k _ => ?_
  have hk := contrEquiv1_symm_val dot_S2000x128_S128x8_S2000x8_1_0_0_1_n_n 128 rfl rfl k
  have el : dot_S2000x128_S128x8_S2000x8_1_0_0_1_n_n.lhsIdx (ix2 r j) ((contrEquiv1 dot_S2000x128_S128x8_S2000x8_1_0_0_1_n_n 128 rfl rfl).symm k) = ix2 r k := funext fun a => Fin.ext (by
    match a with
    | ⟨0, _⟩ => exact lhsC_0 _ _
    | ⟨1, _⟩ => exact (lhsC_1 _ _).trans hk)
  have er : dot_S2000x128_S128x8_S2000x8_1_0_0_1_n_n.rhsIdx (ix2 r j) ((contrEquiv1 dot_S2000x128_S128x8_S2000x8_1_0_0_1_n_n 128 rfl rfl).symm k) = ix2 k j := funext fun a => Fin.ext (by
    match a with
    | ⟨0, _⟩ => exact (rhsC_0 _ _).trans hk
    | ⟨1, _⟩ => exact rhsC_1 _ _)
  rw [el, er]

/-! ### [2000,8] × [8,128] -/

theorem lhsD_0 (i : S2000x128.Idx) (q : dot_S2000x8_S8x128_S2000x128_1_0_0_1_n_n.contr.Idx) :
    (dot_S2000x8_S8x128_S2000x128_1_0_0_1_n_n.lhsIdx i q 0).val = (i 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
theorem lhsD_1 (i : S2000x128.Idx) (q : dot_S2000x8_S8x128_S2000x128_1_0_0_1_n_n.contr.Idx) :
    (dot_S2000x8_S8x128_S2000x128_1_0_0_1_n_n.lhsIdx i q 1).val = (q ⟨0, by decide⟩).val :=
  dot_S2000x8_S8x128_S2000x128_1_0_0_1_n_n.lhsIdx_val_of_single rfl i q
theorem rhsD_0 (i : S2000x128.Idx) (q : dot_S2000x8_S8x128_S2000x128_1_0_0_1_n_n.contr.Idx) :
    (dot_S2000x8_S8x128_S2000x128_1_0_0_1_n_n.rhsIdx i q 0).val = (q ⟨0, by decide⟩).val :=
  dot_S2000x8_S8x128_S2000x128_1_0_0_1_n_n.rhsIdx_val_of_single rfl i q
theorem rhsD_1 (i : S2000x128.Idx) (q : dot_S2000x8_S8x128_S2000x128_1_0_0_1_n_n.contr.Idx) :
    (dot_S2000x8_S8x128_S2000x128_1_0_0_1_n_n.rhsIdx i q 1).val = (i 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- The [2000,8] × [8,128] product into a zero accumulator at `(r, j)`: `∑ k, L (r, k) · R (k, j)`. -/
theorem mmD_apply {φ₁ φ₂ : FTy} (prec : Option ContractPrecision) (L : FVec Ideal S2000x8 φ₁) (R : FVec Ideal S8x128 φ₂)
    (r : Fin 2000) (j : Fin 128) :
    matmul dot_S2000x8_S8x128_S2000x128_1_0_0_1_n_n prec L R (constant (F := Ideal) S2000x128 .f32 0x00000000#32) (ix2 r j)
      = ∑ k : Fin 8, L (ix2 r k) * R (ix2 k j) := by
  simp only [matmul]
  rw [Ideal.matmul_constant_zero_apply, ← Equiv.sum_comp (contrEquiv1 dot_S2000x8_S8x128_S2000x128_1_0_0_1_n_n 8 rfl rfl).symm]
  refine Finset.sum_congr rfl fun k _ => ?_
  have hk := contrEquiv1_symm_val dot_S2000x8_S8x128_S2000x128_1_0_0_1_n_n 8 rfl rfl k
  have el : dot_S2000x8_S8x128_S2000x128_1_0_0_1_n_n.lhsIdx (ix2 r j) ((contrEquiv1 dot_S2000x8_S8x128_S2000x128_1_0_0_1_n_n 8 rfl rfl).symm k) = ix2 r k := funext fun a => Fin.ext (by
    match a with
    | ⟨0, _⟩ => exact lhsD_0 _ _
    | ⟨1, _⟩ => exact (lhsD_1 _ _).trans hk)
  have er : dot_S2000x8_S8x128_S2000x128_1_0_0_1_n_n.rhsIdx (ix2 r j) ((contrEquiv1 dot_S2000x8_S8x128_S2000x128_1_0_0_1_n_n 8 rfl rfl).symm k) = ix2 k j := funext fun a => Fin.ext (by
    match a with
    | ⟨0, _⟩ => exact (rhsD_0 _ _).trans hk
    | ⟨1, _⟩ => exact rhsD_1 _ _)
  rw [el, er]

/-! ## The payloads -/

/-- The projection body at `(r, j)`. -/
theorem pay0_apply (x : Vec Ideal S2000x128 .f32) (w : Vec Ideal S128x384 .f32) (r : Fin 2000) (j : Fin 384) :
    k0_pay1 (F := Ideal) x w (ix2 r j) = ∑ k : Fin 128, x (ix2 r k) * w (ix2 k j) := by
  unfold k0_pay1
  rw [mmA_apply]
  refine Finset.sum_congr rfl fun k _ => ?_
  rw [truncf_apply, truncf_apply, shapeCast_self]

/-- The edge body's score at `(r, j)`. -/
theorem pay1_1_apply (ks qd eb : Vec Ideal S2000x128 .f32) (we : Vec Ideal S128x128 .f32) (r : Fin 2000) (j : Fin 128) :
    k1_pay1 (F := Ideal) ks qd eb we (ix2 r j)
      = ks (ix2 r j) * qd (ix2 r j) * Cert.Spec.quarter * ∑ k : Fin 128, eb (ix2 r k) * we (ix2 k j) := by
  unfold k1_pay1
  rw [mulf_apply, mulf_apply, mulf_apply, mmB_apply, shapeCast_self, shapeCast_self, broadcast_apply]
  rfl

/-- The edge body's gate at `(r, a)`. -/
theorem pay1_2_apply (ks qd eb : Vec Ideal S2000x128 .f32) (we : Vec Ideal S128x128 .f32) (P : Vec Ideal S128x8 .f32)
    (r : Fin 2000) (a : Fin 8) :
    k1_pay2 (F := Ideal) ks qd eb we P (ix2 r a)
      = Ideal.exp (min Cert.Spec.hi (max Cert.Spec.lo (∑ j : Fin 128, k1_pay1 (F := Ideal) ks qd eb we (ix2 r j) * P (ix2 j a)))) := by
  unfold k1_pay2
  show Ideal.exp (min _ (max _ _)) = _
  rw [mmC_apply]
  rfl

/-- The edge body's message at `(r, j)`. -/
theorem pay1_3_apply (ks qd eb vs : Vec Ideal S2000x128 .f32) (we : Vec Ideal S128x128 .f32) (P : Vec Ideal S128x8 .f32)
    (Pt : Vec Ideal S8x128 .f32) (r : Fin 2000) (j : Fin 128) :
    k1_pay3 (F := Ideal) ks qd eb vs we P Pt (ix2 r j)
      = vs (ix2 r j) * ∑ a : Fin 8, k1_pay2 (F := Ideal) ks qd eb we P (ix2 r a) * Pt (ix2 a j) := by
  unfold k1_pay3
  rw [mulf_apply, mmD_apply, shapeCast_self]

/-- The finalize body at `(r, j)`. -/
theorem pay2_apply (wv : Vec Ideal S2000x128 .f32) (z : Vec Ideal S2000x8 .f32) (Pt : Vec Ideal S8x128 .f32)
    (r : Fin 2000) (j : Fin 128) :
    k2_pay1 (F := Ideal) wv z Pt (ix2 r j)
      = wv (ix2 r j) * ∑ a : Fin 8, Ideal.div (Ideal.ofBits .f32 0x3F800000#32) (z (ix2 r a) + Cert.Spec.eps) * Pt (ix2 a j) := by
  unfold k2_pay1
  rw [mulf_apply, mmD_apply, shapeCast_self]
  refine congrArg (wv (ix2 r j) * ·) (Finset.sum_congr rfl fun a _ => ?_)
  rw [divf_apply, addf_apply, shapeCast_self, broadcast_apply, broadcast_apply]
  rfl

end Cert.KernelIdeal.Payloads

end
-- ==== Proof.ValueR1.lean ====
/- Kernel region 1's output arrays after the whole grid has run, over the extended reals, index by index: the scores,
   the gates and the messages of every edge row as one function of the arrays the region finds. Point `t` of the 400
   writes rows `2000 t … 2000 t + 1999`; row `e` is written by point `e / 2000` at row `e % 2000` of its block. -/
import proofs.«423218_j15375982920242_3_alg».proof.Proof.R1
import proofs.«423218_j15375982920242_3_alg».proof.Proof.Payloads
import proofs.«423218_j15375982920242_3_alg».proof.Proof.Spec
import Idealize.ShloMosaic.Lib.Pipeline.Value
import Idealize.ShloMosaic.Lib.ValueIdx

noncomputable section

open scoped BigOperators

namespace Cert.KernelIdeal.Gen

open Cert.KernelIdeal Cert.KernelIdeal.Payloads Idealize.ShloMosaic Idealize.ShloMosaic.TcCoe Idealize.ShloMosaic.ValueIdx Idealize.SL.Sem
open Idealize.ShloMosaic.Pipeline (Dat)

/-! ## The values, as functions of arrays -/

/-- The score of edge row `e` in column `j`: key times query, scaled, times the projected edge features. -/
def scoreF (ks qd eb : S800000x128.Idx → EReal) (we : S128x128.Idx → EReal) (e : Fin 800000) (j : Fin 128) : EReal :=
  ks (ix2 e j) * qd (ix2 e j) * Cert.Spec.quarter * ∑ k : Fin 128, eb (ix2 e k) * we (ix2 k j)

/-- The gate of edge row `e` for head `a`: the exponential of the clipped pooled score. -/
def gateF (ks qd eb : S800000x128.Idx → EReal) (we : S128x128.Idx → EReal) (P : S128x8.Idx → EReal) (e : Fin 800000) (a : Fin 8) : EReal :=
  Ideal.exp (min Cert.Spec.hi (max Cert.Spec.lo (∑ j : Fin 128, scoreF ks qd eb we e j * P (ix2 j a))))

/-- The message of edge row `e` in column `j`: the value row times the gate spread back over the head's lanes. -/
def msgF (ks qd eb vs : S800000x128.Idx → EReal) (we : S128x128.Idx → EReal) (P : S128x8.Idx → EReal) (Pt : S8x128.Idx → EReal)
    (e : Fin 800000) (j : Fin 128) : EReal :=
  vs (ix2 e j) * ∑ a : Fin 8, gateF ks qd eb we P e a * Pt (ix2 a j)

/-! ## A point's payloads from rows of the arrays -/

/-- The body's score at row `r` of blocks that are row `e` of the arrays. -/
theorem score_of_blocks (x0 x1 x2 : Vec Ideal S2000x128 .f32) (x4 : Vec Ideal S128x128 .f32)
    (a0 a1 a2 : S800000x128.Idx → EReal) (a4 : S128x128.Idx → EReal) (r : Fin 2000) (e : Fin 800000)
    (h0 : ∀ k : Fin 128, x0 (ix2 r k) = a0 (ix2 e k)) (h1 : ∀ k : Fin 128, x1 (ix2 r k) = a1 (ix2 e k))
    (h2 : ∀ k : Fin 128, x2 (ix2 r k) = a2 (ix2 e k)) (h4 : ∀ k j : Fin 128, x4 (ix2 k j) = a4 (ix2 k j)) (j : Fin 128) :
    k1_pay1 (F := Ideal) x0 x1 x2 x4 (ix2 r j) = scoreF a0 a1 a2 a4 e j := by
  rw [pay1_1_apply, h0, h1]
  unfold scoreF
  exact congrArg (a0 (ix2 e j) * a1 (ix2 e j) * Cert.Spec.quarter * ·) (Finset.sum_congr rfl fun k _ => by rw [h2, h4])

/-- The body's gate at row `r`. -/
theorem gate_of_blocks (x0 x1 x2 : Vec Ideal S2000x128 .f32) (x4 : Vec Ideal S128x128 .f32) (x5 : Vec Ideal S128x8 .f32)
    (a0 a1 a2 : S800000x128.Idx → EReal) (a4 : S128x128.Idx → EReal) (a5 : S128x8.Idx → EReal) (r : Fin 2000) (e : Fin 800000)
    (h0 : ∀ k : Fin 128, x0 (ix2 r k) = a0 (ix2 e k)) (h1 : ∀ k : Fin 128, x1 (ix2 r k) = a1 (ix2 e k))
    (h2 : ∀ k : Fin 128, x2 (ix2 r k) = a2 (ix2 e k)) (h4 : ∀ k j : Fin 128, x4 (ix2 k j) = a4 (ix2 k j))
    (h5 : ∀ (j : Fin 128) (a : Fin 8), x5 (ix2 j a) = a5 (ix2 j a)) (a : Fin 8) :
    k1_pay2 (F := Ideal) x0 x1 x2 x4 x5 (ix2 r a) = gateF a0 a1 a2 a4 a5 e a := by
  rw [pay1_2_apply]
  unfold gateF
  exact congrArg (fun s => Ideal.exp (min Cert.Spec.hi (max Cert.Spec.lo s)))
    (Finset.sum_congr rfl fun j _ => by rw [score_of_blocks x0 x1 x2 x4 a0 a1 a2 a4 r e h0 h1 h2 h4 j, h5])

/-- The body's message at row `r`. -/
theorem msg_of_blocks (x0 x1 x2 x3 : Vec Ideal S2000x128 .f32) (x4 : Vec Ideal S128x128 .f32) (x5 : Vec Ideal S128x8 .f32)
    (x6 : Vec Ideal S8x128 .f32)
    (a0 a1 a2 a3 : S800000x128.Idx → EReal) (a4 : S128x128.Idx → EReal) (a5 : S128x8.Idx → EReal) (a6 : S8x128.Idx → EReal)
    (r : Fin 2000) (e : Fin 800000)
    (h0 : ∀ k : Fin 128, x0 (ix2 r k) = a0 (ix2 e k)) (h1 : ∀ k : Fin 128, x1 (ix2 r k) = a1 (ix2 e k))
    (h2 : ∀ k : Fin 128, x2 (ix2 r k) = a2 (ix2 e k)) (h3 : ∀ k : Fin 128, x3 (ix2 r k) = a3 (ix2 e k))
    (h4 : ∀ k j : Fin 128, x4 (ix2 k j) = a4 (ix2 k j))
    (h5 : ∀ (j : Fin 128) (a : Fin 8), x5 (ix2 j a) = a5 (ix2 j a))
    (h6 : ∀ (a : Fin 8) (j : Fin 128), x6 (ix2 a j) = a6 (ix2 a j)) (j : Fin 128) :
    k1_pay3 (F := Ideal) x0 x1 x2 x3 x4 x5 x6 (ix2 r j) = msgF a0 a1 a2 a3 a4 a5 a6 e j := by
  rw [pay1_3_apply, h3]
  unfold msgF
  exact congrArg (a3 (ix2 e j) * ·)
    (Finset.sum_congr rfl fun a _ => by rw [gate_of_blocks x0 x1 x2 x4 x5 a0 a1 a2 a4 a5 r e h0 h1 h2 h4 h5 a, h6])

/-! ## The region's values at its entry contents -/

section
variable (V : (c : Dev nD) → (b : Ref sig .tc) → Buf (Elt Ideal) ((c : Thread nD τ).loc b))

def scoreV (c : Dev nD) (e : Fin 800000) (j : Fin 128) : EReal :=
  scoreF (V c main_v9) (V c main_v10) (V c main_arg1) (V c main_arg6) e j
def gateV (c : Dev nD) (e : Fin 800000) (a : Fin 8) : EReal :=
  gateF (V c main_v9) (V c main_v10) (V c main_arg1) (V c main_arg6) (V c main_cst) e a
def msgV (c : Dev nD) (e : Fin 800000) (j : Fin 128) : EReal :=
  msgF (V c main_v9) (V c main_v10) (V c main_arg1) (V c main_v11) (V c main_arg6) (V c main_cst) (V c main_cst_0) e j

theorem hz1 : (![0, 0] : Fin 2 → Nat) = fun _ => 0 := funext fun a => by fin_cases a <;> rfl

/-! ## The index maps, decided over the grid -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## The input blocks as rows of their arrays -/

/-- Row `r` of point `t`'s block of window 0 is row `2000 t + r` of its array. -/
theorem iblk1_0_apply (c : Dev nD) (t : Fin cfg1.N) (r : Fin 2000) (e : Fin 800000) (he : e.val = t.val * 2000 + r.val) (k : Fin 128) :
    (iblk1 V c 0 t : Vec Ideal S2000x128 .f32) (ix2 r k) = (V c main_v9 : S800000x128.Idx → EReal) (ix2 e k) := by
  obtain ⟨e00, e01, e10, e11, e20, e21, e30, e31, e40, e41, e50, e51, e60, e61, e70, e71, e80, e81, e90, e91⟩ := idx_facts1 t
  unfold iblk1
  rw [View.read_apply]
  show (V c main_v9 : S800000x128.Idx → EReal) _ = _
  congr 1
  funext a
  apply Fin.ext
  match a with
  | ⟨0, _⟩ => show win1_0.index t (0 : Fin 2) * 2000 + 1 * r.val = e.val; omega
  | ⟨1, _⟩ => show win1_0.index t (1 : Fin 2) * 128 + 1 * k.val = k.val; omega

/-- Row `r` of point `t`'s block of window 1 is row `2000 t + r` of its array. -/
theorem iblk1_1_apply (c : Dev nD) (t : Fin cfg1.N) (r : Fin 2000) (e : Fin 800000) (he : e.val = t.val * 2000 + r.val) (k : Fin 128) :
    (iblk1 V c 1 t : Vec Ideal S2000x128 .f32) (ix2 r k) = (V c main_v10 : S800000x128.Idx → EReal) (ix2 e k) := by
  obtain ⟨e00, e01, e10, e11, e20, e21, e30, e31, e40, e41, e50, e51, e60, e61, e70, e71, e80, e81, e90, e91⟩ := idx_facts1 t
  unfold iblk1
  rw [View.read_apply]
  show (V c main_v10 : S800000x128.Idx → EReal) _ = _
  congr 1
  funext a
  apply Fin.ext
  match a with
  | ⟨0, _⟩ => show win1_1.index t (0 : Fin 2) * 2000 + 1 * r.val = e.val; omega
  | ⟨1, _⟩ => show win1_1.index t (1 : Fin 2) * 128 + 1 * k.val = k.val; omega

/-- Row `r` of point `t`'s block of window 2 is row `2000 t + r` of its array. -/
theorem iblk1_2_apply (c : Dev nD) (t : Fin cfg1.N) (r : Fin 2000) (e : Fin 800000) (he : e.val = t.val * 2000 + r.val) (k : Fin 128) :
    (iblk1 V c 2 t : Vec Ideal S2000x128 .f32) (ix2 r k) = (V c main_arg1 : S800000x128.Idx → EReal) (ix2 e k) := by
  obtain ⟨e00, e01, e10, e11, e20, e21, e30, e31, e40, e41, e50, e51, e60, e61, e70, e71, e80, e81, e90, e91⟩ := idx_facts1 t
  unfold iblk1
  rw [View.read_apply]
  show (V c main_arg1 : S800000x128.Idx → EReal) _ = _
  congr 1
  funext a
  apply Fin.ext
  match a with
  | ⟨0, _⟩ => show win1_2.index t (0 : Fin 2) * 2000 + 1 * r.val = e.val; omega
  | ⟨1, _⟩ => show win1_2.index t (1 : Fin 2) * 128 + 1 * k.val = k.val; omega

/-- Row `r` of point `t`'s block of window 3 is row `2000 t + r` of its array. -/
theorem iblk1_3_apply (c : Dev nD) (t : Fin cfg1.N) (r : Fin 2000) (e : Fin 800000) (he : e.val = t.val * 2000 + r.val) (k : Fin 128) :
    (iblk1 V c 3 t : Vec Ideal S2000x128 .f32) (ix2 r k) = (V c main_v11 : S800000x128.Idx → EReal) (ix2 e k) := by
  obtain ⟨e00, e01, e10, e11, e20, e21, e30, e31, e40, e41, e50, e51, e60, e61, e70, e71, e80, e81, e90, e91⟩ := idx_facts1 t
  unfold iblk1
  rw [View.read_apply]
  show (V c main_v11 : S800000x128.Idx → EReal) _ = _
  congr 1
  funext a
  apply Fin.ext
  match a with
  | ⟨0, _⟩ => show win1_3.index t (0 : Fin 2) * 2000 + 1 * r.val = e.val; omega
  | ⟨1, _⟩ => show win1_3.index t (1 : Fin 2) * 128 + 1 * k.val = k.val; omega

/-- Window 4's block at every point is its whole array. -/
theorem iblk1_4_apply (c : Dev nD) (t : Fin cfg1.N) (p : Fin 128) (q : Fin 128) :
    (iblk1 V c 4 t : Vec Ideal S128x128 .f32) (ix2 p q) = (V c main_arg6 : S128x128.Idx → EReal) (ix2 p q) := by
  obtain ⟨e00, e01, e10, e11, e20, e21, e30, e31, e40, e41, e50, e51, e60, e61, e70, e71, e80, e81, e90, e91⟩ := idx_facts1 t
  unfold iblk1
  rw [View.read_apply]
  show (V c main_arg6 : S128x128.Idx → EReal) _ = _
  congr 1
  funext a
  apply Fin.ext
  match a with
  | ⟨0, _⟩ => show win1_4.index t (0 : Fin 2) * 128 + 1 * p.val = p.val; omega
  | ⟨1, _⟩ => show win1_4.index t (1 : Fin 2) * 128 + 1 * q.val = q.val; omega

/-- Window 5's block at every point is its whole array. -/
theorem iblk1_5_apply (c : Dev nD) (t : Fin cfg1.N) (p : Fin 128) (q : Fin 8) :
    (iblk1 V c 5 t : Vec Ideal S128x8 .f32) (ix2 p q) = (V c main_cst : S128x8.Idx → EReal) (ix2 p q) := by
  obtain ⟨e00, e01, e10, e11, e20, e21, e30, e31, e40, e41, e50, e51, e60, e61, e70, e71, e80, e81, e90, e91⟩ := idx_facts1 t
  unfold iblk1
  rw [View.read_apply]
  show (V c main_cst : S128x8.Idx → EReal) _ = _
  congr 1
  funext a
  apply Fin.ext
  match a with
  | ⟨0, _⟩ => show win1_5.index t (0 : Fin 2) * 128 + 1 * p.val = p.val; omega
  | ⟨1, _⟩ => show win1_5.index t (1 : Fin 2) * 8 + 1 * q.val = q.val; omega

/-- Window 6's block at every point is its whole array. -/
theorem iblk1_6_apply (c : Dev nD) (t : Fin cfg1.N) (p : Fin 8) (q : Fin 128) :
    (iblk1 V c 6 t : Vec Ideal S8x128 .f32) (ix2 p q) = (V c main_cst_0 : S8x128.Idx → EReal) (ix2 p q) := by
  obtain ⟨e00, e01, e10, e11, e20, e21, e30, e31, e40, e41, e50, e51, e60, e61, e70, e71, e80, e81, e90, e91⟩ := idx_facts1 t
  unfold iblk1
  rw [View.read_apply]
  show (V c main_cst_0 : S8x128.Idx → EReal) _ = _
  congr 1
  funext a
  apply Fin.ext
  match a with
  | ⟨0, _⟩ => show win1_6.index t (0 : Fin 2) * 8 + 1 * p.val = p.val; omega
  | ⟨1, _⟩ => show win1_6.index t (1 : Fin 2) * 128 + 1 * q.val = q.val; omega

/-! ## From blocks to the arrays -/

/-- What point `t` writes back to window 7's array is block `t` of `scoreV`: rows `2000 t …` of it. -/
theorem flushed1_7_eq (c : Dev nD) (t : Fin cfg1.N) :
    (dat1 (F := Ideal) V c).flushed 7 t
      = ((cfg1.win 7).blk t).view.read (Elt Ideal) (fun i : S800000x128.Idx => scoreV V c (i 0) (i 1)) := by
  show (cfg1.win 7).cut (grid1.coords t) ((dat1 (F := Ideal) V c).after 7 t) = _
  rw [after1_7]
  unfold out1_7
  rw [View.canon_unit_zero hz1]
  simp only [View.ld_unit_zero (S := S2000x128) hz1, View.ld_unit_zero (S := S128x128) hz1]
  obtain ⟨e00, e01, e10, e11, e20, e21, e30, e31, e40, e41, e50, e51, e60, e61, e70, e71, e80, e81, e90, e91⟩ := idx_facts1 t
  funext y
  obtain ⟨r, q, rfl⟩ : ∃ (r : Fin 2000) (q : Fin 128), y = ix2 r q := ⟨y 0, y 1, eq_ix2 y⟩
  have hr : r.val < 2000 := r.isLt
  have ht : t.val < 400 := lt_of_lt_of_eq t.isLt N_1
  obtain ⟨e, he⟩ : ∃ e : Fin 800000, e.val = t.val * 2000 + r.val := ⟨⟨t.val * 2000 + r.val, by omega⟩, rfl⟩
  have hrow : ((cfg1.win 7).blk t).view.emb (ix2 r q) = (ix2 e q : S800000x128.Idx) := by
    funext a
    apply Fin.ext
    match a with
    | ⟨0, _⟩ => show win1_7.index t (0 : Fin 2) * 2000 + 1 * r.val = e.val; omega
    | ⟨1, _⟩ => show win1_7.index t (1 : Fin 2) * 128 + 1 * q.val = q.val; omega
  show k1_pay1 (F := Ideal) (iblk1 V c 0 t) (iblk1 V c 1 t) (iblk1 V c 2 t) (iblk1 V c 4 t) (ix2 r q)
    = (fun i : S800000x128.Idx => scoreV V c (i 0) (i 1)) (((cfg1.win 7).blk t).view.emb (ix2 r q))
  rw [hrow]
  exact score_of_blocks _ _ _ _ _ _ _ _ r e
      (fun k => iblk1_0_apply V c t r e he k)
      (fun k => iblk1_1_apply V c t r e he k)
      (fun k => iblk1_2_apply V c t r e he k)
      (fun p q => iblk1_4_apply V c t p q) q

/-- An index of the array is in point `t`'s block iff each coordinate is in the block's range on its axis. -/
theorem mem_blk1_7 (t : Fin cfg1.N) (i : S800000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v12_0).slice (win1_7.rect t)).set ↔ _
  rw [View.set_slice_whole, Rect.mem_set_unit]
  exact Iff.rfl

/-- Every index of the array is in the block of the point its row falls in: row `e` in point `e / 2000`'s. -/
theorem covered1_7 (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  obtain ⟨t, ht⟩ : ∃ t : Fin cfg1.N, t.val = (i 0).val / 2000 := ⟨⟨(i 0).val / 2000, by rw [show cfg1.N = 400 from N_1]; omega⟩, rfl⟩
  obtain ⟨e00, e01, e10, e11, e20, e21, e30, e31, e40, e41, e50, e51, e60, e61, e70, e71, e80, e81, e90, e91⟩ := idx_facts1 t
  refine ⟨t, flush1_7 t, ?_⟩
  rw [mem_blk1_7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- Window 7's array after the whole grid: `scoreV` at every index. -/
theorem arr1_7 (c : Dev nD) :
    (dat1 (F := Ideal) V c).arrAt 7 cfg1.N = fun i : S800000x128.Idx => scoreV V c (i 0) (i 1) :=
  (dat1 (F := Ideal) V c).arrAt_eq_of_cover 7 (fun i : S800000x128.Idx => scoreV V c (i 0) (i 1))
    (fun t _ => flushed1_7_eq V c t) covered1_7

theorem arr1_7_apply (c : Dev nD) (e : Fin 800000) (j : Fin 128) :
    (dat1 (F := Ideal) V c).arrAt 7 cfg1.N (ix2 e j) = scoreV V c e j :=
  congrFun (arr1_7 V c) (ix2 e j)

/-- What point `t` writes back to window 8's array is block `t` of `msgV`: rows `2000 t …` of it. -/
theorem flushed1_8_eq (c : Dev nD) (t : Fin cfg1.N) :
    (dat1 (F := Ideal) V c).flushed 8 t
      = ((cfg1.win 8).blk t).view.read (Elt Ideal) (fun i : S800000x128.Idx => msgV V c (i 0) (i 1)) := by
  show (cfg1.win 8).cut (grid1.coords t) ((dat1 (F := Ideal) V c).after 8 t) = _
  rw [after1_8]
  unfold out1_8
  rw [View.canon_unit_zero hz1]
  simp only [View.ld_unit_zero (S := S2000x128) hz1, View.ld_unit_zero (S := S128x128) hz1, View.ld_unit_zero (S := S128x8) hz1, View.ld_unit_zero (S := S8x128) hz1]
  obtain ⟨e00, e01, e10, e11, e20, e21, e30, e31, e40, e41, e50, e51, e60, e61, e70, e71, e80, e81, e90, e91⟩ := idx_facts1 t
  funext y
  obtain ⟨r, q, rfl⟩ : ∃ (r : Fin 2000) (q : Fin 128), y = ix2 r q := ⟨y 0, y 1, eq_ix2 y⟩
  have hr : r.val < 2000 := r.isLt
  have ht : t.val < 400 := lt_of_lt_of_eq t.isLt N_1
  obtain ⟨e, he⟩ : ∃ e : Fin 800000, e.val = t.val * 2000 + r.val := ⟨⟨t.val * 2000 + r.val, by omega⟩, rfl⟩
  have hrow : ((cfg1.win 8).blk t).view.emb (ix2 r q) = (ix2 e q : S800000x128.Idx) := by
    funext a
    apply Fin.ext
    match a with
    | ⟨0, _⟩ => show win1_8.index t (0 : Fin 2) * 2000 + 1 * r.val = e.val; omega
    | ⟨1, _⟩ => show win1_8.index t (1 : Fin 2) * 128 + 1 * q.val = q.val; omega
  show k1_pay3 (F := Ideal) (iblk1 V c 0 t) (iblk1 V c 1 t) (iblk1 V c 2 t) (iblk1 V c 3 t) (iblk1 V c 4 t) (iblk1 V c 5 t) (iblk1 V c 6 t) (ix2 r q)
    = (fun i : S800000x128.Idx => msgV V c (i 0) (i 1)) (((cfg1.win 8).blk t).view.emb (ix2 r q))
  rw [hrow]
  exact msg_of_blocks _ _ _ _ _ _ _ _ _ _ _ _ _ _ r e
      (fun k => iblk1_0_apply V c t r e he k)
      (fun k => iblk1_1_apply V c t r e he k)
      (fun k => iblk1_2_apply V c t r e he k)
      (fun k => iblk1_3_apply V c t r e he k)
      (fun p q => iblk1_4_apply V c t p q)
      (fun p q => iblk1_5_apply V c t p q)
      (fun p q => iblk1_6_apply V c t p q) q

/-- An index of the array is in point `t`'s block iff each coordinate is in the block's range on its axis. -/
theorem mem_blk1_8 (t : Fin cfg1.N) (i : S800000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v12_1).slice (win1_8.rect t)).set ↔ _
  rw [View.set_slice_whole, Rect.mem_set_unit]
  exact Iff.rfl

/-- Every index of the array is in the block of the point its row falls in: row `e` in point `e / 2000`'s. -/
theorem covered1_8 (i : S800000x128.Idx) :
    ∃ t : Fin cfg1.N, (cfg1.win 8).flush t = true ∧ i ∈ ((cfg1.win 8).blk t).view.set := by
  have hi0 : (i 0).val < 800000 := (i 0).isLt
  have hi1 : (i 1).val < 128 := (i 1).isLt
  obtain ⟨t, ht⟩ : ∃ t : Fin cfg1.N, t.val = (i 0).val / 2000 := ⟨⟨(i 0).val / 2000, by rw [show cfg1.N = 400 from N_1]; omega⟩, rfl⟩
  obtain ⟨e00, e01, e10, e11, e20, e21, e30, e31, e40, e41, e50, e51, e60, e61, e70, e71, e80, e81, e90, e91⟩ := idx_facts1 t
  refine ⟨t, flush1_8 t, ?_⟩
  rw [mem_blk1_8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- Window 8's array after the whole grid: `msgV` at every index. -/
theorem arr1_8 (c : Dev nD) :
    (dat1 (F := Ideal) V c).arrAt 8 cfg1.N = fun i : S800000x128.Idx => msgV V c (i 0) (i 1) :=
  (dat1 (F := Ideal) V c).arrAt_eq_of_cover 8 (fun i : S800000x128.Idx => msgV V c (i 0) (i 1))
    (fun t _ => flushed1_8_eq V c t) covered1_8

theorem arr1_8_apply (c : Dev nD) (e : Fin 800000) (j : Fin 128) :
    (dat1 (F := Ideal) V c).arrAt 8 cfg1.N (ix2 e j) = msgV V c e j :=
  congrFun (arr1_8 V c) (ix2 e j)

/-- What point `t` writes back to window 9's array is block `t` of `gateV`: rows `2000 t …` of it. -/
theorem flushed1_9_eq (c : Dev nD) (t : Fin cfg1.N) :
    (dat1 (F := Ideal) V c).flushed 9 t
      = ((cfg1.win 9).blk t).view.read (Elt Ideal) (fun i : S800000x8.Idx => gateV V c (i 0) (i 1)) := by
  show (cfg1.win 9).cut (grid1.coords t) ((dat1 (F := Ideal) V c).after 9 t) = _
  rw [after1_9]
  unfold out1_9
  rw [View.canon_unit_zero hz1]
  simp only [View.ld_unit_zero (S := S2000x128) hz1, View.ld_unit_zero (S := S128x128) hz1, View.ld_unit_zero (S := S128x8) hz1]
  obtain ⟨e00, e01, e10, e11, e20, e21, e30, e31, e40, e41, e50, e51, e60, e61, e70, e71, e80, e81, e90, e91⟩ := idx_facts1 t
  funext y
  obtain ⟨r, q, rfl⟩ : ∃ (r : Fin 2000) (q : Fin 8), y = ix2 r q := ⟨y 0, y 1, eq_ix2 y⟩
  have hr : r.val < 2000 := r.isLt
  have ht : t.val < 400 := lt_of_lt_of_eq t.isLt N_1
  obtain ⟨e, he⟩ : ∃ e : Fin 800000, e.val = t.val * 2000 + r.val := ⟨⟨t.val * 2000 + r.val, by omega⟩, rfl⟩
  have hrow : ((cfg1.win 9).blk t).view.emb (ix2 r q) = (ix2 e q : S800000x8.Idx) := by
    funext a
    apply Fin.ext
    match a with
    | ⟨0, _⟩ => show win1_9.index t (0 : Fin 2) * 2000 + 1 * r.val = e.val; omega
    | ⟨1, _⟩ => show win1_9.index t (1 : Fin 2) * 8 + 1 * q.val = q.val; omega
  show k1_pay2 (F := Ideal) (iblk1 V c 0 t) (iblk1 V c 1 t) (iblk1 V c 2 t) (iblk1 V c 4 t) (iblk1 V c 5 t) (ix2 r q)
    = (fun i : S800000x8.Idx => gateV V c (i 0) (i 1)) (((cfg1.win 9).blk t).view.emb (ix2 r q))
  rw [hrow]
  exact gate_of_blocks _ _ _ _ _ _ _ _ _ _ r e
      (fun k => iblk1_0_apply V c t r e he k)
      (fun k => iblk1_1_apply V c t r e he k)
      (fun k => iblk1_2_apply V c t r e he k)
      (fun p q => iblk1_4_apply V c t p q)
      (fun p q => iblk1_5_apply V c t p q) q

/-- An index of the array is in point `t`'s block iff each coordinate is in the block's range on its axis. -/
theorem mem_blk1_9 (t : Fin cfg1.N) (i : S800000x8.Idx) :
    i ∈ ((cfg1.win 9).blk t).view.set ↔ ∀ a : Fin 2, win1_9.index t a * S2000x8.size a ≤ (i a).val ∧ (i a).val < win1_9.index t a * S2000x8.size a + S2000x8.size a := by
  show i ∈ ((View.whole main_v12_2).slice (win1_9.rect t)).set ↔ _
  rw [View.set_slice_whole, Rect.mem_set_unit]
  exact Iff.rfl

/-- Every index of the array is in the block of the point its row falls in: row `e` in point `e / 2000`'s. -/
theorem covered1_9 (i : S800000x8.Idx) :
    ∃ t : Fin cfg1.N, (cfg1.win 9).flush t = true ∧ i ∈ ((cfg1.win 9).blk t).view.set := by
  have hi0 : (i 0).val < 800000 := (i 0).isLt
  have hi1 : (i 1).val < 8 := (i 1).isLt
  obtain ⟨t, ht⟩ : ∃ t : Fin cfg1.N, t.val = (i 0).val / 2000 := ⟨⟨(i 0).val / 2000, by rw [show cfg1.N = 400 from N_1]; omega⟩, rfl⟩
  obtain ⟨e00, e01, e10, e11, e20, e21, e30, e31, e40, e41, e50, e51, e60, e61, e70, e71, e80, e81, e90, e91⟩ := idx_facts1 t
  refine ⟨t, flush1_9 t, ?_⟩
  rw [mem_blk1_9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 8 ≤ (i 1).val ∧ (i 1).val < win1_9.index t (1 : Fin 2) * 8 + 8; omega

/-- Window 9's array after the whole grid: `gateV` at every index. -/
theorem arr1_9 (c : Dev nD) :
    (dat1 (F := Ideal) V c).arrAt 9 cfg1.N = fun i : S800000x8.Idx => gateV V c (i 0) (i 1) :=
  (dat1 (F := Ideal) V c).arrAt_eq_of_cover 9 (fun i : S800000x8.Idx => gateV V c (i 0) (i 1))
    (fun t _ => flushed1_9_eq V c t) covered1_9

theorem arr1_9_apply (c : Dev nD) (e : Fin 800000) (a : Fin 8) :
    (dat1 (F := Ideal) V c).arrAt 9 cfg1.N (ix2 e a) = gateV V c e a :=
  congrFun (arr1_9 V c) (ix2 e a)

end

end Cert.KernelIdeal.Gen

end
-- ==== Proof.ValueR2.lean ====
import proofs.«423218_j15375982920242_3_alg».proof.Proof.R2
import proofs.«423218_j15375982920242_3_alg».proof.Proof.Payloads
import proofs.«423218_j15375982920242_3_alg».proof.Proof.Spec
import Idealize.ShloMosaic.Lib.Pipeline.Value
import Idealize.ShloMosaic.Lib.ValueIdx

/-! # Region 2 (the finalize kernel): the result array after the grid, index by index

The region's pipeline walks 25 row blocks of 2000 rows. At point t the body reads block t of the aggregated messages
([50000,128]) and of the aggregated gates ([50000,8]) and the whole [8,128] table, and writes block t of the result.
This file reads the result array after all 25 points, at the ideal carrier, as one function of the three arrays as
the region finds them: entry (n, j) is the message entry (n, j) times the sum over the 8 heads a of
1 / (gate (n, a) + ε) · table (a, j). The steps: the index maps decided over the grid; each input block's element as
an element of its array; what a point writes back as a block of the function; the blocks cover the array. -/

noncomputable section

open scoped BigOperators

namespace Cert.KernelIdeal.Gen

open Cert.KernelIdeal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Zero offsets, and the index maps over the grid -/

/-- The whole-block rectangles sit at zero offsets. -/
theorem zeros2 : (![0, 0] : Fin 2 → Nat) = fun _ => 0 := funext fun a => by fin_cases a <;> rfl

/-- The printed index maps, decided over the 25 points: the two row-blocked inputs and the output are at block
    (t, 0) at point t; the table is always at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The function the region computes, on whole arrays -/

/-- Row n, lane j of the result: the aggregated message there times the sum over the 8 heads a of
    1 / (gate total of row n, head a, plus ε) times the table's entry (a, j). -/
def G2_3 (A0 : S50000x128.Idx → EReal) (A1 : S50000x8.Idx → EReal) (A2 : S8x128.Idx → EReal) : S50000x128.Idx → EReal :=
  fun i => A0 i * ∑ a : Fin 8, Ideal.div (Ideal.ofBits .f32 0x3F800000#32) (A1 (ix2 (i 0) a) + Cert.Spec.eps) * A2 (ix2 a (i 1))

theorem G2_3_apply (A0 : S50000x128.Idx → EReal) (A1 : S50000x8.Idx → EReal) (A2 : S8x128.Idx → EReal) (n : Fin 50000) (j : Fin 128) :
    G2_3 A0 A1 A2 (ix2 n j) = A0 (ix2 n j) * ∑ a : Fin 8, Ideal.div (Ideal.ofBits .f32 0x3F800000#32) (A1 (ix2 n a) + Cert.Spec.eps) * A2 (ix2 a j) := rfl

/-- One element of the body's payload: if the three loaded blocks are the arrays' entries of row n (blocks 0 and 1, at
    block row r) and the table itself (block 2), the payload at (r, j) is the function at (n, j). -/
theorem point2_3 (x0 : Vec Ideal S2000x128 .f32) (x1 : Vec Ideal S2000x8 .f32) (x2 : Vec Ideal S8x128 .f32)
    (A0 : S50000x128.Idx → EReal) (A1 : S50000x8.Idx → EReal) (A2 : S8x128.Idx → EReal)
    (r : Fin 2000) (j : Fin 128) (n : Fin 50000)
    (h0 : x0 (ix2 r j) = A0 (ix2 n j))
    (h1 : ∀ a : Fin 8, x1 (ix2 r a) = A1 (ix2 n a))
    (h2 : ∀ a : Fin 8, x2 (ix2 a j) = A2 (ix2 a j)) :
    k2_pay1 (F := Ideal) x0 x1 x2 (ix2 r j) = G2_3 A0 A1 A2 (ix2 n j) := by
  rw [Payloads.pay2_apply, G2_3_apply, h0]
  refine congrArg (A0 (ix2 n j) * ·) (Finset.sum_congr rfl fun a _ => ?_)
  rw [h1 a, h2 a]

/-! ## The input blocks at a point, element by element

A block's element (r, k) sits in the array at block index × block size + 1 × its own coordinate, on each axis. -/

/-- Block t of the aggregated messages: row r of the block is row 2000·t + r of the array. -/
theorem iblk2_0_apply (c : Dev nD) (t : Fin cfg2.N) (r : Fin 2000) (k : Fin 128) (n : Fin 50000) (hn : n.val = t.val * 2000 + r.val) :
    iblk2 V c 0 t (ix2 r k) = V c main_v15 (ix2 n k) := by
  obtain ⟨e0, e1, -⟩ := idx_facts2 t
  unfold iblk2
  rw [View.read_apply]
  show V c main_v15 _ = V c main_v15 _
  congr 1
  funext a; apply Fin.ext
  match a with
  | ⟨0, _⟩ => show win2_0.index t (0 : Fin 2) * 2000 + 1 * r.val = n.val; rw [e0]; omega
  | ⟨1, _⟩ => show win2_0.index t (1 : Fin 2) * 128 + 1 * k.val = k.val; rw [e1]; omega

/-- Block t of the aggregated gates: the same rows, 8 columns. -/
theorem iblk2_1_apply (c : Dev nD) (t : Fin cfg2.N) (r : Fin 2000) (a : Fin 8) (n : Fin 50000) (hn : n.val = t.val * 2000 + r.val) :
    iblk2 V c 1 t (ix2 r a) = V c main_v18 (ix2 n a) := by
  obtain ⟨-, -, e0, e1, -⟩ := idx_facts2 t
  unfold iblk2
  rw [View.read_apply]
  show V c main_v18 _ = V c main_v18 _
  congr 1
  funext d; apply Fin.ext
  match d with
  | ⟨0, _⟩ => show win2_1.index t (0 : Fin 2) * 2000 + 1 * r.val = n.val; rw [e0]; omega
  | ⟨1, _⟩ => show win2_1.index t (1 : Fin 2) * 8 + 1 * a.val = a.val; rw [e1]; omega

/-- The table's one block is the table, at every point. -/
theorem iblk2_2_apply (c : Dev nD) (t : Fin cfg2.N) (a : Fin 8) (j : Fin 128) :
    iblk2 V c 2 t (ix2 a j) = V c main_cst_1 (ix2 a j) := by
  obtain ⟨-, -, -, -, e0, e1, -⟩ := idx_facts2 t
  unfold iblk2
  rw [View.read_apply]
  show V c main_cst_1 _ = V c main_cst_1 _
  congr 1
  funext d; apply Fin.ext
  match d with
  | ⟨0, _⟩ => show win2_2.index t (0 : Fin 2) * 8 + 1 * a.val = a.val; rw [e0]; omega
  | ⟨1, _⟩ => show win2_2.index t (1 : Fin 2) * 128 + 1 * j.val = j.val; rw [e1]; omega

/-! ## What a point writes back, and the array after the grid -/

/-- What point t writes back to the result's array is block t of the function of the three arrays as the region
    finds them. -/
theorem flushed2_3_eq (c : Dev nD) (t : Fin cfg2.N) :
    (dat2 (F := Ideal) V c).flushed 3 t = ((cfg2.win 3).blk t).view.read (Elt Ideal) (G2_3 (V c main_v15) (V c main_v18) (V c main_cst_1)) := by
  show (cfg2.win 3).cut (grid2.coords t) ((dat2 V c).after 3 t) = _
  rw [after2_3]
  unfold out2_3
  rw [View.canon_unit_zero zeros2]
  simp only [View.ld_unit_zero (S := S2000x128) zeros2, View.ld_unit_zero (S := S2000x8) zeros2, View.ld_unit_zero (S := S8x128) zeros2]
  funext y
  have hy : y = ix2 (n0 := 2000) (n1 := 128) (y 0) (y 1) := eq_ix2 (n0 := 2000) (n1 := 128) y
  have hy0 : (y 0).val < 2000 := idx2_lt0 (n0 := 2000) (n1 := 128) y
  have hN : grid2.N = 25 := N_2
  have ht : t.val < 25 := hN ▸ t.isLt
  have hn : t.val * 2000 + (y 0).val < 50000 := by omega
  obtain ⟨-, -, -, -, -, -, e0, e1⟩ := idx_facts2 t
  have hemb : ((cfg2.win 3).blk t).view.emb y = ix2 (n0 := 50000) (n1 := 128) ⟨t.val * 2000 + (y 0).val, hn⟩ (y 1) := by
    funext a; apply Fin.ext
    match a with
    | ⟨0, _⟩ => show win2_3.index t (0 : Fin 2) * 2000 + 1 * (y 0).val = t.val * 2000 + (y 0).val; rw [e0]; omega
    | ⟨1, _⟩ => show win2_3.index t (1 : Fin 2) * 128 + 1 * (y 1).val = (y 1).val; rw [e1]; omega
  show k2_pay1 (F := Ideal) (iblk2 V c 0 t) (iblk2 V c 1 t) (iblk2 V c 2 t) y
    = G2_3 (V c main_v15) (V c main_v18) (V c main_cst_1) (((cfg2.win 3).blk t).view.emb y)
  exact ((congrArg (k2_pay1 (F := Ideal) (iblk2 V c 0 t) (iblk2 V c 1 t) (iblk2 V c 2 t)) hy).trans
    (point2_3 (iblk2 V c 0 t) (iblk2 V c 1 t) (iblk2 V c 2 t) (V c main_v15) (V c main_v18) (V c main_cst_1)
      (y 0) (y 1) ⟨t.val * 2000 + (y 0).val, hn⟩
      (iblk2_0_apply V c t (y 0) (y 1) ⟨t.val * 2000 + (y 0).val, hn⟩ rfl)
      (fun a => iblk2_1_apply V c t (y 0) a ⟨t.val * 2000 + (y 0).val, hn⟩ rfl)
      (fun a => iblk2_2_apply V c t a (y 1)))).trans
    (congrArg (G2_3 (V c main_v15) (V c main_v18) (V c main_cst_1)) hemb.symm)

/-- An index of the array is in point t's block iff each coordinate is in the block's range on its axis. -/
theorem mem_blk2_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v19).slice (win2_3.rect t)).set ↔ _
  rw [View.set_slice_whole, Rect.mem_set_unit]
  exact Iff.rfl

/-- Every row n of the array is in the block of point n / 2000, which writes back. -/
theorem covered2_3 (i : S50000x128.Idx) : ∃ t : Fin cfg2.N, (cfg2.win 3).flush t = true ∧ i ∈ ((cfg2.win 3).blk t).view.set := by
  have hi0 : (i 0).val < 50000 := idx2_lt0 (n0 := 50000) (n1 := 128) i
  have hi1 : (i 1).val < 128 := idx2_lt1 (n0 := 50000) (n1 := 128) i
  have hN : grid2.N = 25 := N_2
  obtain ⟨t, ht⟩ : ∃ t : Fin cfg2.N, t.val = (i 0).val / 2000 := ⟨⟨(i 0).val / 2000, by show _ < grid2.N; rw [hN]; omega⟩, rfl⟩
  obtain ⟨-, -, -, -, -, -, e0, e1⟩ := idx_facts2 t
  refine ⟨t, flush2_3 t, ?_⟩
  rw [mem_blk2_3]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 128 ≤ (i 1).val ∧ (i 1).val < win2_3.index t (1 : Fin 2) * 128 + 128; rw [e1]; omega

/-- The result's array after the whole grid is the function of the three arrays as the region finds them. -/
theorem final2_3 (c : Dev nD) :
    (dat2 (F := Ideal) V c).arrAt 3 cfg2.N = G2_3 (V c main_v15) (V c main_v18) (V c main_cst_1) :=
  (dat2 (F := Ideal) V c).arrAt_eq_of_cover 3 (G2_3 (V c main_v15) (V c main_v18) (V c main_cst_1))
    (fun t _ => flushed2_3_eq V c t) covered2_3

/-- The three arrays the region reads, as the region finds them, at their literal types (so that the arithmetic
    of the extended reals applies to their entries). -/
abbrev msgs2 (c : Dev nD) : S50000x128.Idx → EReal := V c main_v15
abbrev gates2 (c : Dev nD) : S50000x8.Idx → EReal := V c main_v18
abbrev table2 (c : Dev nD) : S8x128.Idx → EReal := V c main_cst_1

/-- The result's array after the whole grid, at row n and lane j. -/
theorem arr2_3_apply (c : Dev nD) (n : Fin 50000) (j : Fin 128) :
    (dat2 (F := Ideal) V c).arrAt 3 cfg2.N (ix2 n j)
      = msgs2 V c (ix2 n j) * ∑ a : Fin 8, Ideal.div (Ideal.ofBits .f32 0x3F800000#32) (gates2 V c (ix2 n a) + Cert.Spec.eps) * table2 V c (ix2 a j) := by
  rw [final2_3]
  exact G2_3_apply _ _ _ n j

/-- The same, with the three arrays named by the caller: whatever functions `A0`, `A1`, `A2` the arrays are known
    to be on entry to the region. -/
theorem arr2_3_apply_of (c : Dev nD) (A0 : S50000x128.Idx → EReal) (A1 : S50000x8.Idx → EReal) (A2 : S8x128.Idx → EReal)
    (h0 : V c main_v15 = A0) (h1 : V c main_v18 = A1) (h2 : V c main_cst_1 = A2) (n : Fin 50000) (j : Fin 128) :
    (dat2 (F := Ideal) V c).arrAt 3 cfg2.N (ix2 n j)
      = A0 (ix2 n j) * ∑ a : Fin 8, Ideal.div (Ideal.ofBits .f32 0x3F800000#32) (A1 (ix2 n a) + Cert.Spec.eps) * A2 (ix2 a j) := by
  subst h0 h1 h2
  exact arr2_3_apply V c n j

end Cert.KernelIdeal.Gen
end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.HostReads.lean ====
import proofs.«423218_j15375982920242_3_alg».proof.Proof.Gen.KernelIdeal.Launch
import proofs.«423218_j15375982920242_3_alg».proof.Proof.LibIndexing
import proofs.«423218_j15375982920242_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
  WHAT THREE HOST STRETCHES WRITE, READ AT AN INDEX, over any contents W of the buffers before the stretch, at the
  extended reals.

  * The first stretch lays the three projection weights [128, 128] side by side into one [128, 384] table (column
    128 p + j of the table is column j of weight p) and writes three literal tables.
  * The second stretch cuts the projected nodes [50000, 384] back into three [50000, 128] column slices and the edge
    list [2, 800000] into its two rows, each as a vector [800000].
  * The third stretch adds, into a zero table, each edge's row at the node its destination word names (read signed; a
    word outside [0, 50000) lands nowhere): the result at node n is the sum of the rows of the edges whose word is n.
-/

noncomputable section

open scoped BigOperators

namespace Cert.KernelIdeal.HostReads

open Idealize.ShloMosaic Idealize.ShloMosaic.TcCoe Idealize.ShloMosaic.ValueIdx Cert.KernelIdeal Cert.KernelIdeal.Gen

variable [Cert.KernelIdeal.Facts] (W : Valuation τ sig (Elt Ideal))

/-! ## The first stretch: the concatenated weight table and the three literal tables -/

section Concat3
variable {α : Type} (x0 x1 x2 : S128x128.Idx → α) (k j : Fin 128)

/-! Three [128, 128] blocks laid side by side along the columns: column 128 p + j of the result is column j of block p. -/

theorem concat3_at0 : concatenate S128x384 1 [⟨S128x128, x0⟩, ⟨S128x128, x1⟩, ⟨S128x128, x2⟩]
      concatenates_S128x128_S128x128_S128x128_S128x384_d1 (ix2 k ⟨j.val, by omega⟩) = x0 (ix2 k j) :=
  concatenate_apply_piece (t := S128x384) (1 : Fin 2) [⟨S128x128, x0⟩, ⟨S128x128, x1⟩, ⟨S128x128, x2⟩]
    concatenates_S128x128_S128x128_S128x128_S128x384_d1 (ix2 k ⟨j.val, by omega⟩)
    0 (show (0 : Nat) < 3 by decide) S128x128 x0 rfl rfl 0 rfl (ix2 k j)
    (fun b hb => match b, hb with
      | ⟨0, _⟩, _ => rfl
      | ⟨1, _⟩, hb => absurd rfl hb) (Nat.zero_add _)

theorem concat3_at1 : concatenate S128x384 1 [⟨S128x128, x0⟩, ⟨S128x128, x1⟩, ⟨S128x128, x2⟩]
      concatenates_S128x128_S128x128_S128x128_S128x384_d1 (ix2 k ⟨128 + j.val, by omega⟩) = x1 (ix2 k j) :=
  concatenate_apply_piece (t := S128x384) (1 : Fin 2) [⟨S128x128, x0⟩, ⟨S128x128, x1⟩, ⟨S128x128, x2⟩]
    concatenates_S128x128_S128x128_S128x128_S128x384_d1 (ix2 k ⟨128 + j.val, by omega⟩)
    1 (show (1 : Nat) < 3 by decide) S128x128 x1 rfl rfl 128 rfl (ix2 k j)
    (fun b hb => match b, hb with
      | ⟨0, _⟩, _ => rfl
      | ⟨1, _⟩, hb => absurd rfl hb) rfl

theorem concat3_at2 : concatenate S128x384 1 [⟨S128x128, x0⟩, ⟨S128x128, x1⟩, ⟨S128x128, x2⟩]
      concatenates_S128x128_S128x128_S128x128_S128x384_d1 (ix2 k ⟨256 + j.val, by omega⟩) = x2 (ix2 k j) :=
  concatenate_apply_piece (t := S128x384) (1 : Fin 2) [⟨S128x128, x0⟩, ⟨S128x128, x1⟩, ⟨S128x128, x2⟩]
    concatenates_S128x128_S128x128_S128x128_S128x384_d1 (ix2 k ⟨256 + j.val, by omega⟩)
    2 (show (2 : Nat) < 3 by decide) S128x128 x2 rfl rfl 256 rfl (ix2 k j)
    (fun b hb => match b, hb with
      | ⟨0, _⟩, _ => rfl
      | ⟨1, _⟩, hb => absurd rfl hb) rfl

end Concat3

/-- Columns 0 … 127 of the concatenated weights are the query weights. -/
theorem concat_q (k : Fin 128) (j : Fin 128) :
    StableHlo.after hostOps0 W main_v0 (ix2 k ⟨j.val, by omega⟩) = W main_arg3 (ix2 k j) := by
  show StableHlo.after hostOps0 W (Proc.devRef .tc main_v0) (ix2 k ⟨j.val, by omega⟩) = _
  after_results
  dsimp only
  refine (concat3_at0 _ _ _ k j).trans ?_
  -- the three literal tables are other buffers: the argument is as it was
  show (StableHlo.nullary main_cst_1 _ _).result _ (Proc.devRef .tc main_arg3) (ix2 k j) = _
  rw [StableHlo.nullary_result_ne]; rotate_left; decide
  rw [StableHlo.nullary_result_ne]; rotate_left; decide
  rw [StableHlo.nullary_result_ne]; rotate_left; decide

/-- Columns 128 … 255 of the concatenated weights are the key weights. -/
theorem concat_k (k : Fin 128) (j : Fin 128) :
    StableHlo.after hostOps0 W main_v0 (ix2 k ⟨128 + j.val, by omega⟩) = W main_arg4 (ix2 k j) := by
  show StableHlo.after hostOps0 W (Proc.devRef .tc main_v0) (ix2 k ⟨128 + j.val, by omega⟩) = _
  after_results
  dsimp only
  refine (concat3_at1 _ _ _ k j).trans ?_
  -- the three literal tables are other buffers: the argument is as it was
  show (StableHlo.nullary main_cst_1 _ _).result _ (Proc.devRef .tc main_arg4) (ix2 k j) = _
  rw [StableHlo.nullary_result_ne]; rotate_left; decide
  rw [StableHlo.nullary_result_ne]; rotate_left; decide
  rw [StableHlo.nullary_result_ne]; rotate_left; decide

/-- Columns 256 … 383 of the concatenated weights are the value weights. -/
theorem concat_v (k : Fin 128) (j : Fin 128) :
    StableHlo.after hostOps0 W main_v0 (ix2 k ⟨256 + j.val, by omega⟩) = W main_arg5 (ix2 k j) := by
  show StableHlo.after hostOps0 W (Proc.devRef .tc main_v0) (ix2 k ⟨256 + j.val, by omega⟩) = _
  after_results
  dsimp only
  refine (concat3_at2 _ _ _ k j).trans ?_
  -- the three literal tables are other buffers: the argument is as it was
  show (StableHlo.nullary main_cst_1 _ _).result _ (Proc.devRef .tc main_arg5) (ix2 k j) = _
  rw [StableHlo.nullary_result_ne]; rotate_left; decide
  rw [StableHlo.nullary_result_ne]; rotate_left; decide
  rw [StableHlo.nullary_result_ne]; rotate_left; decide

/-- The head-membership table [128, 8], a literal. -/
theorem table_p (j : Fin 128) (a : Fin 8) :
    StableHlo.after hostOps0 W main_cst (ix2 j a) = FloatOps.ofBits (F := Ideal) .f32 (lit0 (S128x8.rowMajor (ix2 j a))) := by
  show StableHlo.after hostOps0 W (Proc.devRef .tc main_cst) (ix2 j a) = _
  after_results

/-- Its transpose [8, 128], a literal. -/
theorem table_pt1 (a : Fin 8) (j : Fin 128) :
    StableHlo.after hostOps0 W main_cst_0 (ix2 a j) = FloatOps.ofBits (F := Ideal) .f32 (lit1 (S8x128.rowMajor (ix2 a j))) := by
  show StableHlo.after hostOps0 W (Proc.devRef .tc main_cst_0) (ix2 a j) = _
  after_results

/-- The transpose again, the second literal copy. -/
theorem table_pt2 (a : Fin 8) (j : Fin 128) :
    StableHlo.after hostOps0 W main_cst_1 (ix2 a j) = FloatOps.ofBits (F := Ideal) .f32 (lit2 (S8x128.rowMajor (ix2 a j))) := by
  show StableHlo.after hostOps0 W (Proc.devRef .tc main_cst_1) (ix2 a j) = _
  after_results

/-! ## The second stretch: column slices of the projected nodes and the rows of the edge list -/

/-- Columns 0 … 127 of the projected nodes. -/
theorem slice_q (n : Fin 50000) (j : Fin 128) :
    StableHlo.after hostOps1 W main_v2 (ix2 n j) = W main_v1 (ix2 n ⟨j.val, by omega⟩) := by
  show StableHlo.after hostOps1 W (Proc.devRef .tc main_v2) (ix2 n j) = _
  after_results
  exact extractStridedSlice_apply _ _ _ _ _ fun a => match a with
    | ⟨0, _⟩ => (Nat.zero_add _).symm
    | ⟨1, _⟩ => (Nat.zero_add _).symm

/-- Columns 128 … 255 of the projected nodes. -/
theorem slice_k (n : Fin 50000) (j : Fin 128) :
    StableHlo.after hostOps1 W main_v3 (ix2 n j) = W main_v1 (ix2 n ⟨128 + j.val, by omega⟩) := by
  show StableHlo.after hostOps1 W (Proc.devRef .tc main_v3) (ix2 n j) = _
  after_results
  exact extractStridedSlice_apply _ _ _ _ _ fun a => match a with
    | ⟨0, _⟩ => (Nat.zero_add _).symm
    | ⟨1, _⟩ => rfl

/-- Columns 256 … 383 of the projected nodes. -/
theorem slice_v (n : Fin 50000) (j : Fin 128) :
    StableHlo.after hostOps1 W main_v4 (ix2 n j) = W main_v1 (ix2 n ⟨256 + j.val, by omega⟩) := by
  show StableHlo.after hostOps1 W (Proc.devRef .tc main_v4) (ix2 n j) = _
  after_results
  exact extractStridedSlice_apply _ _ _ _ _ fun a => match a with
    | ⟨0, _⟩ => (Nat.zero_add _).symm
    | ⟨1, _⟩ => rfl

/-- Row 0 of the edge list, as a vector: the source words. -/
theorem row_src (e : Fin 800000) :
    StableHlo.after hostOps1 W main_v6 (ix1 e) = W main_arg2 (ix2 0 e) := by
  show StableHlo.after hostOps1 W (Proc.devRef .tc main_v6) (ix1 e) = _
  after_results
  show shapeCast S800000 (extractStridedSlice S1x800000 ![0, 0] (W (Proc.devRef .tc main_arg2)) slices_S2x800000_S1x800000_0_0)
      shapeCasts_S1x800000_S800000 (ix1 e) = _
  refine (shapeCast_1a_a_apply _ _ e).trans ?_
  exact extractStridedSlice_apply _ _ _ _ _ fun a => match a with
    | ⟨0, _⟩ => rfl
    | ⟨1, _⟩ => (Nat.zero_add _).symm

/-- Row 1 of the edge list, as a vector: the destination words. -/
theorem row_dst (e : Fin 800000) :
    StableHlo.after hostOps1 W main_v8 (ix1 e) = W main_arg2 (ix2 1 e) := by
  show StableHlo.after hostOps1 W (Proc.devRef .tc main_v8) (ix1 e) = _
  after_results
  show shapeCast S800000 (extractStridedSlice S1x800000 ![1, 0] (W (Proc.devRef .tc main_arg2)) slices_S2x800000_S1x800000_1_0)
      shapeCasts_S1x800000_S800000 (ix1 e) = _
  refine (shapeCast_1a_a_apply _ _ e).trans ?_
  exact extractStridedSlice_apply _ _ _ _ _ fun a => match a with
    | ⟨0, _⟩ => rfl
    | ⟨1, _⟩ => (Nat.zero_add _).symm

/-! ## The third stretch: the two scatter-adds into zeros -/

/-- The scatter index column read at row e is the destination word of edge e. -/
theorem dstCol_apply (e : Fin 800000) :
    broadcastInDim S800000x1 ![0] bcast_S800000_S800000x1_0 (W (Proc.devRef .tc main_v8)) (ix2 e 0)
      = W (Proc.devRef .tc main_v8) (ix1 e) :=
  broadcastInDim_apply _ _ _ _ _ fun a => match a with
    | ⟨0, _⟩ => (if_neg (show ¬ (800000 : Nat) = 1 by decide)).symm

/-- The aggregated messages: at node n and column j, the sum of the message rows of the edges whose destination word,
    read signed, is n. The operand is the zero table, and 0 + x = x. -/
theorem agg_msg (n : Fin 50000) (j : Fin 128) :
    StableHlo.after hostOps2 W main_v15 (ix2 n j)
      = (∑ e ∈ Finset.univ.filter (fun e : Fin 800000 => (W main_v8 (ix1 e)).toInt = (n.val : Int)), W main_v12_1 (ix2 e j) : EReal) := by
  show StableHlo.after hostOps2 W (Proc.devRef .tc main_v15) (ix2 n j) = _
  after_results
  show Host.scatterAdd (Cert.LibIndexing.rowScatterDims 50000 128 800000 scatter_S50000x128_S800000x1_S800000x128_1_0_0_1_wf)
      _ _ _ (ix2 n j) = _
  refine (Cert.LibIndexing.scatterAdd_rows_apply _ _ _ _ n j).trans ?_
  have hx : (broadcastInDim S50000x128 ![] bcast_S_S50000x128 (constant (F := Ideal) S_ .f32 0x00000000#32) : S50000x128.Idx → EReal) (ix2 n j) = 0 :=
    Ideal.ofBits_zero_f32
  rw [hx, zero_add]
  exact Finset.sum_congr (Finset.filter_congr fun e _ =>
    iff_of_eq (congrArg (fun b : BitVec 32 => b.toInt = (n.val : Int)) (dstCol_apply W e))) fun _ _ => rfl

/-- The aggregated gates: at node n and head a, the sum of the gate rows of the edges whose destination word, read
    signed, is n. -/
theorem agg_gate (n : Fin 50000) (a : Fin 8) :
    StableHlo.after hostOps2 W main_v18 (ix2 n a)
      = (∑ e ∈ Finset.univ.filter (fun e : Fin 800000 => (W main_v8 (ix1 e)).toInt = (n.val : Int)), W main_v12_2 (ix2 e a) : EReal) := by
  show StableHlo.after hostOps2 W (Proc.devRef .tc main_v18) (ix2 n a) = _
  after_results
  show Host.scatterAdd (Cert.LibIndexing.rowScatterDims 50000 8 800000 scatter_S50000x8_S800000x1_S800000x8_1_0_0_1_wf)
      _ _ _ (ix2 n a) = _
  refine (Cert.LibIndexing.scatterAdd_rows_apply _ _ _ _ n a).trans ?_
  have hx : (broadcastInDim S50000x8 ![] bcast_S_S50000x8 (constant (F := Ideal) S_ .f32 0x00000000#32) : S50000x8.Idx → EReal) (ix2 n a) = 0 :=
    Ideal.ofBits_zero_f32
  rw [hx, zero_add]
  exact Finset.sum_congr (Finset.filter_congr fun e _ =>
    iff_of_eq (congrArg (fun b : BitVec 32 => b.toInt = (n.val : Int)) (dstCol_apply W e))) fun _ _ => rfl

end Cert.KernelIdeal.HostReads

end
-- ==== Proof.ValueR0.lean ====
/-
  KERNEL REGION 0 READ AT AN INDEX, over the extended reals: the result array after the whole grid.

  The region walks the node features in 25 blocks of 2000 rows and holds the whole [128, 384] weight table; point `t`
  writes back rows 2000 t … 2000 t + 1999 of the result, each the product of its feature block with the table. The
  product array `G A W (n, j) = ∑ k, A (n, k) · W (k, j)` read through point `t`'s block is exactly that (a block's
  coordinate is index × size + the coordinate inside the block, and the index maps are (t, 0), (0, 0), (t, 0)), and
  the 25 blocks cover the array (row `n` lies in the block of point `n / 2000`). So the array ends holding `G`.
-/
import proofs.«423218_j15375982920242_3_alg».proof.Proof.R0
import proofs.«423218_j15375982920242_3_alg».proof.Proof.Payloads
import proofs.«423218_j15375982920242_3_alg».proof.Proof.Spec
import Idealize.ShloMosaic.Lib.Pipeline.Value
import Idealize.ShloMosaic.Lib.ValueIdx

noncomputable section

open scoped BigOperators

namespace Cert.KernelIdeal.Gen

open Cert.KernelIdeal Idealize.ShloMosaic Idealize.ShloMosaic.TcCoe Idealize.SL.Sem
open Idealize.ShloMosaic.ValueIdx
open Idealize.ShloMosaic.Pipeline (Dat)

namespace ValueR0

variable (V : (c : Dev nD) → (b : Ref sig .tc) → Buf (Elt Ideal) ((c : Thread nD τ).loc b))

theorem hz : (![0, 0] : Fin 2 → Nat) = fun _ => 0 := funext fun a => by fin_cases a <;> rfl

/-- The product array: at (n, j) the sum over k of A (n, k) · W (k, j). -/
def G (A : S50000x128.Idx → Elt Ideal .f32) (W : S128x384.Idx → Elt Ideal .f32) : S50000x384.Idx → Elt Ideal .f32 :=
  fun i => ∑ k : Fin 128, A (ix2 (n0 := 50000) (i 0) k) * W (ix2 (n1 := 384) k (i 1))

theorem G_apply (A : S50000x128.Idx → Elt Ideal .f32) (W : S128x384.Idx → Elt Ideal .f32) (n : Fin 50000) (j : Fin 384) :
    G A W (ix2 n j) = ∑ k : Fin 128, A (ix2 n k) * W (ix2 k j) := rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_eq : cfg0.N = 25 := by decide

/-- One element of a point's product block. -/
theorem point_eq (A : S50000x128.Idx → Elt Ideal .f32) (W : S128x384.Idx → Elt Ideal .f32)
    (x0 : Vec Ideal S2000x128 .f32) (x1 : Vec Ideal S128x384 .f32) (T : Nat) (hT : T < 25)
    (h0 : ∀ (r : Fin 2000) (k : Fin 128), x0 (ix2 r k) = A (ix2 (⟨T * 2000 + r.val, by omega⟩ : Fin 50000) k))
    (h1 : ∀ (k : Fin 128) (j : Fin 384), x1 (ix2 k j) = W (ix2 k j))
    (r : Fin 2000) (j : Fin 384) (n : Fin 50000) (hn : n.val = T * 2000 + r.val) :
    k0_pay1 (F := Ideal) x0 x1 (ix2 r j) = G A W (ix2 n j) := by
  rw [Payloads.pay0_apply, G_apply]
  refine Finset.sum_congr rfl fun k _ => ?_
  rw [h0, h1]
  have e0 : (⟨T * 2000 + r.val, by omega⟩ : Fin 50000) = n := Fin.ext hn.symm
  rw [e0]

/-- What point `t` writes back is block `t` of the product array. -/
theorem flushed_eq (c : Dev nD) (t : Fin cfg0.N) :
    (dat0 V c).flushed 2 t = ((cfg0.win 2).blk t).view.read (Elt Ideal) (G (V c main_arg0) (V c main_v0)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x384) hz]
  obtain ⟨e0, e1, e2, e3, e4, e5⟩ := idx_facts t
  have ht : t.val < 25 := t.isLt
  funext y
  obtain ⟨r, j, rfl⟩ : ∃ (r : Fin 2000) (j : Fin 384), y = ix2 r j :=
    ⟨y 0, y 1, by funext a; match a with | ⟨0, _⟩ => rfl | ⟨1, _⟩ => rfl⟩
  show k0_pay1 (F := Ideal) (iblk0 V c 0 t) (iblk0 V c 1 t) (ix2 r j)
    = G (V c main_arg0) (V c main_v0) (((cfg0.win 2).blk t).view.emb (ix2 r j))
  have hr : r.val < 2000 := r.isLt
  have hemb : ((cfg0.win 2).blk t).view.emb (ix2 r j) = ix2 (⟨t.val * 2000 + r.val, by omega⟩ : Fin 50000) j := by
    funext a; apply Fin.ext
    match a with
    | ⟨0, _⟩ => show win0_2.index t (0 : Fin 2) * 2000 + 1 * r.val = t.val * 2000 + r.val; omega
    | ⟨1, _⟩ => show win0_2.index t (1 : Fin 2) * 384 + 1 * j.val = j.val; omega
  rw [hemb]
  refine point_eq (V c main_arg0) (V c main_v0) _ _ t.val ht (fun r' k => ?_) (fun k j' => ?_) r j _ rfl
  · show V c main_arg0 (((cfg0.win 0).blk t).view.emb (ix2 r' k)) = _
    congr 1
    funext a; apply Fin.ext
    match a with
    | ⟨0, _⟩ => show win0_0.index t (0 : Fin 2) * 2000 + 1 * r'.val = t.val * 2000 + r'.val; omega
    | ⟨1, _⟩ => show win0_0.index t (1 : Fin 2) * 128 + 1 * k.val = k.val; omega
  · show V c main_v0 (((cfg0.win 1).blk t).view.emb (ix2 k j')) = _
    congr 1
    funext a; apply Fin.ext
    match a with
    | ⟨0, _⟩ => show win0_1.index t (0 : Fin 2) * 128 + 1 * k.val = k.val; omega
    | ⟨1, _⟩ => show win0_1.index t (1 : Fin 2) * 384 + 1 * j'.val = j'.val; omega

/-- An index of the array is in point `t`'s block iff each coordinate is in the block's range on its axis. -/
theorem mem_blk (t : Fin cfg0.N) (i : S50000x384.Idx) :
    i ∈ ((cfg0.win 2).blk t).view.set ↔ ∀ a : Fin 2, win0_2.index t a * S2000x384.size a ≤ (i a).val ∧ (i a).val < win0_2.index t a * S2000x384.size a + S2000x384.size a := by
  show i ∈ ((View.whole main_v1).slice (win0_2.rect t)).set ↔ _
  rw [View.set_slice_whole, Rect.mem_set_unit]
  exact Iff.rfl

/-- The blocks cover the array: row `n` is in the block of point `n / 2000`. -/
theorem cover (i : S50000x384.Idx) : ∃ t : Fin cfg0.N, (cfg0.win 2).flush t = true ∧ i ∈ ((cfg0.win 2).blk t).view.set := by
  have hi0 : (i 0).val < 50000 := (i 0).isLt
  have hi1 : (i 1).val < 384 := (i 1).isLt
  refine ⟨⟨(i 0).val / 2000, by rw [N_eq]; omega⟩, flush0_2 _, ?_⟩
  rw [mem_blk]
  obtain ⟨e0, e1, e2, e3, e4, e5⟩ := idx_facts ⟨(i 0).val / 2000, by rw [N_eq]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 384 ≤ (i 1).val ∧ (i 1).val < win0_2.index _ (1 : Fin 2) * 384 + 384; rw [e5]; omega

/-- The result array after the whole grid is the product array. -/
theorem arr_eq (c : Dev nD) : (dat0 V c).arrAt 2 cfg0.N = G (V c main_arg0) (V c main_v0) :=
  (dat0 V c).arrAt_eq_of_cover 2 (G (V c main_arg0) (V c main_v0)) (fun t _ => flushed_eq V c t) cover

end ValueR0

open ValueR0 in
/-- The result array read at (n, j): the sum over k of the node features (n, k) times the weight table (k, j). -/
theorem arr0_2_apply (V : (c : Dev nD) → (b : Ref sig .tc) → Buf (Elt Ideal) ((c : Thread nD τ).loc b)) (c : Dev nD) (n : Fin 50000) (j : Fin 384) :
    (dat0 (F := Ideal) V c).arrAt 2 cfg0.N (ix2 n j)
      = ∑ k : Fin 128, HMul.hMul (α := Elt Ideal .f32) (β := Elt Ideal .f32) (γ := Elt Ideal .f32) (V c main_arg0 (ix2 n k)) (V c main_v0 (ix2 k j)) := by
  rw [arr_eq V c]
  rfl

end Cert.KernelIdeal.Gen

end
-- ==== Proof.HostTake.lean ====
/-
  WHAT THE THREE "TAKE ROWS OF A TABLE AT AN INDEX VECTOR" HOST STRETCHES WRITE, READ AT AN INDEX.

  Each stretch computes, from a table `x : [50000, 128]` and an index vector `i : [800000]`, the fill-mode take:
  the index is wrapped (`i + 50000` where `i` reads negative), laid as a column, tested against `[0, 49999]`, the
  test reduced by `and` over the column's one-element axis, the table's rows gathered at the column (the gather
  clamps), and the gathered row kept where the test holds, a NaN word written elsewhere. When every index word reads
  in `[0, 50000)` the wrap leaves it alone, the test holds everywhere and the clamp does nothing: element `(e, j)`
  of the result is the table's element at row `i e` and column `j` (`takeRows_apply`). The three stretches are that
  one term at their own buffers (`after_k`, `after_q`, `after_v`), over any contents of the buffers before the stretch.
-/
import proofs.«423218_j15375982920242_3_alg».proof.Proof.Gen.KernelIdeal.Launch
import proofs.«423218_j15375982920242_3_alg».proof.Proof.LibIndexing
import proofs.«423218_j15375982920242_3_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.Lib.ReduceAll

noncomputable section

namespace Cert.KernelIdeal.HostTake

open Idealize.ShloMosaic Idealize.ShloMosaic.TcCoe Idealize.ShloMosaic.ValueIdx Cert.KernelIdeal Cert.KernelIdeal.Gen

variable [Cert.KernelIdeal.Facts] (W : Valuation τ sig (Elt Ideal))

/-! ## Words: an index word in range is left alone by the wrap, passes the range mask, and is its own clamp -/

/-- A word that reads non-negative is not below zero: the wrap `select (idx <s 0) (idx + 50000) idx` keeps it. -/
theorem wrap_word (b : BitVec 32) (h0 : 0 ≤ b.toInt) :
    Scalar.select (IntOp.cmpi .slt b 0#32) (IntOp.addi b 50000#32) b = b := by
  have hz : (0#32 : BitVec 32).toInt = 0 := by decide
  have hs : b.slt 0#32 = false := by
    simp only [BitVec.slt, hz, decide_eq_false_iff_not]; omega
  simp only [IntOp.cmpi, hs]
  exact select_zero _ _

/-- A word that reads in `[0, 50000)` passes both range tests. -/
theorem mask_word (b : BitVec 32) (h0 : 0 ≤ b.toInt) (h1 : b.toInt < 50000) :
    IntOp.andi (IntOp.cmpi .sge b 0#32) (IntOp.cmpi .sle b 49999#32) = 1#1 := by
  have hz : (0#32 : BitVec 32).toInt = 0 := by decide
  have hm : (49999#32 : BitVec 32).toInt = 49999 := by decide
  have ha : (0#32 : BitVec 32).sle b = true := by
    simp only [BitVec.sle, hz, decide_eq_true_eq]; exact h0
  have hb : b.sle 49999#32 = true := by
    simp only [BitVec.sle, hm, decide_eq_true_eq]; omega
  simp only [IntOp.cmpi, ha, hb]
  decide

/-! ## The pure term of one take: a table `x : [50000, 128]` read at an index vector `i : [800000]` -/

section Pure
variable (x : FVec Ideal S50000x128 .f32) (i : IVec S800000 32)

/-- The wrapped index: `i + 50000` where `i` reads negative, else `i`. -/
def wrapped : IVec S800000 32 :=
  select (cmpi .slt i (broadcastInDim S800000 ![] bcast_S_S800000 (constantI S_ 32 0#32)))
    (addi i (broadcastInDim S800000 ![] bcast_S_S800000 (constantI S_ 32 50000#32))) i

/-- The wrapped index as a column of start indices. -/
def col : IVec S800000x1 32 := broadcastInDim S800000x1 ![0] bcast_S800000_S800000x1_0 (wrapped i)

/-- The range mask of the column: `0 ≤ col ∧ col ≤ 49999`, signed. -/
def inRange : IVec S800000x1 1 :=
  andi (cmpi .sge (col i) (broadcastInDim S800000x1 ![] bcast_S_S800000x1 (constantI S_ 32 0#32)))
    (cmpi .sle (col i) (broadcastInDim S800000x1 ![0, 1] bcast_S1x1_S800000x1_0_1
      (broadcastInDim S1x1 ![1] bcast_S1_S1x1_1 (constantI S1 32 49999#32))))

/-- The mask reduced by `and` over the column's one-element axis. -/
def ok : IVec S800000 1 :=
  Host.reduce IntOp.andi (inRange i) (constantI S_ 1 1#1) reducesTo_S800000x1_S800000_d1 h_S_

/-- The take: the gathered rows where the index is in range, a NaN word elsewhere. -/
def takeRows : FVec Ideal S800000x128 .f32 :=
  select (broadcastInDim S800000x128 ![0] bcast_S800000_S800000x128_0 (ok i))
    (Host.gather gather_S50000x128_S800000x1_S800000x128_1_0_n_n_0_1_1128 x (col i))
    (broadcastInDim S800000x128 ![] bcast_S_S800000x128 (constant (F := Ideal) S_ .f32 0x7FC00000#32))

/-- The wrapped index at `e`, as words. -/
theorem wrapped_apply (e : Fin 800000) :
    wrapped i (ix1 e) = Scalar.select (IntOp.cmpi .slt (i (ix1 e)) 0#32) (IntOp.addi (i (ix1 e)) 50000#32) (i (ix1 e)) := rfl

/-- The column at row `p` is the wrapped index at `p`. -/
theorem col_apply (p : Fin 800000) (q : Fin 1) : col i (ix2 p q) = wrapped i (ix1 p) := by
  unfold col
  simp only [broadcastInDim]
  congr 1
  funext a
  have ha : a = 0 := Subsingleton.elim _ _
  subst ha
  apply Fin.ext
  split
  · next h1 => exact absurd h1 (by decide)
  · rfl

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

variable (hr : ∀ e : Fin 800000, 0 ≤ (i (ix1 e)).toInt ∧ (i (ix1 e)).toInt < 50000)
include hr

/-- In range, the wrap leaves the index alone. -/
theorem wrapped_eq (e : Fin 800000) : wrapped i (ix1 e) = i (ix1 e) := by
  rw [wrapped_apply]; exact wrap_word _ (hr e).1

/-- In range, the mask is set everywhere. -/
theorem inRange_eq_one (k : S800000x1.Idx) : inRange i k = 1#1 := by
  obtain ⟨p, q, rfl⟩ : ∃ (p : Fin 800000) (q : Fin 1), k = ix2 p q := ⟨k 0, k 1, eq_ix2 k⟩
  show IntOp.andi (IntOp.cmpi .sge (col i (ix2 p q)) 0#32) (IntOp.cmpi .sle (col i (ix2 p q)) 49999#32) = 1#1
  rw [col_apply, wrapped_eq i hr]
  exact mask_word _ (hr p).1 (hr p).2

/-- In range, the reduced mask is set everywhere. -/
theorem ok_eq_one (t : S800000.Idx) : ok i t = 1#1 := by
  unfold ok Host.reduce
  exact foldl_andi_ones (fun n => inRange i (S800000x1.rowMajor.symm n)) (fun n => inRange_eq_one i hr _) _

/-- THE TAKE READ AT `(e, j)`: in range, the table's row at the index. -/
theorem takeRows_apply (e : Fin 800000) (j : Fin 128) :
    takeRows x i (ix2 e j) = x (ix2 (Cert.Spec.row (i (ix1 e))) j) := by
  have hm : broadcastInDim S800000x128 ![0] bcast_S800000_S800000x128_0 (ok i) (ix2 e j) = 1#1 := ok_eq_one i hr _
  unfold takeRows
  rw [select_apply, hm, select_one]
  refine (Cert.LibIndexing.gather_rows_apply (by decide)
    gather_S50000x128_S800000x1_S800000x128_1_0_n_n_0_1_1128_wf x (col i) e j).trans ?_
  have hrow : (⟨min (col i (ix2 e 0)).toInt.toNat (50000 - 1), by omega⟩ : Fin 50000) = Cert.Spec.row (i (ix1 e)) := by
    apply Fin.ext
    show min (col i (ix2 e 0)).toInt.toNat (50000 - 1) = min (i (ix1 e)).toInt.toNat 49999
    rw [col_apply, wrapped_eq i hr]
  exact congrArg (fun r => x (ix2 r j)) hrow

end Pure

/-! ## The three stretches of the program are this term at their buffers

Each operation of a stretch carries its operands' contents to the value's type and its result back to the buffer's
type; the two types are the same, so the carrying is the identity, stated once per buffer over a variable array. -/

/-- Contents carried to a buffer's own type and back are the contents. -/
theorem ofBuf_toBuf {T : BufTy} (r : StableHlo.TRef sig T) (v : T.Contents (Elt Ideal)) : r.ofBuf (r.toBuf v) = v := by
  simp only [StableHlo.TRef.ofBuf, StableHlo.TRef.toBuf, cast_cast, cast_eq]

section Carry
variable (t : FVec Ideal S50000x128 .f32) (u : IVec S800000 32) (y : FVec Ideal S800000x128 .f32)

theorem ofBuf_v2 : ((StableHlo.TRef.of main_v2 : StableHlo.TRef sig ⟨S50000x128, .f32⟩).ofBuf (Val := Elt Ideal) t : FVec Ideal S50000x128 .f32) = t := rfl
theorem ofBuf_v3 : ((StableHlo.TRef.of main_v3 : StableHlo.TRef sig ⟨S50000x128, .f32⟩).ofBuf (Val := Elt Ideal) t : FVec Ideal S50000x128 .f32) = t := rfl
theorem ofBuf_v4 : ((StableHlo.TRef.of main_v4 : StableHlo.TRef sig ⟨S50000x128, .f32⟩).ofBuf (Val := Elt Ideal) t : FVec Ideal S50000x128 .f32) = t := rfl
theorem ofBuf_v6 : ((StableHlo.TRef.of main_v6 : StableHlo.TRef sig ⟨S800000, .i32⟩).ofBuf (Val := Elt Ideal) u : IVec S800000 32) = u := rfl
theorem ofBuf_v8 : ((StableHlo.TRef.of main_v8 : StableHlo.TRef sig ⟨S800000, .i32⟩).ofBuf (Val := Elt Ideal) u : IVec S800000 32) = u := rfl
theorem toBuf_v9 : ((StableHlo.TRef.of main_v9 : StableHlo.TRef sig ⟨S800000x128, .f32⟩).toBuf (Val := Elt Ideal) y : FVec Ideal S800000x128 .f32) = y := rfl
theorem toBuf_v10 : ((StableHlo.TRef.of main_v10 : StableHlo.TRef sig ⟨S800000x128, .f32⟩).toBuf (Val := Elt Ideal) y : FVec Ideal S800000x128 .f32) = y := rfl
theorem toBuf_v11 : ((StableHlo.TRef.of main_v11 : StableHlo.TRef sig ⟨S800000x128, .f32⟩).toBuf (Val := Elt Ideal) y : FVec Ideal S800000x128 .f32) = y := rfl

end Carry

theorem after_k : (StableHlo.after (hostOps1_1 (F := Ideal)) W main_v9 : FVec Ideal S800000x128 .f32)
    = takeRows (W main_v3) (W main_v6) := by
  after_results_simp
  simp only [ofBuf_toBuf]
  simp only [ofBuf_v3, ofBuf_v6, toBuf_v9]
  unfold takeRows ok inRange col wrapped
  rfl

theorem take_k (hr : ∀ e : Fin 800000, 0 ≤ (W main_v6 (ix1 e)).toInt ∧ (W main_v6 (ix1 e)).toInt < 50000) (e : Fin 800000) (j : Fin 128) :
    StableHlo.after hostOps1_1 W main_v9 (ix2 e j) = W main_v3 (ix2 (Cert.Spec.row (W main_v6 (ix1 e))) j) :=
  (congrFun (after_k W) (ix2 e j)).trans (takeRows_apply (W main_v3) (W main_v6) hr e j)

theorem after_q : (StableHlo.after (hostOps1_2 (F := Ideal)) W main_v10 : FVec Ideal S800000x128 .f32)
    = takeRows (W main_v2) (W main_v8) := by
  after_results_simp
  simp only [ofBuf_toBuf]
  simp only [ofBuf_v2, ofBuf_v8, toBuf_v10]
  unfold takeRows ok inRange col wrapped
  rfl

theorem take_q (hr : ∀ e : Fin 800000, 0 ≤ (W main_v8 (ix1 e)).toInt ∧ (W main_v8 (ix1 e)).toInt < 50000) (e : Fin 800000) (j : Fin 128) :
    StableHlo.after hostOps1_2 W main_v10 (ix2 e j) = W main_v2 (ix2 (Cert.Spec.row (W main_v8 (ix1 e))) j) :=
  (congrFun (after_q W) (ix2 e j)).trans (takeRows_apply (W main_v2) (W main_v8) hr e j)

theorem after_v : (StableHlo.after (hostOps1_3 (F := Ideal)) W main_v11 : FVec Ideal S800000x128 .f32)
    = takeRows (W main_v4) (W main_v6) := by
  after_results_simp
  simp only [ofBuf_toBuf]
  simp only [ofBuf_v4, ofBuf_v6, toBuf_v11]
  unfold takeRows ok inRange col wrapped
  rfl

theorem take_v (hr : ∀ e : Fin 800000, 0 ≤ (W main_v6 (ix1 e)).toInt ∧ (W main_v6 (ix1 e)).toInt < 50000) (e : Fin 800000) (j : Fin 128) :
    StableHlo.after hostOps1_3 W main_v11 (ix2 e j) = W main_v4 (ix2 (Cert.Spec.row (W main_v6 (ix1 e))) j) :=
  (congrFun (after_v W) (ix2 e j)).trans (takeRows_apply (W main_v4) (W main_v6) hr e j)

end Cert.KernelIdeal.HostTake

end
-- ==== Proof.Pool.lean ====
/-
  THE POOLING TABLES. The 128 columns are 8 heads of 16 lanes. The program carries three dense tables of the
  words 1.0 and 0: a [128, 8] table whose entry (j, a) is one exactly when column j belongs to head a, and two
  copies of its transpose [8, 128]. Multiplying by the first sums a row's 16 lanes per head; multiplying by the
  transpose copies a head's value to each of its 16 lanes. Here: the tables entry by entry, their entries as
  extended reals, and the two sums.
-/
import proofs.«423218_j15375982920242_3_alg».proof.Proof.Gen.KernelIdeal
import proofs.«423218_j15375982920242_3_alg».proof.Proof.Spec
import Idealize.ShloMosaic.Lib.IdealHost
import Idealize.ShloMosaic.PureOps.Ideal.Laws
import Idealize.ShloMosaic.Lib.ValueIdx
import Mathlib.Algebra.BigOperators.Group.Finset.Basic

noncomputable section

open scoped BigOperators

namespace Cert.KernelIdeal.Pool

open Idealize.ShloMosaic Idealize.ShloMosaic.ValueIdx Cert.KernelIdeal

/-- The [128, 8] table, row-major: position i is row i / 8 and column i % 8; one exactly when the row's head
    (row / 16) is the column. -/
theorem lit0_eq : ∀ i : Fin 1024, lit0 i = if (i.val / 8) / 16 = i.val % 8 then 0x3F800000#32 else 0x00000000#32 := by
  decide +kernel

/-- The [8, 128] table, row-major: position i is row i / 128 and column i % 128; one exactly when the column's
    head (column / 16) is the row. -/
theorem lit1_eq : ∀ i : Fin 1024, lit1 i = if (i.val % 128) / 16 = i.val / 128 then 0x3F800000#32 else 0x00000000#32 := by
  decide +kernel

/-- The second copy of the [8, 128] table. -/
theorem lit2_eq : ∀ i : Fin 1024, lit2 i = if (i.val % 128) / 16 = i.val / 128 then 0x3F800000#32 else 0x00000000#32 := by
  decide +kernel

/-- The row-major position of entry (j, a) of a [128, 8] array. -/
theorem pos128x8 (j : Fin 128) (a : Fin 8) : (S128x8.rowMajor (ix2 j a)).val = j.val * 8 + a.val := by
  rw [Shape.rowMajor_val_two]; rfl

/-- The row-major position of entry (a, j) of an [8, 128] array. -/
theorem pos8x128 (a : Fin 8) (j : Fin 128) : (S8x128.rowMajor (ix2 a j)).val = a.val * 128 + j.val := by
  rw [Shape.rowMajor_val_two]; rfl

/-- Entry (j, a) of the [128, 8] table as an extended real: one when column j is of head a, else zero. -/
theorem poolP (j : Fin 128) (a : Fin 8) :
    (FloatOps.ofBits (F := Ideal) .f32 (lit0 (S128x8.rowMajor (ix2 j a))) : EReal) = if j.val / 16 = a.val then 1 else 0 := by
  have hj := j.isLt
  have ha := a.isLt
  have h := lit0_eq (S128x8.rowMajor (ix2 j a))
  have hp : (S128x8.rowMajor (ix2 j a) : Fin 1024).val = j.val * 8 + a.val := pos128x8 j a
  have h1 : (j.val * 8 + a.val) / 8 = j.val := by omega
  have h2 : (j.val * 8 + a.val) % 8 = a.val := by omega
  rw [hp, h1, h2] at h
  rw [Ideal.ofBits_def, h]
  split_ifs
  · exact Ideal.ofBits_one_f32
  · exact Ideal.ofBits_zero_f32

/-- Entry (a, j) of the first [8, 128] table as an extended real. -/
theorem poolPt1 (a : Fin 8) (j : Fin 128) :
    (FloatOps.ofBits (F := Ideal) .f32 (lit1 (S8x128.rowMajor (ix2 a j))) : EReal) = if j.val / 16 = a.val then 1 else 0 := by
  have hj := j.isLt
  have ha := a.isLt
  have h := lit1_eq (S8x128.rowMajor (ix2 a j))
  have hp : (S8x128.rowMajor (ix2 a j) : Fin 1024).val = a.val * 128 + j.val := pos8x128 a j
  have h1 : (a.val * 128 + j.val) % 128 = j.val := by omega
  have h2 : (a.val * 128 + j.val) / 128 = a.val := by omega
  rw [hp, h1, h2] at h
  rw [Ideal.ofBits_def, h]
  split_ifs
  · exact Ideal.ofBits_one_f32
  · exact Ideal.ofBits_zero_f32

/-- Entry (a, j) of the second [8, 128] table as an extended real. -/
theorem poolPt2 (a : Fin 8) (j : Fin 128) :
    (FloatOps.ofBits (F := Ideal) .f32 (lit2 (S8x128.rowMajor (ix2 a j))) : EReal) = if j.val / 16 = a.val then 1 else 0 := by
  have hj := j.isLt
  have ha := a.isLt
  have h := lit2_eq (S8x128.rowMajor (ix2 a j))
  have hp : (S8x128.rowMajor (ix2 a j) : Fin 1024).val = a.val * 128 + j.val := pos8x128 a j
  have h1 : (a.val * 128 + j.val) % 128 = j.val := by omega
  have h2 : (a.val * 128 + j.val) / 128 = a.val := by omega
  rw [hp, h1, h2] at h
  rw [Ideal.ofBits_def, h]
  split_ifs
  · exact Ideal.ofBits_one_f32
  · exact Ideal.ofBits_zero_f32

/-- Summing a row against head a's column of the table keeps exactly the 16 lanes of head a: the columns
    16a … 16a + 15, which lane d ↦ 16a + d lists once each. -/
theorem sum_pool (f : Fin 128 → EReal) (a : Fin 8) :
    ∑ j : Fin 128, f j * (if j.val / 16 = a.val then (1 : EReal) else 0) = ∑ d : Fin 16, f (Cert.Spec.lane a d) := by
  have ha := a.isLt
  simp only [mul_ite, mul_one, mul_zero]
  rw [← Finset.sum_filter]
  symm
  refine Finset.sum_nbij' (fun d => Cert.Spec.lane a d)
    (fun j => (⟨j.val % 16, Nat.mod_lt _ (by norm_num)⟩ : Fin 16)) ?_ ?_ ?_ ?_ ?_
  · intro d _
    have hd := d.isLt
    simp only [Finset.mem_filter, Finset.mem_univ, true_and, Cert.Spec.lane]
    omega
  · intro j _
    exact Finset.mem_univ _
  · intro d _
    have hd := d.isLt
    apply Fin.ext
    simp only [Cert.Spec.lane]
    omega
  · intro j hj
    have hjl := j.isLt
    simp only [Finset.mem_filter, Finset.mem_univ, true_and] at hj
    apply Fin.ext
    simp only [Cert.Spec.lane]
    omega
  · intro d _
    rfl

/-- Summing the heads' values against column j of the transpose keeps exactly the head of j. -/
theorem sum_unpool (g : Fin 8 → EReal) (j : Fin 128) :
    ∑ a : Fin 8, g a * (if j.val / 16 = a.val then (1 : EReal) else 0) = g (Cert.Spec.headOf j) := by
  rw [Finset.sum_eq_single (Cert.Spec.headOf j)]
  · simp [Cert.Spec.headOf]
  · intro b _ hb
    rw [if_neg, mul_zero]
    intro h
    apply hb
    apply Fin.ext
    simp only [Cert.Spec.headOf]
    omega
  · intro h
    exact absurd (Finset.mem_univ _) h

end Cert.KernelIdeal.Pool

end
-- ==== Proof.KernelEntry.lean ====
/-
  WHAT THE BUFFERS HOLD WHEN EACH REGION IS ENTERED, in terms of the seven argument arrays, over the extended reals.

  The program's buffers at the boundaries between its items are a fold from the launch memory: a host stretch leaves
  every buffer it does not write as it was, and a kernel region changes only its result arrays. Followed through the fold:
    * region 0 is entered with the node features as launched and with the three projections' tables side by side; it
      leaves the nodes' query, key and value projections in the three column bands of its result;
    * the edge list's two rows are the source and destination words; on the domain where every word is a node row, the
      rows taken for region 1 are the key and value projections at the source and the query projection at the
      destination of each edge;
    * the edge features, the edge projection's table and the head tables (entry one exactly when the column is of the
      head) reach their regions unchanged.
-/
import proofs.«423218_j15375982920242_3_alg».proof.Proof.Run
import proofs.«423218_j15375982920242_3_alg».proof.Proof.ValueR0
import proofs.«423218_j15375982920242_3_alg».proof.Proof.HostReads
import proofs.«423218_j15375982920242_3_alg».proof.Proof.HostTake
import proofs.«423218_j15375982920242_3_alg».proof.Proof.Pool
import proofs.«423218_j15375982920242_3_alg».proof.Proof.Spec
import Idealize.ShloMosaic.Lib.ValueIdx
import Idealize.ShloMosaic.Lib.ValueIdxRank1

noncomputable section

open scoped BigOperators

namespace Cert.KernelIdeal.Gen

open Idealize.ShloMosaic Idealize.ShloMosaic.TcCoe Idealize.ShloMosaic.ValueIdx Cert.KernelIdeal

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)

/-! ## A buffer no operation of a host stretch writes passes through it -/

theorem W1_keep (b : Ref sig .tc) (h : b ∉ hostOps0_W) :
    W1 m ρ c (Proc.devRef .tc b) = W0 m ρ c (Proc.devRef .tc b) :=
  StableHlo.after_of_writes_sub hostOps0 _ hostOps0_writes h
theorem W3_keep (b : Ref sig .tc) (h : b ∉ hostOps1_W) :
    W3 m ρ c (Proc.devRef .tc b) = W2 m ρ c (Proc.devRef .tc b) :=
  StableHlo.after_of_writes_sub hostOps1 _ hostOps1_writes h
theorem W4_keep (b : Ref sig .tc) (h : b ∉ hostOps1_1_W) :
    W4 m ρ c (Proc.devRef .tc b) = W3 m ρ c (Proc.devRef .tc b) :=
  StableHlo.after_of_writes_sub hostOps1_1 _ hostOps1_1_writes h
theorem W5_keep (b : Ref sig .tc) (h : b ∉ hostOps1_2_W) :
    W5 m ρ c (Proc.devRef .tc b) = W4 m ρ c (Proc.devRef .tc b) :=
  StableHlo.after_of_writes_sub hostOps1_2 _ hostOps1_2_writes h
theorem W6_keep (b : Ref sig .tc) (h : b ∉ hostOps1_3_W) :
    W6 m ρ c (Proc.devRef .tc b) = W5 m ρ c (Proc.devRef .tc b) :=
  StableHlo.after_of_writes_sub hostOps1_3 _ hostOps1_3_writes h
theorem W8_keep (b : Ref sig .tc) (h : b ∉ hostOps2_W) :
    W8 m ρ c (Proc.devRef .tc b) = W7 m ρ c (Proc.devRef .tc b) :=
  StableHlo.after_of_writes_sub hostOps2 _ hostOps2_writes h
/-- Through the three row-taking stretches. -/
theorem W6_W3 (b : Ref sig .tc) (h1 : b ∉ hostOps1_1_W) (h2 : b ∉ hostOps1_2_W) (h3 : b ∉ hostOps1_3_W) :
    W6 m ρ c (Proc.devRef .tc b) = W3 m ρ c (Proc.devRef .tc b) :=
  (W6_keep m ρ c b h3).trans ((W5_keep m ρ c b h2).trans (W4_keep m ρ c b h1))

/-! ## Region 0's entry and exit -/

/-- The node features enter region 0 as launched. -/
theorem entry0_h : U1 m ρ c main_arg0 = A0 :=
  (W1_keep m ρ c main_arg0 (by decide)).trans rfl

/-- The weight table region 0 holds is the three projections' tables side by side. -/
theorem entry0_wq (k j : Fin 128) : U1 m ρ c main_v0 (ix2 k ⟨j.val, by have := j.isLt; omega⟩) = A3 (ix2 k j) :=
  (HostReads.concat_q (W0 m ρ c) k j).trans rfl
theorem entry0_wk (k j : Fin 128) : U1 m ρ c main_v0 (ix2 k ⟨128 + j.val, by have := j.isLt; omega⟩) = A4 (ix2 k j) :=
  (HostReads.concat_k (W0 m ρ c) k j).trans rfl
theorem entry0_wv (k j : Fin 128) : U1 m ρ c main_v0 (ix2 k ⟨256 + j.val, by have := j.isLt; omega⟩) = A5 (ix2 k j) :=
  (HostReads.concat_v (W0 m ρ c) k j).trans rfl

/-- Region 0's result array at `(n, j')`: the product of the node features with the held table. -/
theorem nodes_at (n : Fin 50000) (j' : Fin 384) :
    W2 m ρ c (Proc.devRef .tc main_v1) (ix2 n j')
      = ∑ k : Fin 128, HMul.hMul (α := Elt Ideal .f32) (β := Elt Ideal .f32) (γ := Elt Ideal .f32) (U1 m ρ c main_arg0 (ix2 n k)) (U1 m ρ c main_v0 (ix2 k j')) :=
  (congrFun (W2_arr m ρ c 2) (ix2 n j')).trans (arr0_2_apply (U1 m ρ) c n j')

/-- At region 0's exit the result's three column bands are the query, key and value projections of the nodes. -/
theorem nodes_q (n : Fin 50000) (j : Fin 128) : W2 m ρ c main_v1 (ix2 n ⟨j.val, by have := j.isLt; omega⟩) = Cert.Spec.mm A0 A3 n j := by
  rw [nodes_at m ρ c n]
  unfold Cert.Spec.mm
  refine Finset.sum_congr (M := EReal) rfl fun k _ => ?_
  rw [entry0_h m ρ c, entry0_wq m ρ c k j]
theorem nodes_k (n : Fin 50000) (j : Fin 128) : W2 m ρ c main_v1 (ix2 n ⟨128 + j.val, by have := j.isLt; omega⟩) = Cert.Spec.mm A0 A4 n j := by
  rw [nodes_at m ρ c n]
  unfold Cert.Spec.mm
  refine Finset.sum_congr (M := EReal) rfl fun k _ => ?_
  rw [entry0_h m ρ c, entry0_wk m ρ c k j]
theorem nodes_v (n : Fin 50000) (j : Fin 128) : W2 m ρ c main_v1 (ix2 n ⟨256 + j.val, by have := j.isLt; omega⟩) = Cert.Spec.mm A0 A5 n j := by
  rw [nodes_at m ρ c n]
  unfold Cert.Spec.mm
  refine Finset.sum_congr (M := EReal) rfl fun k _ => ?_
  rw [entry0_h m ρ c, entry0_wv m ρ c k j]

/-! ## The edge list's two rows -/

/-- The edge list leaves region 0 as launched. -/
theorem arg2_W2 : W2 m ρ c (Proc.devRef .tc main_arg2) = A2 :=
  (W2_of_ne m ρ c main_arg2 (by decide)).trans ((W1_keep m ρ c main_arg2 (by decide)).trans rfl)

theorem src_word (e : Fin 800000) : W3 m ρ c main_v6 (ix1 e) = A2 (ix2 0 e) :=
  (HostReads.row_src (W2 m ρ c) e).trans (congrFun (arg2_W2 m ρ c) _)
theorem dst_word (e : Fin 800000) : W3 m ρ c main_v8 (ix1 e) = A2 (ix2 1 e) :=
  (HostReads.row_dst (W2 m ρ c) e).trans (congrFun (arg2_W2 m ρ c) _)

/-! ## Region 1's entry -/

/-- The key rows taken at the edges' sources. -/
theorem entry1_k (hr : ∀ i : S2x800000.Idx, 0 ≤ (A2 i).toInt ∧ (A2 i).toInt < 50000) (e : Fin 800000) (j : Fin 128) :
    U6 m ρ c main_v9 (ix2 e j) = Cert.Spec.mm A0 A4 (Cert.Spec.src A2 e) j := by
  have hs : ∀ e : Fin 800000, 0 ≤ (W3 m ρ c main_v6 (ix1 e)).toInt ∧ (W3 m ρ c main_v6 (ix1 e)).toInt < 50000 := fun e => by
    rw [src_word m ρ c e]; exact hr _
  calc U6 m ρ c main_v9 (ix2 e j)
      = W4 m ρ c (Proc.devRef .tc main_v9) (ix2 e j) :=
        congrFun ((W6_keep m ρ c main_v9 (by decide)).trans (W5_keep m ρ c main_v9 (by decide))) _
    _ = W3 m ρ c (Proc.devRef .tc main_v3) (ix2 (Cert.Spec.row (W3 m ρ c (Proc.devRef .tc main_v6) (ix1 e))) j) :=
        HostTake.take_k (W3 m ρ c) hs e j
    _ = W3 m ρ c (Proc.devRef .tc main_v3) (ix2 (Cert.Spec.src A2 e) j) := by rw [src_word m ρ c e]; rfl
    _ = W2 m ρ c (Proc.devRef .tc main_v1) (ix2 (Cert.Spec.src A2 e) ⟨128 + j.val, by have := j.isLt; omega⟩) := HostReads.slice_k (W2 m ρ c) _ j
    _ = Cert.Spec.mm A0 A4 (Cert.Spec.src A2 e) j := nodes_k m ρ c _ j

/-- The query rows taken at the edges' destinations. -/
theorem entry1_q (hr : ∀ i : S2x800000.Idx, 0 ≤ (A2 i).toInt ∧ (A2 i).toInt < 50000) (e : Fin 800000) (j : Fin 128) :
    U6 m ρ c main_v10 (ix2 e j) = Cert.Spec.mm A0 A3 (Cert.Spec.dst A2 e) j := by
  have hw : W4 m ρ c (Proc.devRef .tc main_v8) (ix1 e) = A2 (ix2 1 e) :=
    (congrFun (W4_keep m ρ c main_v8 (by decide)) _).trans (dst_word m ρ c e)
  have hd : ∀ e : Fin 800000, 0 ≤ (W4 m ρ c main_v8 (ix1 e)).toInt ∧ (W4 m ρ c main_v8 (ix1 e)).toInt < 50000 := fun e => by
    rw [show W4 m ρ c (Proc.devRef .tc main_v8) (ix1 e) = A2 (ix2 1 e) from
      (congrFun (W4_keep m ρ c main_v8 (by decide)) _).trans (dst_word m ρ c e)]
    exact hr _
  calc U6 m ρ c main_v10 (ix2 e j)
      = W5 m ρ c (Proc.devRef .tc main_v10) (ix2 e j) := congrFun (W6_keep m ρ c main_v10 (by decide)) _
    _ = W4 m ρ c (Proc.devRef .tc main_v2) (ix2 (Cert.Spec.row (W4 m ρ c (Proc.devRef .tc main_v8) (ix1 e))) j) :=
        HostTake.take_q (W4 m ρ c) hd e j
    _ = W4 m ρ c (Proc.devRef .tc main_v2) (ix2 (Cert.Spec.dst A2 e) j) := by rw [hw]; rfl
    _ = W3 m ρ c (Proc.devRef .tc main_v2) (ix2 (Cert.Spec.dst A2 e) j) := congrFun (W4_keep m ρ c main_v2 (by decide)) _
    _ = W2 m ρ c (Proc.devRef .tc main_v1) (ix2 (Cert.Spec.dst A2 e) ⟨j.val, by have := j.isLt; omega⟩) := HostReads.slice_q (W2 m ρ c) _ j
    _ = Cert.Spec.mm A0 A3 (Cert.Spec.dst A2 e) j := nodes_q m ρ c _ j

/-- The value rows taken at the edges' sources. -/
theorem entry1_v (hr : ∀ i : S2x800000.Idx, 0 ≤ (A2 i).toInt ∧ (A2 i).toInt < 50000) (e : Fin 800000) (j : Fin 128) :
    U6 m ρ c main_v11 (ix2 e j) = Cert.Spec.mm A0 A5 (Cert.Spec.src A2 e) j := by
  have hk6 : W5 m ρ c (Proc.devRef .tc main_v6) = W3 m ρ c (Proc.devRef .tc main_v6) :=
    (W5_keep m ρ c main_v6 (by decide)).trans (W4_keep m ρ c main_v6 (by decide))
  have hk4 : W5 m ρ c (Proc.devRef .tc main_v4) = W3 m ρ c (Proc.devRef .tc main_v4) :=
    (W5_keep m ρ c main_v4 (by decide)).trans (W4_keep m ρ c main_v4 (by decide))
  have hw : W5 m ρ c (Proc.devRef .tc main_v6) (ix1 e) = A2 (ix2 0 e) := (congrFun hk6 _).trans (src_word m ρ c e)
  have hs : ∀ e : Fin 800000, 0 ≤ (W5 m ρ c main_v6 (ix1 e)).toInt ∧ (W5 m ρ c main_v6 (ix1 e)).toInt < 50000 := fun e => by
    rw [show W5 m ρ c (Proc.devRef .tc main_v6) (ix1 e) = A2 (ix2 0 e) from (congrFun hk6 _).trans (src_word m ρ c e)]
    exact hr _
  calc U6 m ρ c main_v11 (ix2 e j)
      = W5 m ρ c (Proc.devRef .tc main_v4) (ix2 (Cert.Spec.row (W5 m ρ c (Proc.devRef .tc main_v6) (ix1 e))) j) :=
        HostTake.take_v (W5 m ρ c) hs e j
    _ = W5 m ρ c (Proc.devRef .tc main_v4) (ix2 (Cert.Spec.src A2 e) j) := by rw [hw]; rfl
    _ = W3 m ρ c (Proc.devRef .tc main_v4) (ix2 (Cert.Spec.src A2 e) j) := congrFun hk4 _
    _ = W2 m ρ c (Proc.devRef .tc main_v1) (ix2 (Cert.Spec.src A2 e) ⟨256 + j.val, by have := j.isLt; omega⟩) := HostReads.slice_v (W2 m ρ c) _ j
    _ = Cert.Spec.mm A0 A5 (Cert.Spec.src A2 e) j := nodes_v m ρ c _ j

/-- The edge features and the edge projection's table enter region 1 as launched. -/
theorem entry1_e : U6 m ρ c main_arg1 = A1 :=
  (W6_W3 m ρ c main_arg1 (by decide) (by decide) (by decide)).trans ((W3_keep m ρ c main_arg1 (by decide)).trans
    ((W2_of_ne m ρ c main_arg1 (by decide)).trans ((W1_keep m ρ c main_arg1 (by decide)).trans rfl)))
theorem entry1_we : U6 m ρ c main_arg6 = A6 :=
  (W6_W3 m ρ c main_arg6 (by decide) (by decide) (by decide)).trans ((W3_keep m ρ c main_arg6 (by decide)).trans
    ((W2_of_ne m ρ c main_arg6 (by decide)).trans ((W1_keep m ρ c main_arg6 (by decide)).trans rfl)))

/-- The two head tables region 1 holds: entry `(j, a)` is one when column `j` is of head `a`, else zero. -/
theorem entry1_p (j : Fin 128) (a : Fin 8) :
    U6 m ρ c main_cst (ix2 j a) = if j.val / 16 = a.val then (1 : EReal) else 0 :=
  calc U6 m ρ c main_cst (ix2 j a)
      = W1 m ρ c (Proc.devRef .tc main_cst) (ix2 j a) :=
        congrFun ((W6_W3 m ρ c main_cst (by decide) (by decide) (by decide)).trans ((W3_keep m ρ c main_cst (by decide)).trans
          (W2_of_ne m ρ c main_cst (by decide)))) _
    _ = FloatOps.ofBits (F := Ideal) .f32 (lit0 (S128x8.rowMajor (ix2 j a))) := HostReads.table_p (W0 m ρ c) j a
    _ = _ := Pool.poolP j a
theorem entry1_pt (a : Fin 8) (j : Fin 128) :
    U6 m ρ c main_cst_0 (ix2 a j) = if j.val / 16 = a.val then (1 : EReal) else 0 :=
  calc U6 m ρ c main_cst_0 (ix2 a j)
      = W1 m ρ c (Proc.devRef .tc main_cst_0) (ix2 a j) :=
        congrFun ((W6_W3 m ρ c main_cst_0 (by decide) (by decide) (by decide)).trans ((W3_keep m ρ c main_cst_0 (by decide)).trans
          (W2_of_ne m ρ c main_cst_0 (by decide)))) _
    _ = FloatOps.ofBits (F := Ideal) .f32 (lit1 (S8x128.rowMajor (ix2 a j))) := HostReads.table_pt1 (W0 m ρ c) a j
    _ = _ := Pool.poolPt1 a j

/-! ## Region 1's exit and region 2's entry -/

/-- The destination words leave region 1 as they were. -/
theorem exit1_dst (e : Fin 800000) : W7 m ρ c main_v8 (ix1 e) = A2 (ix2 1 e) :=
  (congrFun ((W7_of_ne m ρ c main_v8 (by decide)).trans (W6_W3 m ρ c main_v8 (by decide) (by decide) (by decide))) _).trans
    (dst_word m ρ c e)

/-- The head table region 2 holds. -/
theorem entry2_pt (a : Fin 8) (j : Fin 128) :
    U8 m ρ c main_cst_1 (ix2 a j) = if j.val / 16 = a.val then (1 : EReal) else 0 :=
  calc U8 m ρ c main_cst_1 (ix2 a j)
      = W1 m ρ c (Proc.devRef .tc main_cst_1) (ix2 a j) :=
        congrFun ((W8_keep m ρ c main_cst_1 (by decide)).trans ((W7_of_ne m ρ c main_cst_1 (by decide)).trans
          ((W6_W3 m ρ c main_cst_1 (by decide) (by decide) (by decide)).trans ((W3_keep m ρ c main_cst_1 (by decide)).trans
            (W2_of_ne m ρ c main_cst_1 (by decide)))))) _
    _ = FloatOps.ofBits (F := Ideal) .f32 (lit2 (S8x128.rowMajor (ix2 a j))) := HostReads.table_pt2 (W0 m ρ c) a j
    _ = _ := Pool.poolPt2 a j

end Cert.KernelIdeal.Gen

end
-- ==== Proof.KernelMath.lean ====
/-
  THE KERNEL'S FORMULAS AS THE SPECIFICATION'S: extended-real algebra only.

  The kernel sums a head's lanes by multiplying with a 0/1 table, copies a head's value to its lanes by multiplying
  with the transposed table, and normalises by multiplying with a reciprocal 1 / (z + ε). Here each of these is
  turned into the specification's form: a sum over the 16 lanes of the head, the value at the column's head, and
  the quotient x / (z + ε). The reciprocal step needs z + ε ≠ 0, which holds because z, a sum of exponentials, is
  not negative and ε is positive.
-/
import proofs.«423218_j15375982920242_3_alg».proof.Proof.Spec
import proofs.«423218_j15375982920242_3_alg».proof.Proof.Pool
import Idealize.ShloMosaic.PureOps.Ideal
import Idealize.ShloMosaic.PureOps.Ideal.Laws
import Idealize.ShloMosaic.Lib.IdealHost
import Mathlib.Data.EReal.Basic
import Mathlib.Algebra.BigOperators.Group.Finset.Basic
import Mathlib.Algebra.Order.BigOperators.Group.Finset

noncomputable section

open scoped BigOperators

namespace Cert.KernelIdeal.KernelMath

open Idealize.ShloMosaic Idealize.ShloMosaic.ValueIdx Cert.Spec

/-- The exponential is never negative: zero at ⊥, ⊤ at ⊤, a positive real at a real. -/
theorem exp_nonneg (x : EReal) : 0 ≤ Ideal.exp x := by
  induction x using EReal.rec with
  | bot => exact le_of_eq rfl
  | coe r => exact EReal.coe_nonneg.mpr (Real.exp_pos r).le
  | top => exact le_top

/-- The word 1.0 is the extended real one. -/
theorem one_word : Ideal.ofBits .f32 0x3F800000#32 = (1 : EReal) := Ideal.ofBits_one_f32

/-- The guard ε is positive: its word has sign bit clear and a normal exponent, so it is a positive real. -/
theorem eps_pos : (0 : EReal) < Cert.Spec.eps := by
  unfold Cert.Spec.eps
  simp [Ideal.ofBits, Ideal.ieee, -EReal.coe_mul]

/-- A non-negative normaliser plus the guard is positive, so it is not zero. -/
theorem add_eps_ne_zero (y : EReal) (hy : 0 ≤ y) : y + Cert.Spec.eps ≠ 0 := by
  have h : (0 : EReal) < y + Cert.Spec.eps :=
    lt_of_lt_of_le eps_pos (le_add_of_nonneg_left hy)
  exact ne_of_gt h

/-- Multiplying by the reciprocal 1 / (y + ε) is dividing by y + ε: away from a zero divisor the quotient is the
    product with the inverse, and 1 · z⁻¹ = z⁻¹. -/
theorem recip_mul (x y : EReal) (hy : 0 ≤ y) :
    x * Ideal.div (Ideal.ofBits .f32 0x3F800000#32) (y + Cert.Spec.eps) = Ideal.div x (y + Cert.Spec.eps) := by
  have hne := add_eps_ne_zero y hy
  unfold Ideal.div
  rw [if_neg hne, if_neg hne, one_word, one_mul]

/-- The aggregated gate is a sum of exponentials, so it is not negative. -/
theorem den_nonneg (h : SN.Idx → EReal) (ee : SE.Idx → EReal) (idx : SI.Idx → BitVec 32) (wq wk we : SW.Idx → EReal)
    (n : Fin 50000) (a : Fin 8) : 0 ≤ den h ee idx wq wk we n a := by
  unfold den
  exact Finset.sum_nonneg fun e _ => exp_nonneg _

/-- The kernel's gate — the score row times head a's column of the 0/1 table, clipped, exponentiated — is the
    specification's: the table product is the sum over head a's 16 lanes. -/
theorem gate_formula (sc : Fin 128 → EReal) (a : Fin 8) :
    Ideal.exp (min hi (max lo (∑ j : Fin 128, sc j * (if j.val / 16 = a.val then (1 : EReal) else 0))))
      = Ideal.exp (min hi (max lo (∑ d : Fin 16, sc (lane a d)))) := by
  rw [Cert.KernelIdeal.Pool.sum_pool]

/-- The kernel's message — the value times the gates spread back over the lanes by the transposed table — is the
    value times the gate of the column's head. -/
theorem msg_formula (v : EReal) (g : Fin 8 → EReal) (j : Fin 128) :
    v * ∑ a : Fin 8, g a * (if j.val / 16 = a.val then (1 : EReal) else 0) = v * g (headOf j) := by
  rw [Cert.KernelIdeal.Pool.sum_unpool]

/-- The kernel's node result — the numerator times the reciprocals 1 / (z a + ε) spread over the lanes — is the
    numerator divided by the normaliser of the column's head plus ε. -/
theorem node_formula (x : EReal) (z : Fin 8 → EReal) (hz : ∀ a, 0 ≤ z a) (j : Fin 128) :
    x * ∑ a : Fin 8, Ideal.div (Ideal.ofBits .f32 0x3F800000#32) (z a + Cert.Spec.eps)
          * (if j.val / 16 = a.val then (1 : EReal) else 0)
      = Ideal.div x (z (headOf j) + Cert.Spec.eps) := by
  have hs := Cert.KernelIdeal.Pool.sum_unpool
    (fun a => Ideal.div (Ideal.ofBits .f32 0x3F800000#32) (z a + Cert.Spec.eps)) j
  exact (congrArg (fun t => x * t) hs).trans (recip_mul x (z (headOf j)) (hz (headOf j)))

end Cert.KernelIdeal.KernelMath

end
-- ==== Proof.KernelResult.lean ====
/-
  THE KERNEL'S TWO RESULTS ARE THE SPECIFICATION'S ARRAYS, at the exact extended reals.

  At the end of the program the node result buffer holds the specification's node array and the score buffer holds
  its edge array. The road: the edge region's three outputs (scores, messages, gates) are read at an index as the
  region's formulas over its entry arrays; the entry arrays are the projections' rows at the edges' source and
  destination nodes and the 0/1 pooling tables, so the formulas are the specification's score, message and gate;
  the two aggregations sum messages and gates over the edges into a node; the last region divides the aggregated
  messages by the aggregated gate of the column's head plus ε.
-/
import proofs.«423218_j15375982920242_3_alg».proof.Proof.Run
import proofs.«423218_j15375982920242_3_alg».proof.Proof.ValueR1
import proofs.«423218_j15375982920242_3_alg».proof.Proof.ValueR2
import proofs.«423218_j15375982920242_3_alg».proof.Proof.HostReads
import proofs.«423218_j15375982920242_3_alg».proof.Proof.KernelEntry
import proofs.«423218_j15375982920242_3_alg».proof.Proof.KernelMath
import proofs.«423218_j15375982920242_3_alg».proof.Proof.Spec
import Idealize.ShloMosaic.Lib.ValueIdx
import Idealize.ShloMosaic.Lib.ValueIdxRank1
import Mathlib.Algebra.BigOperators.Group.Finset.Basic

set_option maxRecDepth 16384

noncomputable section

open scoped BigOperators

namespace Cert.KernelIdeal.Gen
open Cert.KernelIdeal Idealize.ShloMosaic Idealize.ShloMosaic.TcCoe Idealize.ShloMosaic.ValueIdx Idealize.SL.Sem
open Idealize.ShloMosaic.Pipeline (Dat)
open Cert.Spec (score gate msg num den nodeOut edgeOut mm src dst headOf lane)

variable (m : (ℓ : Loc nD τ sig) → Buf (Elt Ideal) ℓ) (ρ : Dev nD → PrngReg) (c : Dev nD)

set_option quotPrecheck false
/-- The seven argument arrays as launched: node features, edge features, the edge list, the four projections. -/
local notation "A0" => (m ((c : Thread nD τ).loc main_arg0))
local notation "A1" => (m ((c : Thread nD τ).loc main_arg1))
local notation "A2" => (m ((c : Thread nD τ).loc main_arg2))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))

/-! ## The edge region's entry arrays as functions of the launch arrays -/

/-- The key rows, the query rows and the value rows: a projection's row at the edge's source or destination node. -/
abbrev keyF : S800000x128.Idx → EReal := fun i => mm A0 A4 (src A2 (i 0)) (i 1)
abbrev qryF : S800000x128.Idx → EReal := fun i => mm A0 A3 (dst A2 (i 0)) (i 1)
abbrev valF : S800000x128.Idx → EReal := fun i => mm A0 A5 (src A2 (i 0)) (i 1)
/-- The pooling table and its transpose: one where the column belongs to the head. -/
abbrev poolF : S128x8.Idx → EReal := fun i => if (i 0).val / 16 = (i 1).val then (1 : EReal) else 0
abbrev poolTF : S8x128.Idx → EReal := fun i => if (i 1).val / 16 = (i 0).val then (1 : EReal) else 0

theorem hkey (hr : ∀ i : S2x800000.Idx, 0 ≤ (A2 i).toInt ∧ (A2 i).toInt < 50000) : U6 m ρ c main_v9 = keyF m c := by
  funext i
  obtain ⟨e, j, rfl⟩ : ∃ e j, i = ix2 e j := ⟨_, _, eq_ix2 i⟩
  exact entry1_k m ρ c hr e j

theorem hqry (hr : ∀ i : S2x800000.Idx, 0 ≤ (A2 i).toInt ∧ (A2 i).toInt < 50000) : U6 m ρ c main_v10 = qryF m c := by
  funext i
  obtain ⟨e, j, rfl⟩ : ∃ e j, i = ix2 e j := ⟨_, _, eq_ix2 i⟩
  exact entry1_q m ρ c hr e j

theorem hval (hr : ∀ i : S2x800000.Idx, 0 ≤ (A2 i).toInt ∧ (A2 i).toInt < 50000) : U6 m ρ c main_v11 = valF m c := by
  funext i
  obtain ⟨e, j, rfl⟩ : ∃ e j, i = ix2 e j := ⟨_, _, eq_ix2 i⟩
  exact entry1_v m ρ c hr e j

theorem hpool : U6 m ρ c main_cst = poolF := by
  funext i
  obtain ⟨j, a, rfl⟩ : ∃ j a, i = ix2 j a := ⟨_, _, eq_ix2 i⟩
  exact entry1_p m ρ c j a

theorem hpoolT : U6 m ρ c main_cst_0 = poolTF := by
  funext i
  obtain ⟨a, j, rfl⟩ : ∃ a j, i = ix2 a j := ⟨_, _, eq_ix2 i⟩
  exact entry1_pt m ρ c a j

theorem hpoolT2 : U8 m ρ c main_cst_1 = poolTF := by
  funext i
  obtain ⟨a, j, rfl⟩ : ∃ a j, i = ix2 a j := ⟨_, _, eq_ix2 i⟩
  exact entry2_pt m ρ c a j

/-! ## The region's formulas over those arrays are the specification's -/

/-- Key times query times the scale times the edge projection: the specification's score, term for term. -/
theorem scoreF_eq (e : Fin 800000) (j : Fin 128) :
    scoreF (keyF m c) (qryF m c) A1 A6 e j = score A0 A1 A2 A3 A4 A6 e j := rfl

/-- The score row pooled by the table is the sum over the head's 16 lanes: the specification's gate. -/
theorem gateF_eq (e : Fin 800000) (a : Fin 8) :
    gateF (keyF m c) (qryF m c) A1 A6 poolF e a = gate A0 A1 A2 A3 A4 A6 e a :=
  Cert.KernelIdeal.KernelMath.gate_formula (fun j => score A0 A1 A2 A3 A4 A6 e j) a

/-- The gates spread back over the lanes by the transposed table leave the gate of the column's head: the
    specification's message. -/
theorem msgF_eq (e : Fin 800000) (j : Fin 128) :
    msgF (keyF m c) (qryF m c) A1 (valF m c) A6 poolF poolTF e j = msg A0 A1 A2 A3 A4 A5 A6 e j := by
  unfold msgF
  simp only [gateF_eq]
  exact Cert.KernelIdeal.KernelMath.msg_formula _ (fun a => gate A0 A1 A2 A3 A4 A6 e a) j

/-! ## The edge region's three outputs -/

/-- The score buffer at the edge region's exit. -/
theorem res_score (hr : ∀ i : S2x800000.Idx, 0 ≤ (A2 i).toInt ∧ (A2 i).toInt < 50000) (e : Fin 800000) (j : Fin 128) : W7 m ρ c main_v12_0 (ix2 e j) = score A0 A1 A2 A3 A4 A6 e j := by
  refine (congrArg (fun f : S800000x128.Idx → EReal => f (ix2 e j)) (W7_arr m ρ c 7)).trans ?_
  refine (arr1_7_apply (U6 m ρ) c e j).trans ?_
  unfold scoreV
  rw [hkey m ρ c hr, hqry m ρ c hr, entry1_e m ρ c, entry1_we m ρ c]
  exact scoreF_eq m c e j

/-- The gate buffer at the edge region's exit. -/
theorem res_gate (hr : ∀ i : S2x800000.Idx, 0 ≤ (A2 i).toInt ∧ (A2 i).toInt < 50000) (e : Fin 800000) (a : Fin 8) : W7 m ρ c main_v12_2 (ix2 e a) = gate A0 A1 A2 A3 A4 A6 e a := by
  refine (congrArg (fun f : S800000x8.Idx → EReal => f (ix2 e a)) (W7_arr m ρ c 9)).trans ?_
  refine (arr1_9_apply (U6 m ρ) c e a).trans ?_
  unfold gateV
  rw [hkey m ρ c hr, hqry m ρ c hr, entry1_e m ρ c, entry1_we m ρ c, hpool m ρ c]
  exact gateF_eq m c e a

/-- The message buffer at the edge region's exit. -/
theorem res_msg (hr : ∀ i : S2x800000.Idx, 0 ≤ (A2 i).toInt ∧ (A2 i).toInt < 50000) (e : Fin 800000) (j : Fin 128) : W7 m ρ c main_v12_1 (ix2 e j) = msg A0 A1 A2 A3 A4 A5 A6 e j := by
  refine (congrArg (fun f : S800000x128.Idx → EReal => f (ix2 e j)) (W7_arr m ρ c 8)).trans ?_
  refine (arr1_8_apply (U6 m ρ) c e j).trans ?_
  unfold msgV
  rw [hkey m ρ c hr, hqry m ρ c hr, entry1_e m ρ c, hval m ρ c hr, entry1_we m ρ c, hpool m ρ c, hpoolT m ρ c]
  exact msgF_eq m c e j

/-! ## The two aggregations -/

/-- The edges the aggregation sums at node n — those whose destination word at the edge region's exit reads n — are
    the specification's: the destination row of the edge list is as launched. -/
theorem filter_into (n : Fin 50000) :
    Finset.univ.filter (fun e : Fin 800000 => (W7 m ρ c main_v8 (ix1 e)).toInt = (n.val : Int)) = Cert.Spec.into A2 n := by
  unfold Cert.Spec.into
  refine Finset.filter_congr fun e _ => ?_
  rw [exit1_dst m ρ c e]

/-- The aggregated messages at the last region's entry. -/
theorem agg_num (hr : ∀ i : S2x800000.Idx, 0 ≤ (A2 i).toInt ∧ (A2 i).toInt < 50000) (n : Fin 50000) (j : Fin 128) : U8 m ρ c main_v15 (ix2 n j) = num A0 A1 A2 A3 A4 A5 A6 n j := by
  have hs : (∑ e ∈ Finset.univ.filter (fun e : Fin 800000 => (W7 m ρ c main_v8 (ix1 e)).toInt = (n.val : Int)),
      W7 m ρ c main_v12_1 (ix2 e j) : EReal) = num A0 A1 A2 A3 A4 A5 A6 n j := by
    rw [filter_into m ρ c n]
    unfold Cert.Spec.num
    exact Finset.sum_congr rfl fun e _ => res_msg m ρ c hr e j
  exact (Cert.KernelIdeal.HostReads.agg_msg (W7 m ρ c) n j).trans hs

/-- The aggregated gates at the last region's entry. -/
theorem agg_den (hr : ∀ i : S2x800000.Idx, 0 ≤ (A2 i).toInt ∧ (A2 i).toInt < 50000) (n : Fin 50000) (a : Fin 8) : U8 m ρ c main_v18 (ix2 n a) = den A0 A1 A2 A3 A4 A6 n a := by
  have hs : (∑ e ∈ Finset.univ.filter (fun e : Fin 800000 => (W7 m ρ c main_v8 (ix1 e)).toInt = (n.val : Int)),
      W7 m ρ c main_v12_2 (ix2 e a) : EReal) = den A0 A1 A2 A3 A4 A6 n a := by
    rw [filter_into m ρ c n]
    unfold Cert.Spec.den
    exact Finset.sum_congr rfl fun e _ => res_gate m ρ c hr e a
  exact (Cert.KernelIdeal.HostReads.agg_gate (W7 m ρ c) n a).trans hs

/-! ## The two results -/

/-- THE NODE RESULT: the aggregated messages times the reciprocals of the aggregated gates plus ε, spread over the
    lanes by the transposed table, is the quotient by the gate of the column's head plus ε. The aggregated gate is a
    sum of exponentials, so the divisor is positive. -/
theorem kernel_node (hr : ∀ i : S2x800000.Idx, 0 ≤ (A2 i).toInt ∧ (A2 i).toInt < 50000) : W9 m ρ c main_v19 = nodeOut A0 A1 A2 A3 A4 A5 A6 := by
  funext i
  obtain ⟨n, j, rfl⟩ : ∃ n j, i = ix2 n j := ⟨_, _, eq_ix2 i⟩
  have h0 : U8 m ρ c main_v15 = (fun i => num A0 A1 A2 A3 A4 A5 A6 (i 0) (i 1) : S50000x128.Idx → EReal) := by
    funext i
    obtain ⟨n, j, rfl⟩ : ∃ n j, i = ix2 n j := ⟨_, _, eq_ix2 i⟩
    exact agg_num m ρ c hr n j
  have h1 : U8 m ρ c main_v18 = (fun i => den A0 A1 A2 A3 A4 A6 (i 0) (i 1) : S50000x8.Idx → EReal) := by
    funext i
    obtain ⟨n, a, rfl⟩ : ∃ n a, i = ix2 n a := ⟨_, _, eq_ix2 i⟩
    exact agg_den m ρ c hr n a
  refine (congrArg (fun f : S50000x128.Idx → EReal => f (ix2 n j)) (W9_arr m ρ c 3)).trans ?_
  refine (arr2_3_apply_of (U8 m ρ) c _ _ _ h0 h1 (hpoolT2 m ρ c) n j).trans ?_
  exact Cert.KernelIdeal.KernelMath.node_formula (num A0 A1 A2 A3 A4 A5 A6 n j) (fun a => den A0 A1 A2 A3 A4 A6 n a)
    (fun a => Cert.KernelIdeal.KernelMath.den_nonneg A0 A1 A2 A3 A4 A6 n a) j

/-- THE EDGE RESULT: the score buffer is the edge region's output, and neither the aggregations nor the last region
    write it. -/
theorem kernel_edge (hr : ∀ i : S2x800000.Idx, 0 ≤ (A2 i).toInt ∧ (A2 i).toInt < 50000) : W9 m ρ c main_v12_0 = edgeOut A0 A1 A2 A3 A4 A6 := by
  funext i
  obtain ⟨e, j, rfl⟩ : ∃ e j, i = ix2 e j := ⟨_, _, eq_ix2 i⟩
  have h9 : W9 m ρ c main_v12_0 = W8 m ρ c main_v12_0 := W9_of_ne m ρ c main_v12_0 (by decide)
  have h8 : W8 m ρ c main_v12_0 = W7 m ρ c main_v12_0 :=
    StableHlo.after_of_writes_sub hostOps2 _ hostOps2_writes (by decide : main_v12_0 ∉ hostOps2_W)
  exact (congrArg (fun f : S800000x128.Idx → EReal => f (ix2 e j)) (h9.trans h8)).trans (res_score m ρ c hr e j)

end Cert.KernelIdeal.Gen

end
-- ==== Proof.LibIndexing3.lean ====
/-
  READING A BLOCK GATHER AND A BLOCK SCATTER-ADD AT AN INDEX, at any extents.

  A gather `x[idx]` of a table `[N, A, D]` whose rows are blocks `[A, D]`, at a column of start indices `[E, 1]`: the
  result's element `(e, a, d)` is the operand's at the start index read as a signed integer and clamped into
  `[0, N − 1]`, at the same place `(a, d)` of the block (`gather_blocks_apply`). A block scatter-add into `[N, A, D]` at a
  column of scatter indices `[E, 1]`, over the extended reals: the result's element `(n, a, d)` is the operand's plus the
  sum of the updates `(e, a, d)` whose scatter index, read signed and not clamped, is `n` (`scatterAdd_blocks_apply`); an
  update whose index is outside `[0, N)` lands nowhere. A sum over a rank-3 index set is the triple sum over the
  coordinates (`sum_idx3`).
-/
import Idealize.ShloMosaic.Lib.ValueIdx

noncomputable section

open scoped BigOperators

namespace Cert.LibIndexing3

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A block gather: `x[idx]` of a table `x : [N, A, D]` at a column of start indices `idx : [E, 1]`

Result element `(e, a, d)` is the table's block at the start index `idx[e, 0]`, read as a signed integer and clamped into
`[0, N − 1]`, at place `(a, d)`. -/

section Gather
variable {α : Type}

/-- The dimension numbers of a block gather: operand `[N, A, D]`, start indices `[E, 1]`, result `[E, A, D]`; the
    result's axes 1 and 2 are the offset axes, the operand's axis 0 is collapsed and is the one the start index names,
    whole blocks `[1, A, D]` are sliced. -/
abbrev blockGatherDims (N A D E : Nat)
    (wf : GatherDims.WF ⟨3, ![N, A, D]⟩ ⟨2, ![E, 1]⟩ ⟨3, ![E, A, D]⟩ [1, 2] [0] [] [0] [] 1 ![1, A, D]) :
    GatherDims ⟨3, ![N, A, D]⟩ ⟨2, ![E, 1]⟩ ⟨3, ![E, A, D]⟩ where
  offsetDims := [1, 2]
  collapsedSliceDims := [0]
  operandBatchingDims := []
  startIndicesBatchingDims := []
  startIndexMap := [0]
  indexVectorDim := 1
  sliceSizes := ![1, A, D]
  wf := wf

/-- THE BLOCK GATHER READ AT `(e, a, d)`: the table at block `idx[e, 0]` (signed, clamped into `[0, N − 1]`) and place
    `(a, d)`. -/
theorem gather_blocks_apply {N A D E w : Nat} (hN : 0 < N)
    (wf : GatherDims.WF ⟨3, ![N, A, D]⟩ ⟨2, ![E, 1]⟩ ⟨3, ![E, A, D]⟩ [1, 2] [0] [] [0] [] 1 ![1, A, D])
    (x : (⟨3, ![N, A, D]⟩ : Shape).Idx → α) (idx : IVec ⟨2, ![E, 1]⟩ w) (e : Fin E) (a : Fin A) (d : Fin D) :
    Host.gather (blockGatherDims N A D E wf) x idx (ix3 e a d)
      = x (ix3 ⟨min (idx (ix2 e 0)).toInt.toNat (N - 1), by omega⟩ a d) := by
  unfold Host.gather
  congr 1
  funext c
  refine Fin.ext ?_
  match c with
  | ⟨0, _⟩ =>
    show (blockGatherDims N A D E wf).start (ix3 e a d) idx 0 + (blockGatherDims N A D E wf).batchCoord (ix3 e a d) 0
        + (blockGatherDims N A D E wf).offCoord (ix3 e a d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (blockGatherDims N A D E wf).startIndexMap from List.mem_singleton.mpr rfl)]
    have hsi : (blockGatherDims N A D E wf).siIdx (ix3 e a d)
        ⟨List.idxOf (0 : Fin 3) (blockGatherDims N A D E wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (blockGatherDims N A D E wf).start (ix3 e a d) idx 1 + (blockGatherDims N A D E wf).batchCoord (ix3 e a d) 1
        + (blockGatherDims N A D E wf).offCoord (ix3 e a d) 1 = _
    rw [GatherDims.batchCoord_eq_zero _ _ _ List.not_mem_nil]
    unfold GatherDims.start
    rw [dif_neg (show (1 : Fin 3) ∉ (blockGatherDims N A D E wf).startIndexMap from
      fun h => absurd (congrArg Fin.val (List.mem_singleton.mp h)) Nat.one_ne_zero)]
    simp only [Nat.add_zero, Nat.zero_add]
    rfl
  | ⟨2, _⟩ =>
    show (blockGatherDims N A D E wf).start (ix3 e a d) idx 2 + (blockGatherDims N A D E wf).batchCoord (ix3 e a d) 2
        + (blockGatherDims N A D E wf).offCoord (ix3 e a d) 2 = _
    rw [GatherDims.batchCoord_eq_zero _ _ _ List.not_mem_nil]
    unfold GatherDims.start
    rw [dif_neg (show (2 : Fin 3) ∉ (blockGatherDims N A D E wf).startIndexMap from
      fun h => absurd (congrArg Fin.val (List.mem_singleton.mp h)) (show (2 : Nat) ≠ 0 from by decide))]
    simp only [Nat.add_zero, Nat.zero_add]
    rfl

end Gather

/-! ## A block scatter-add: `x.at[idx].add(upd)` of a table `x : [N, A, D]`, a column of scatter indices `idx : [E, 1]`
and update blocks `upd : [E, A, D]`, at the exact instance

Update element `(e, a, d)` lands at block `idx[e, 0]` (read signed, not clamped) and place `(a, d)`, and is dropped when
that block is outside `[0, N)`. So element `(n, a, d)` of the result is `x (n, a, d)` plus the sum of `upd (e, a, d)` over
the `e` whose index is `n`. -/

section ScatterBlocks
variable {N A D E w : Nat}

/-- The dimension numbers of a block scatter: operand `[N, A, D]`, scatter indices `[E, 1]`, updates `[E, A, D]`; the
    updates' axes 1 and 2 are the window axes, the operand's axis 0 is inserted and is the one the scatter index names. -/
abbrev blockScatterDims (N A D E : Nat)
    (wf : ScatterDims.WF ⟨3, ![N, A, D]⟩ ⟨2, ![E, 1]⟩ ⟨3, ![E, A, D]⟩ [1, 2] [0] [0] 1) :
    ScatterDims ⟨3, ![N, A, D]⟩ ⟨2, ![E, 1]⟩ ⟨3, ![E, A, D]⟩ where
  updateWindowDims := [1, 2]
  insertedWindowDims := [0]
  scatterDimsToOperandDims := [0]
  indexVectorDim := 1
  wf := wf

variable (wf : ScatterDims.WF ⟨3, ![N, A, D]⟩ ⟨2, ![E, 1]⟩ ⟨3, ![E, A, D]⟩ [1, 2] [0] [0] 1) (idx : IVec ⟨2, ![E, 1]⟩ w)

/-- On the operand's block axis the window starts at the scatter index, read signed. -/
theorem blockScatter_start0 (e : Fin E) (a : Fin A) (d : Fin D) :
    (blockScatterDims N A D E wf).start (ix3 e a d) idx 0 = (idx (ix2 e 0)).toInt := by
  unfold ScatterDims.start
  rw [dif_pos (show (0 : Fin 3) ∈ (blockScatterDims N A D E wf).scatterDimsToOperandDims from List.mem_singleton.mpr rfl)]
  have hsi : (blockScatterDims N A D E wf).siIdx (ix3 e a d)
      ⟨List.idxOf (0 : Fin 3) (blockScatterDims N A D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1 the window starts at `0`. -/
theorem blockScatter_start1 (e : Fin E) (a : Fin A) (d : Fin D) :
    (blockScatterDims N A D E wf).start (ix3 e a d) idx 1 = 0 := by
  unfold ScatterDims.start
  rw [dif_neg (show (1 : Fin 3) ∉ (blockScatterDims N A D E wf).scatterDimsToOperandDims from
    fun h => absurd (congrArg Fin.val (List.mem_singleton.mp h)) Nat.one_ne_zero)]

/-- On the operand's axis 2 the window starts at `0`. -/
theorem blockScatter_start2 (e : Fin E) (a : Fin A) (d : Fin D) :
    (blockScatterDims N A D E wf).start (ix3 e a d) idx 2 = 0 := by
  unfold ScatterDims.start
  rw [dif_neg (show (2 : Fin 3) ∉ (blockScatterDims N A D E wf).scatterDimsToOperandDims from
    fun h => absurd (congrArg Fin.val (List.mem_singleton.mp h)) (show (2 : Nat) ≠ 0 from by decide))]

/-- The operand's axes that are not inserted: the two axes of a block. -/
theorem blockScatter_sKept : (blockScatterDims N A D E wf).sKept = [1, 2] := rfl

/-- The block axis is inserted: no window coordinate there. -/
theorem blockScatter_window0 (e : Fin E) (a : Fin A) (d : Fin D) :
    (blockScatterDims N A D E wf).window (ix3 e a d) 0 = 0 := by
  unfold ScatterDims.window
  rw [dif_neg (show (0 : Fin 3) ∉ (blockScatterDims N A D E wf).sKept from by
    rw [blockScatter_sKept]
    intro h
    rcases List.mem_cons.mp h with h | h
    · exact absurd (congrArg Fin.val h) Nat.zero_ne_one
    · exact absurd (congrArg Fin.val (List.mem_singleton.mp h)) (show (0 : Nat) ≠ 2 from by decide))]

/-- On axis 1 the window coordinate is the update's coordinate there. -/
theorem blockScatter_window1 (e : Fin E) (a : Fin A) (d : Fin D) :
    (blockScatterDims N A D E wf).window (ix3 e a d) 1 = a.val := by
  unfold ScatterDims.window
  rw [dif_pos (show (1 : Fin 3) ∈ (blockScatterDims N A D E wf).sKept from by
    rw [blockScatter_sKept]; exact List.mem_cons_self)]
  rfl

/-- On axis 2 the window coordinate is the update's coordinate there. -/
theorem blockScatter_window2 (e : Fin E) (a : Fin A) (d : Fin D) :
    (blockScatterDims N A D E wf).window (ix3 e a d) 2 = d.val := by
  unfold ScatterDims.window
  rw [dif_pos (show (2 : Fin 3) ∈ (blockScatterDims N A D E wf).sKept from by
    rw [blockScatter_sKept]; exact List.mem_cons_of_mem _ (List.mem_singleton.mpr rfl))]
  rfl

/-- WHERE AN UPDATE LANDS: update element `(e, a', d')` lands on operand element `(n, a, d)` exactly when the scatter
    index `idx[e, 0]`, read signed, is `n` and the places in the block agree. -/
theorem blockScatter_resultIdx?_eq_some (e : Fin E) (a' : Fin A) (d' : Fin D) (n : Fin N) (a : Fin A) (d : Fin D) :
    (blockScatterDims N A D E wf).resultIdx? (ix3 e a' d') idx = some (ix3 n a d)
      ↔ (idx (ix2 e 0)).toInt = (n.val : Int) ∧ a' = a ∧ d' = d := by
  have hs0 := blockScatter_start0 wf idx e a' d'
  have hs1 := blockScatter_start1 wf idx e a' d'
  have hs2 := blockScatter_start2 wf idx e a' d'
  have hw0 := blockScatter_window0 wf e a' d'
  have hw1 := blockScatter_window1 wf e a' d'
  have hw2 := blockScatter_window2 wf e a' d'
  unfold ScatterDims.resultIdx?
  split
  · rename_i h
    rw [Option.some.injEq]
    constructor
    · intro heq
      have h0 : ((blockScatterDims N A D E wf).start (ix3 e a' d') idx 0
          + ((blockScatterDims N A D E wf).window (ix3 e a' d') 0 : Nat)).toNat
          = n.val := congrArg (fun i : (⟨3, ![N, A, D]⟩ : Shape).Idx => (i 0).val) heq
      have h1 : ((blockScatterDims N A D E wf).start (ix3 e a' d') idx 1
          + ((blockScatterDims N A D E wf).window (ix3 e a' d') 1 : Nat)).toNat
          = a.val := congrArg (fun i : (⟨3, ![N, A, D]⟩ : Shape).Idx => (i 1).val) heq
      have h2 : ((blockScatterDims N A D E wf).start (ix3 e a' d') idx 2
          + ((blockScatterDims N A D E wf).window (ix3 e a' d') 2 : Nat)).toNat
          = d.val := congrArg (fun i : (⟨3, ![N, A, D]⟩ : Shape).Idx => (i 2).val) heq
      have hh := (h 0).1
      rw [hs0, hw0] at h0 hh
      rw [hs1, hw1] at h1
      rw [hs2, hw2] at h2
      refine ⟨by omega, Fin.ext (by omega), Fin.ext (by omega)⟩
    · rintro ⟨ht, rfl, rfl⟩
      funext c; refine Fin.ext ?_
      match c with
      | ⟨0, _⟩ =>
        show ((blockScatterDims N A D E wf).start (ix3 e a' d') idx 0
          + ((blockScatterDims N A D E wf).window (ix3 e a' d') 0 : Nat)).toNat = n.val
        rw [hs0, hw0]; omega
      | ⟨1, _⟩ =>
        show ((blockScatterDims N A D E wf).start (ix3 e a' d') idx 1
          + ((blockScatterDims N A D E wf).window (ix3 e a' d') 1 : Nat)).toNat = a'.val
        rw [hs1, hw1]; omega
      | ⟨2, _⟩ =>
        show ((blockScatterDims N A D E wf).start (ix3 e a' d') idx 2
          + ((blockScatterDims N A D E wf).window (ix3 e a' d') 2 : Nat)).toNat = d'.val
        rw [hs2, hw2]; omega
  · rename_i h
    refine iff_of_false (fun hc => Option.some_ne_none _ hc.symm) ?_
    rintro ⟨ht, rfl, rfl⟩
    refine h fun c => ?_
    match c with
    | ⟨0, _⟩ =>
      show 0 ≤ (blockScatterDims N A D E wf).start (ix3 e a' d') idx 0
          + ((blockScatterDims N A D E wf).window (ix3 e a' d') 0 : Nat)
        ∧ (blockScatterDims N A D E wf).start (ix3 e a' d') idx 0
          + ((blockScatterDims N A D E wf).window (ix3 e a' d') 0 : Nat) < (N : Int)
      rw [hs0, hw0]; have := n.isLt; omega
    | ⟨1, _⟩ =>
      show 0 ≤ (blockScatterDims N A D E wf).start (ix3 e a' d') idx 1
          + ((blockScatterDims N A D E wf).window (ix3 e a' d') 1 : Nat)
        ∧ (blockScatterDims N A D E wf).start (ix3 e a' d') idx 1
          + ((blockScatterDims N A D E wf).window (ix3 e a' d') 1 : Nat) < (A : Int)
      rw [hs1, hw1]; have := a'.isLt; omega
    | ⟨2, _⟩ =>
      show 0 ≤ (blockScatterDims N A D E wf).start (ix3 e a' d') idx 2
          + ((blockScatterDims N A D E wf).window (ix3 e a' d') 2 : Nat)
        ∧ (blockScatterDims N A D E wf).start (ix3 e a' d') idx 2
          + ((blockScatterDims N A D E wf).window (ix3 e a' d') 2 : Nat) < (D : Int)
      rw [hs2, hw2]; have := d'.isLt; omega

/-- THE BLOCK SCATTER-ADD READ AT `(n, a, d)`: the operand's element plus the sum of the updates `upd (e, a, d)` over the
    `e` whose scatter index `idx[e, 0]`, read signed, is `n`. -/
theorem scatterAdd_blocks_apply {φ : FTy} (x : FVec Ideal ⟨3, ![N, A, D]⟩ φ) (upd : FVec Ideal ⟨3, ![E, A, D]⟩ φ)
    (n : Fin N) (a : Fin A) (d : Fin D) :
    Host.scatterAdd (blockScatterDims N A D E wf) x idx upd (ix3 n a d)
      = x (ix3 n a d)
        + ∑ e ∈ Finset.univ.filter (fun e : Fin E => (idx (ix2 e 0)).toInt = (n.val : Int)), upd (ix3 e a d) := by
  show x (ix3 n a d) + ∑ i ∈ Finset.univ.filter
      (fun i => (blockScatterDims N A D E wf).resultIdx? i idx = some (ix3 n a d)), upd i = _
  congr 1
  rw [Finset.sum_filter, sum_idx3, Finset.sum_filter]
  refine Finset.sum_congr rfl fun e _ => ?_
  simp only [blockScatter_resultIdx?_eq_some]
  by_cases ht : (idx (ix2 e 0)).toInt = (n.val : Int)
  · simp only [ht, true_and, if_true]
    rw [Finset.sum_eq_single a, Finset.sum_eq_single d]
    · simp
    · intro d' _ hd; simp [hd]
    · simp
    · intro a' _ ha; simp [ha]
    · simp
  · simp only [ht, false_and, if_false, Finset.sum_const_zero]

end ScatterBlocks

end Cert.LibIndexing3

end
-- ==== Proof.RefEdge.lean ====
/-
  THE REFERENCE'S EDGE SIDE IS THE SPECIFICATION'S.

  On the domain where every word of the edge list is a node row (`0 ≤ idx < 50000`), the reference's score array, read
  at edge `e`, head `a` and lane `d`, is the specification's score at `e` and column `16a + d`; its gate array at
  `(e, a, 0)` is the specification's gate; and its edge result is the specification's edge result.

  The steps: the reference wraps a negative index word by adding the row count, which on the domain leaves the word as it
  is; the gather then clamps the word, read signed, into the table: the specification's `row`; a projection reshaped to
  heads and lanes, read at `(n, a, d)`, is the product's sum at row `n` and column `16a + d`; the sum over the lanes starts
  from the zero word, the real `0`.
-/
import proofs.«423218_j15375982920242_3_alg».proof.Proof.Gen.ReferenceIdeal.Read
import proofs.«423218_j15375982920242_3_alg».proof.Proof.LibIndexing3
import proofs.«423218_j15375982920242_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.Gen Idealize.ShloMosaic Idealize.ShloMosaic.ValueIdx

variable [Cert.ReferenceIdeal.Facts]

/-! ## The index word: the wrap leaves it, the gather clamps it -/

/-- A word that is not negative, read signed, is not below zero. -/
theorem slt_zero_of_nonneg (b : BitVec 32) (h : 0 ≤ b.toInt) : IntOp.cmpi .slt b 0#32 = 0#1 := by
  have hs : b.slt 0#32 = false := by
    rw [Bool.eq_false_iff]
    intro hc
    rw [BitVec.slt_iff_toInt_lt] at hc
    have h0 : (0#32 : BitVec 32).toInt = 0 := by decide
    omega
  show BitVec.ofBool (b.slt 0#32) = 0#1
  rw [hs]
  rfl

theorem idx_src_row (e : Fin 800000) : Read.idx_main_v8 (Read.idx_main_v9 (ix1 e)) = ix2 0 e :=
  funext fun c => Fin.ext (by
    match c with
    | ⟨0, _⟩ => rfl
    | ⟨1, _⟩ => exact Nat.mod_eq_of_lt e.isLt)
theorem idx_src_col (e : Fin 800000) : Read.idx_main_v17 (ix2 e 0) = ix1 e :=
  funext fun c => Fin.ext (by match c with | ⟨0, _⟩ => rfl)
/-- On the domain the wrapped source word of edge `e` is the edge list's word at `(0, e)`. -/
theorem src_word (x2 : (⟨S2x800000, .i32⟩ : BufTy).Contents (Elt Ideal))
    (hr : ∀ i : S2x800000.Idx, 0 ≤ (x2 i).toInt ∧ (x2 i).toInt < 50000) (e : Fin 800000) :
    Read.val_main_v17 (F := Ideal) x2 (ix2 e 0) = x2 (ix2 0 e) := by
  rw [Read.val_main_v17_apply, idx_src_col, Read.val_main_v16_apply, Read.val_main_v13_apply, Read.val_main_v9_apply,
    Read.val_main_v8_apply, idx_src_row, Read.val_main_v12_apply, Read.val_main_c_apply, slt_zero_of_nonneg _ (hr _).1]
  exact select_zero _ _

theorem idx_dst_row (e : Fin 800000) : Read.idx_main_v10 (Read.idx_main_v11 (ix1 e)) = ix2 1 e :=
  funext fun c => Fin.ext (by
    match c with
    | ⟨0, _⟩ => rfl
    | ⟨1, _⟩ => exact Nat.mod_eq_of_lt e.isLt)
theorem idx_dst_col (e : Fin 800000) : Read.idx_main_v24 (ix2 e 0) = ix1 e :=
  funext fun c => Fin.ext (by match c with | ⟨0, _⟩ => rfl)
/-- On the domain the wrapped destination word of edge `e` is the edge list's word at `(1, e)`. -/
theorem dst_word (x2 : (⟨S2x800000, .i32⟩ : BufTy).Contents (Elt Ideal))
    (hr : ∀ i : S2x800000.Idx, 0 ≤ (x2 i).toInt ∧ (x2 i).toInt < 50000) (e : Fin 800000) :
    Read.val_main_v24 (F := Ideal) x2 (ix2 e 0) = x2 (ix2 1 e) := by
  rw [Read.val_main_v24_apply, idx_dst_col, Read.val_main_v23_apply, Read.val_main_v20_apply, Read.val_main_v11_apply,
    Read.val_main_v10_apply, idx_dst_row, Read.val_main_v19_apply, Read.val_main_c_1_apply, slt_zero_of_nonneg _ (hr _).1]
  exact select_zero _ _

/-- The block gather of a node table at a column of index words, read at `(e, a, d)`: the table at the row the word names. -/
theorem gather_at (T : (⟨S50000x8x16, .f32⟩ : BufTy).Contents (Elt Ideal)) (I : (⟨S800000x1, .i32⟩ : BufTy).Contents (Elt Ideal))
    (e : Fin 800000) (a : Fin 8) (d : Fin 16) :
    Host.gather gather_S50000x8x16_S800000x1_S800000x8x16_12_0_n_n_0_1_1816 T I (ix3 e a d)
      = T (ix3 (Cert.Spec.row (I (ix2 e 0))) a d) :=
  Cert.LibIndexing3.gather_blocks_apply (by decide) Facts₀.gather_S50000x8x16_S800000x1_S800000x8x16_12_0_n_n_0_1_1816_wf T I e a d

/-! ## A projection reshaped to heads and lanes -/

theorem idx_Q (n : Fin 50000) (a : Fin 8) (d : Fin 16) : Read.idx_main_v1 (ix3 n a d) = ix2 n (Cert.Spec.lane a d) :=
  funext fun c => Fin.ext (by
    have hn := n.isLt; have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
theorem lidx_Q (n : Fin 50000) (j k : Fin 128) : Read.lidx_main_v0 (ix2 n j) k = ix2 n k :=
  funext fun c => Fin.ext (by match c with | ⟨0, _⟩ => rfl | ⟨1, _⟩ => rfl)
theorem ridx_Q (n : Fin 50000) (j k : Fin 128) : Read.ridx_main_v0 (ix2 n j) k = ix2 k j :=
  funext fun c => Fin.ext (by match c with | ⟨0, _⟩ => rfl | ⟨1, _⟩ => rfl)
/-- The query projection at node `n`, head `a`, lane `d`. -/
theorem proj_Q (x : (⟨S50000x128, .f32⟩ : BufTy).Contents (Elt Ideal)) (w : (⟨S128x128, .f32⟩ : BufTy).Contents (Elt Ideal))
    (n : Fin 50000) (a : Fin 8) (d : Fin 16) :
    Read.val_main_v1 (F := Ideal) x w (ix3 n a d) = Cert.Spec.mm x w n (Cert.Spec.lane a d) := by
  rw [Read.val_main_v1_apply, idx_Q, Read.val_main_v0_apply]
  unfold Cert.Spec.mm
  refine Finset.sum_congr rfl fun k _ => ?_
  rw [lidx_Q, ridx_Q]

theorem idx_K (n : Fin 50000) (a : Fin 8) (d : Fin 16) : Read.idx_main_v3 (ix3 n a d) = ix2 n (Cert.Spec.lane a d) :=
  funext fun c => Fin.ext (by
    have hn := n.isLt; have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
theorem lidx_K (n : Fin 50000) (j k : Fin 128) : Read.lidx_main_v2 (ix2 n j) k = ix2 n k :=
  funext fun c => Fin.ext (by match c with | ⟨0, _⟩ => rfl | ⟨1, _⟩ => rfl)
theorem ridx_K (n : Fin 50000) (j k : Fin 128) : Read.ridx_main_v2 (ix2 n j) k = ix2 k j :=
  funext fun c => Fin.ext (by match c with | ⟨0, _⟩ => rfl | ⟨1, _⟩ => rfl)
/-- The key projection at node `n`, head `a`, lane `d`. -/
theorem proj_K (x : (⟨S50000x128, .f32⟩ : BufTy).Contents (Elt Ideal)) (w : (⟨S128x128, .f32⟩ : BufTy).Contents (Elt Ideal))
    (n : Fin 50000) (a : Fin 8) (d : Fin 16) :
    Read.val_main_v3 (F := Ideal) x w (ix3 n a d) = Cert.Spec.mm x w n (Cert.Spec.lane a d) := by
  rw [Read.val_main_v3_apply, idx_K, Read.val_main_v2_apply]
  unfold Cert.Spec.mm
  refine Finset.sum_congr rfl fun k _ => ?_
  rw [lidx_K, ridx_K]

theorem idx_V (n : Fin 50000) (a : Fin 8) (d : Fin 16) : Read.idx_main_v5 (ix3 n a d) = ix2 n (Cert.Spec.lane a d) :=
  funext fun c => Fin.ext (by
    have hn := n.isLt; have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
theorem lidx_V (n : Fin 50000) (j k : Fin 128) : Read.lidx_main_v4 (ix2 n j) k = ix2 n k :=
  funext fun c => Fin.ext (by match c with | ⟨0, _⟩ => rfl | ⟨1, _⟩ => rfl)
theorem ridx_V (n : Fin 50000) (j k : Fin 128) : Read.ridx_main_v4 (ix2 n j) k = ix2 k j :=
  funext fun c => Fin.ext (by match c with | ⟨0, _⟩ => rfl | ⟨1, _⟩ => rfl)
/-- The value projection at node `n`, head `a`, lane `d`. -/
theorem proj_V (x : (⟨S50000x128, .f32⟩ : BufTy).Contents (Elt Ideal)) (w : (⟨S128x128, .f32⟩ : BufTy).Contents (Elt Ideal))
    (n : Fin 50000) (a : Fin 8) (d : Fin 16) :
    Read.val_main_v5 (F := Ideal) x w (ix3 n a d) = Cert.Spec.mm x w n (Cert.Spec.lane a d) := by
  rw [Read.val_main_v5_apply, idx_V, Read.val_main_v4_apply]
  unfold Cert.Spec.mm
  refine Finset.sum_congr rfl fun k _ => ?_
  rw [lidx_V, ridx_V]

theorem idx_E (n : Fin 800000) (a : Fin 8) (d : Fin 16) : Read.idx_main_v7 (ix3 n a d) = ix2 n (Cert.Spec.lane a d) :=
  funext fun c => Fin.ext (by
    have hn := n.isLt; have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
theorem lidx_E (n : Fin 800000) (j k : Fin 128) : Read.lidx_main_v6 (ix2 n j) k = ix2 n k :=
  funext fun c => Fin.ext (by match c with | ⟨0, _⟩ => rfl | ⟨1, _⟩ => rfl)
theorem ridx_E (n : Fin 800000) (j k : Fin 128) : Read.ridx_main_v6 (ix2 n j) k = ix2 k j :=
  funext fun c => Fin.ext (by match c with | ⟨0, _⟩ => rfl | ⟨1, _⟩ => rfl)
/-- The edge projection at edge `n`, head `a`, lane `d`. -/
theorem proj_E (x : (⟨S800000x128, .f32⟩ : BufTy).Contents (Elt Ideal)) (w : (⟨S128x128, .f32⟩ : BufTy).Contents (Elt Ideal))
    (n : Fin 800000) (a : Fin 8) (d : Fin 16) :
    Read.val_main_v7 (F := Ideal) x w (ix3 n a d) = Cert.Spec.mm x w n (Cert.Spec.lane a d) := by
  rw [Read.val_main_v7_apply, idx_E, Read.val_main_v6_apply]
  unfold Cert.Spec.mm
  refine Finset.sum_congr rfl fun k _ => ?_
  rw [lidx_E, ridx_E]

/-! ## The score, the gate, the edge result -/

/-- THE SCORE ARRAY at `(e, a, d)` is the specification's score at `e` and column `16a + d`. -/
theorem ref_score (x0 : (⟨S50000x128, .f32⟩ : BufTy).Contents (Elt Ideal)) (x1 : (⟨S800000x128, .f32⟩ : BufTy).Contents (Elt Ideal))
    (x2 : (⟨S2x800000, .i32⟩ : BufTy).Contents (Elt Ideal)) (x3 x4 x6 : (⟨S128x128, .f32⟩ : BufTy).Contents (Elt Ideal))
    (hr : ∀ i : S2x800000.Idx, 0 ≤ (x2 i).toInt ∧ (x2 i).toInt < 50000) (e : Fin 800000) (a : Fin 8) (d : Fin 16) :
    Read.val_main_v29 (F := Ideal) x0 x1 x2 x3 x4 x6 (ix3 e a d) = Cert.Spec.score x0 x1 x2 x3 x4 x6 e (Cert.Spec.lane a d) := by
  have h18 : Read.val_main_v18 (F := Ideal) x0 x2 x4 (ix3 e a d)
      = Read.val_main_v3 (F := Ideal) x0 x4 (ix3 (Cert.Spec.row (Read.val_main_v17 (F := Ideal) x2 (ix2 e 0))) a d) :=
    gather_at _ _ e a d
  have h25 : Read.val_main_v25 (F := Ideal) x0 x2 x3 (ix3 e a d)
      = Read.val_main_v1 (F := Ideal) x0 x3 (ix3 (Cert.Spec.row (Read.val_main_v24 (F := Ideal) x2 (ix2 e 0))) a d) :=
    gather_at _ _ e a d
  rw [Read.val_main_v29_apply, Read.val_main_v28_apply, Read.val_main_v26_apply, h18, h25, src_word x2 hr, dst_word x2 hr,
    proj_K, proj_Q, proj_E, Read.val_main_v27_apply, Read.val_main_cst_apply]
  simp only [Ideal.mulf_def, Ideal.ofBits_def]
  rfl

theorem idx_lanes (e : Fin 800000) (a : Fin 8) (k : Fin 16) : Read.idx_main_v30 (ix2 e a) k = ix3 e a k :=
  funext fun c => Fin.ext (by match c with | ⟨0, _⟩ => rfl | ⟨1, _⟩ => rfl | ⟨2, _⟩ => rfl)
theorem idx_keep (e : Fin 800000) (a : Fin 8) : Read.idx_main_v31 (ix3 e a 0) = ix2 e a :=
  funext fun c => Fin.ext (by match c with | ⟨0, _⟩ => rfl | ⟨1, _⟩ => rfl)

/-- THE GATE ARRAY at `(e, a, 0)` is the specification's gate of edge `e` and head `a`. -/
theorem ref_gate (x0 : (⟨S50000x128, .f32⟩ : BufTy).Contents (Elt Ideal)) (x1 : (⟨S800000x128, .f32⟩ : BufTy).Contents (Elt Ideal))
    (x2 : (⟨S2x800000, .i32⟩ : BufTy).Contents (Elt Ideal)) (x3 x4 x6 : (⟨S128x128, .f32⟩ : BufTy).Contents (Elt Ideal))
    (hr : ∀ i : S2x800000.Idx, 0 ≤ (x2 i).toInt ∧ (x2 i).toInt < 50000) (e : Fin 800000) (a : Fin 8) :
    Read.val_main_v33 (F := Ideal) x0 x1 x2 x3 x4 x6 (ix3 e a 0) = Cert.Spec.gate x0 x1 x2 x3 x4 x6 e a := by
  rw [Read.val_main_v33_apply, Read.val_main_v32_apply, Read.val_main_call0_v4_apply, Read.val_main_call0_v3_apply,
    Read.val_main_cst_5_apply, Read.val_main_call0_v2_apply, Read.val_main_call0_v1_apply, Read.val_main_call0_v0_apply,
    Read.val_main_cst_4_apply, Read.val_main_v31_apply, idx_keep, Read.val_main_v30_apply, Read.val_main_cst_3_apply]
  simp only [Ideal.hostUnary_exp_def, Ideal.minimumf_def, Ideal.maximumf_def, Ideal.ofBits_def, Ideal.ofBits_zero_f32, zero_add,
    idx_lanes, ref_score x0 x1 x2 x3 x4 x6 hr]
  rfl

theorem idx_edge_out (e : Fin 800000) (j : Fin 128) :
    Read.idx_main_v54 (ix2 e j) = ix3 e (Cert.Spec.headOf j) (⟨j.val % 16, Nat.mod_lt _ (by decide)⟩ : Fin 16) :=
  funext fun c => Fin.ext (by
    have he := e.isLt; have hj := j.isLt
    match c with
    | ⟨0, _⟩ => show (e.val * 128 + j.val) / 128 = e.val; omega
    | ⟨1, _⟩ => show (e.val * 128 + j.val) / 16 % 8 = j.val / 16; omega
    | ⟨2, _⟩ => show (e.val * 128 + j.val) % 16 = j.val % 16; omega)
theorem lane_headOf (j : Fin 128) : Cert.Spec.lane (Cert.Spec.headOf j) (⟨j.val % 16, Nat.mod_lt _ (by decide)⟩ : Fin 16) = j :=
  Fin.ext (by show 16 * (j.val / 16) + j.val % 16 = j.val; omega)

/-- THE EDGE RESULT is the specification's. -/
theorem ref_edge (x0 : (⟨S50000x128, .f32⟩ : BufTy).Contents (Elt Ideal)) (x1 : (⟨S800000x128, .f32⟩ : BufTy).Contents (Elt Ideal))
    (x2 : (⟨S2x800000, .i32⟩ : BufTy).Contents (Elt Ideal)) (x3 x4 x6 : (⟨S128x128, .f32⟩ : BufTy).Contents (Elt Ideal))
    (hr : ∀ i : S2x800000.Idx, 0 ≤ (x2 i).toInt ∧ (x2 i).toInt < 50000) :
    Read.val_main_v54 (F := Ideal) x0 x1 x2 x3 x4 x6 = Cert.Spec.edgeOut x0 x1 x2 x3 x4 x6 := by
  funext i
  obtain ⟨e, j, rfl⟩ : ∃ (e : Fin 800000) (j : Fin 128), i = ix2 e j := ⟨i 0, i 1, eq_ix2 i⟩
  rw [Read.val_main_v54_apply, idx_edge_out, ref_score x0 x1 x2 x3 x4 x6 hr, lane_headOf]
  rfl

end Cert.ReferenceIdeal.RefSide

end
-- ==== Proof.RefNode.lean ====
/-
  THE REFERENCE'S NODE RESULT IS THE SPECIFICATION'S.

  On the domain where every word of the edge list is a node row (`0 ≤ idx < 50000`), the reference's node array is the
  specification's `nodeOut`: at node `n` and column `j`, the aggregated messages divided by the aggregated gates of the
  column's head plus the guard.

  The steps. The value projection `h · wv`, reshaped to heads and lanes and read at `(r, a, d)`, is the product's sum at
  row `r` and column `16a + d`. The source word is wrapped when negative, which on the domain leaves it as it is, and the
  gather clamps it, read signed, into the table: the specification's `src`. The gate of an edge's head, broadcast along the
  16 lanes, weights the gathered value: the specification's message at column `16a + d`, whose head is `a`. A scatter-add
  into the zero array at the destination word, read signed and not wrapped, sums over exactly the edges the specification's
  `into n` holds: the messages give `num`, the gates give `den`. The guard word is added, the quotient taken, and the
  reshape back to 128 columns reads column `j` at head `j / 16` and lane `j mod 16`, which is column `j` again.
-/
import proofs.«423218_j15375982920242_3_alg».proof.Proof.Gen.ReferenceIdeal.Read
import proofs.«423218_j15375982920242_3_alg».proof.Proof.LibIndexing3
import proofs.«423218_j15375982920242_3_alg».proof.Proof.Spec
import proofs.«423218_j15375982920242_3_alg».proof.Proof.RefEdge
import Idealize.ShloMosaic.Lib.ValueIdx
import Idealize.ShloMosaic.PureOps.Ideal.Laws

noncomputable section

open scoped BigOperators

namespace Cert.ReferenceIdeal.RefSide

namespace Node

open Cert.ReferenceIdeal Idealize.ShloMosaic Idealize.ShloMosaic.ValueIdx Cert.Spec Cert.LibIndexing3

variable [Cert.ReferenceIdeal.Facts]

/-! ## Heads and lanes -/

/-- The head of lane `d` of head `a` is `a`. -/
theorem headOf_lane (a : Fin 8) (d : Fin 16) : headOf (lane a d) = a := by
  refine Fin.ext ?_
  show (16 * a.val + d.val) / 16 = a.val
  have := d.isLt
  omega

/-- A column is lane `j mod 16` of its head. -/
theorem lane_headOf (j : Fin 128) : lane (headOf j) ⟨j.val % 16, Nat.mod_lt _ (by decide)⟩ = j := by
  refine Fin.ext ?_
  show 16 * (j.val / 16) + j.val % 16 = j.val
  omega

section
variable (x0 : (⟨S50000x128, .f32⟩ : BufTy).Contents (Elt Ideal)) (x1 : (⟨S800000x128, .f32⟩ : BufTy).Contents (Elt Ideal))
  (x2 : (⟨S2x800000, .i32⟩ : BufTy).Contents (Elt Ideal)) (x3 x4 x5 x6 : (⟨S128x128, .f32⟩ : BufTy).Contents (Elt Ideal))

/-! ## The index words -/

/-- The column of source words the value gather reads: on the domain the wrap of a negative word does nothing, and the
    word is the edge list's row 0. -/
theorem src_word (hr : ∀ i : S2x800000.Idx, 0 ≤ (x2 i).toInt ∧ (x2 i).toInt < 50000) (e : Fin 800000) :
    Read.val_main_v39 (F := Ideal) x2 (ix2 e 0) = x2 (ix2 0 e) := by
  have h9 : Read.val_main_v9 (F := Ideal) x2 (Read.idx_main_v39 (ix2 e 0)) = x2 (ix2 0 e) := by
    rw [Read.val_main_v9_apply, Read.val_main_v8_apply]
    congr 1
    funext a; refine Fin.ext ?_
    match a with
    | ⟨0, _⟩ => rfl
    | ⟨1, _⟩ => exact Nat.mod_eq_of_lt e.isLt
  rw [Read.val_main_v39_apply, Read.val_main_v38_apply, Read.val_main_v35_apply, h9, Read.val_main_v34_apply,
    Read.val_main_c_6_apply]
  have hc : IntOp.cmpi .slt (x2 (ix2 0 e)) 0#32 = 0#1 := by
    have h0 := (hr (ix2 0 e)).1
    have : (x2 (ix2 0 e)).slt 0#32 = false := by
      simp only [BitVec.slt, BitVec.toInt_zero, decide_eq_false_iff_not, not_lt]
      exact h0
    show BitVec.ofBool ((x2 (ix2 0 e)).slt 0#32) = 0#1
    rw [this]; rfl
  rw [hc, select_zero]

/-- The column of destination words the scatter-add of the messages reads is the edge list's row 1, as it is. -/
theorem dst_word_num (e : Fin 800000) : Read.val_main_v44 (F := Ideal) x2 (ix2 e 0) = x2 (ix2 1 e) := by
  rw [Read.val_main_v44_apply, Read.val_main_v11_apply, Read.val_main_v10_apply]
  congr 1
  funext a; refine Fin.ext ?_
  match a with
  | ⟨0, _⟩ => rfl
  | ⟨1, _⟩ => exact Nat.mod_eq_of_lt e.isLt

/-- The column of destination words the scatter-add of the gates reads is the edge list's row 1, as it is. -/
theorem dst_word_den (e : Fin 800000) : Read.val_main_v47 (F := Ideal) x2 (ix2 e 0) = x2 (ix2 1 e) := by
  rw [Read.val_main_v47_apply, Read.val_main_v11_apply, Read.val_main_v10_apply]
  congr 1
  funext a; refine Fin.ext ?_
  match a with
  | ⟨0, _⟩ => rfl
  | ⟨1, _⟩ => exact Nat.mod_eq_of_lt e.isLt

/-! ## The value an edge carries -/

/-- The value projection in the layout of heads and lanes: place `(a, d)` of node `r` is column `16a + d` of `h · wv`. -/
theorem value_at (r : Fin 50000) (a : Fin 8) (d : Fin 16) :
    Read.val_main_v5 (F := Ideal) x0 x5 (ix3 r a d) = mm x0 x5 r (lane a d) := by
  rw [Read.val_main_v5_apply, Read.val_main_v4_apply]
  unfold mm
  refine Finset.sum_congr rfl fun k _ => ?_
  have el : Read.lidx_main_v4 (Read.idx_main_v5 (ix3 r a d)) k = ix2 r k := by
    funext c; refine Fin.ext ?_
    match c with
    | ⟨0, _⟩ =>
      show ((r.val * 8 + a.val) * 16 + d.val) / 128 = r.val
      have := a.isLt; have := d.isLt; omega
    | ⟨1, _⟩ => rfl
  have er : Read.ridx_main_v4 (Read.idx_main_v5 (ix3 r a d)) k = ix2 k (lane a d) := by
    funext c; refine Fin.ext ?_
    match c with
    | ⟨0, _⟩ => rfl
    | ⟨1, _⟩ =>
      show ((r.val * 8 + a.val) * 16 + d.val) % 128 = 16 * a.val + d.val
      have := a.isLt; have := d.isLt; omega
  rw [el, er]

/-- The gathered value: the source node's row of `h · wv`. -/
theorem gathered_value_at (hr : ∀ i : S2x800000.Idx, 0 ≤ (x2 i).toInt ∧ (x2 i).toInt < 50000)
    (e : Fin 800000) (a : Fin 8) (d : Fin 16) :
    Read.val_main_v40 (F := Ideal) x0 x2 x5 (ix3 e a d) = mm x0 x5 (src x2 e) (lane a d) := by
  unfold Read.val_main_v40
  have hg : gather_S50000x8x16_S800000x1_S800000x8x16_12_0_n_n_0_1_1816
      = blockGatherDims 50000 8 16 800000 Facts₀.gather_S50000x8x16_S800000x1_S800000x8x16_12_0_n_n_0_1_1816_wf := rfl
  rw [hg, gather_blocks_apply (by decide), value_at]
  refine congrArg (fun r => mm x0 x5 r (lane a d)) (Fin.ext ?_)
  show min (Read.val_main_v39 (F := Ideal) x2 (ix2 e 0)).toInt.toNat (50000 - 1) = min (x2 (ix2 0 e)).toInt.toNat 49999
  rw [src_word x2 hr]

end

/-! ## Messages, their sums, and the quotient -/

section
variable (x0 : (⟨S50000x128, .f32⟩ : BufTy).Contents (Elt Ideal)) (x1 : (⟨S800000x128, .f32⟩ : BufTy).Contents (Elt Ideal))
  (x2 : (⟨S2x800000, .i32⟩ : BufTy).Contents (Elt Ideal)) (x3 x4 x5 x6 : (⟨S128x128, .f32⟩ : BufTy).Contents (Elt Ideal))
  (hr : ∀ i : S2x800000.Idx, 0 ≤ (x2 i).toInt ∧ (x2 i).toInt < 50000)
include hr

/-- What an edge sends, at head `a` and lane `d`: the specification's message at column `16a + d`. -/
theorem message_at (e : Fin 800000) (a : Fin 8) (d : Fin 16) :
    Read.val_main_v42 (F := Ideal) x0 x1 x2 x3 x4 x5 x6 (ix3 e a d) = msg x0 x1 x2 x3 x4 x5 x6 e (lane a d) := by
  have e41 : Read.idx_main_v41 (ix3 e a d) = ix3 e a 0 := by
    funext c; refine Fin.ext ?_
    match c with
    | ⟨0, _⟩ => rfl
    | ⟨1, _⟩ => rfl
    | ⟨2, _⟩ => rfl
  rw [Read.val_main_v42_apply, gathered_value_at x0 x2 x5 hr, Read.val_main_v41_apply, e41, ref_gate x0 x1 x2 x3 x4 x6 hr]
  unfold msg
  rw [headOf_lane]
  rfl

/-- The aggregated messages at node `n`, head `a` and lane `d`: the specification's `num` at column `16a + d`. -/
theorem num_at (n : Fin 50000) (a : Fin 8) (d : Fin 16) :
    Read.val_main_v45 (F := Ideal) x0 x1 x2 x3 x4 x5 x6 (ix3 n a d) = num x0 x1 x2 x3 x4 x5 x6 n (lane a d) := by
  unfold Read.val_main_v45
  have hs : scatter_S50000x8x16_S800000x1_S800000x8x16_12_0_0_1
      = blockScatterDims 50000 8 16 800000 Facts₀.scatter_S50000x8x16_S800000x1_S800000x8x16_12_0_0_1_wf := rfl
  rw [hs, scatterAdd_blocks_apply, Read.val_main_v43_apply, Read.val_main_cst_8_apply]
  simp only [Ideal.ofBits_def, Ideal.ofBits_zero_f32, zero_add, dst_word_num]
  unfold num into
  exact Finset.sum_congr rfl fun e _ => message_at x0 x1 x2 x3 x4 x5 x6 hr e a d

/-- The aggregated gates at node `n` and head `a`: the specification's `den`. -/
theorem den_at (n : Fin 50000) (a : Fin 8) :
    Read.val_main_v48 (F := Ideal) x0 x1 x2 x3 x4 x6 (ix3 n a 0) = den x0 x1 x2 x3 x4 x6 n a := by
  unfold Read.val_main_v48
  have hs : scatter_S50000x8x1_S800000x1_S800000x8x1_12_0_0_1
      = blockScatterDims 50000 8 1 800000 Facts₀.scatter_S50000x8x1_S800000x1_S800000x8x1_12_0_0_1_wf := rfl
  rw [hs, scatterAdd_blocks_apply, Read.val_main_v46_apply, Read.val_main_cst_9_apply]
  simp only [Ideal.ofBits_def, Ideal.ofBits_zero_f32, zero_add, dst_word_den]
  unfold den into
  exact Finset.sum_congr rfl fun e _ => ref_gate x0 x1 x2 x3 x4 x6 hr e a

end

end Node

open Cert.ReferenceIdeal Idealize.ShloMosaic Idealize.ShloMosaic.ValueIdx Cert.Spec

variable [Cert.ReferenceIdeal.Facts]

/-- THE REFERENCE'S NODE RESULT IS THE SPECIFICATION'S: at node `n` and column `j`, the aggregated messages over the
    aggregated gates of the column's head plus the guard. -/
theorem ref_node (x0 : (⟨S50000x128, .f32⟩ : BufTy).Contents (Elt Ideal)) (x1 : (⟨S800000x128, .f32⟩ : BufTy).Contents (Elt Ideal))
    (x2 : (⟨S2x800000, .i32⟩ : BufTy).Contents (Elt Ideal)) (x3 x4 x5 x6 : (⟨S128x128, .f32⟩ : BufTy).Contents (Elt Ideal))
    (hr : ∀ i : S2x800000.Idx, 0 ≤ (x2 i).toInt ∧ (x2 i).toInt < 50000) :
    Read.val_main_v53 (F := Ideal) x0 x1 x2 x3 x4 x5 x6 = Cert.Spec.nodeOut x0 x1 x2 x3 x4 x5 x6 := by
  funext i
  obtain ⟨n, j, rfl⟩ : ∃ (n : Fin 50000) (j : Fin 128), i = ix2 n j := ⟨i 0, i 1, eq_ix2 i⟩
  have e53 : Read.idx_main_v53 (ix2 n j) = ix3 n (headOf j) ⟨j.val % 16, Nat.mod_lt _ (by decide)⟩ := by
    funext c; refine Fin.ext ?_
    match c with
    | ⟨0, _⟩ =>
      show (n.val * 128 + j.val) / 128 = n.val
      have := j.isLt; omega
    | ⟨1, _⟩ =>
      show (n.val * 128 + j.val) / 16 % 8 = j.val / 16
      have := j.isLt; omega
    | ⟨2, _⟩ =>
      show (n.val * 128 + j.val) % 16 = j.val % 16
      omega
  have e51 : ∀ (a : Fin 8) (d : Fin 16), Read.idx_main_v51 (ix3 n a d) = ix3 n a 0 := by
    intro a d
    funext c; refine Fin.ext ?_
    match c with
    | ⟨0, _⟩ => rfl
    | ⟨1, _⟩ => rfl
    | ⟨2, _⟩ => rfl
  rw [Read.val_main_v53_apply, e53, Read.val_main_v52_apply, Node.num_at x0 x1 x2 x3 x4 x5 x6 hr, Read.val_main_v51_apply, e51,
    Read.val_main_v50_apply, Node.den_at x0 x1 x2 x3 x4 x6 hr, Read.val_main_v49_apply, Read.val_main_cst_10_apply,
    Node.lane_headOf]
  rfl

end Cert.ReferenceIdeal.RefSide

end
-- ==== Proof.PreDecode.lean ====
import proofs.«423218_j15375982920242_3_alg».proof.Proof.Gen.Pre_finite_inputs
import Idealize.ShloMosaic.Lib.ReduceAll
import Idealize.ShloMosaic.Lib.ValueIdx

/-!
  The input precondition, decoded at the index table. The precondition is a conjunction of seven
  all-reductions: six say the float arguments are finite, the last says every entry of the
  [2, 800000] index table lies in [0, 50000) read signed. Only the last conjunct is opened here;
  the float conjuncts are split off unread, so the statement holds for every float interpretation.
-/

noncomputable section

namespace Cert.PreDecode

open Idealize.ShloMosaic

/-- A rank-0 shape has exactly one index. -/
instance : Subsingleton Cert.Pre_finite_inputs.S_.Idx := ⟨fun a b => funext fun d => d.elim0⟩

/-- If the precondition holds then every entry of the index table, read signed, lies in [0, 50000):
    a conjunction of bits that is 1 has each conjunct 1, a reduction by "and" over all axes that is 1
    had a 1 at every position, and a signed comparison bit that is 1 orders the signed values. -/
theorem idx_range [Cert.Pre_finite_inputs.Facts] {F : FTy → Type} [FloatOps F]
    (a0 : FVec F Cert.Pre_finite_inputs.S50000x128 .f32) (a1 : FVec F Cert.Pre_finite_inputs.S800000x128 .f32) (a2 : IVec Cert.Pre_finite_inputs.S2x800000 32)
    (a3 a4 a5 a6 : FVec F Cert.Pre_finite_inputs.S128x128 .f32)
    (h : Cert.Pre_finite_inputs.fn (F := F) a0 a1 a2 a3 a4 a5 a6 = fun _ => 1#1) :
    ∀ i : Cert.Pre_finite_inputs.S2x800000.Idx, 0 ≤ (a2 i).toInt ∧ (a2 i).toInt < 50000 := by
  intro i
  have e := congrFun h ValueIdx.ix0
  dsimp only [Cert.Pre_finite_inputs.fn, Cert.Pre_finite_inputs.fn_part1, Cert.Pre_finite_inputs.fn_part2] at e
  -- the last conjunct: the all-reduction over the index table
  have hR := (IntOp.andi_eq_one.1 e).2
  -- every position of the reduced mask is 1, in particular position i
  have hx := Host.reduce_andi_all _ _ _ _ _ hR i
  obtain ⟨hge, hlt⟩ := IntOp.andi_eq_one.1 hx
  have h0 : (0#32 : BitVec 32).toInt ≤ (a2 i).toInt := IntOp.cmpi_sge.1 hge
  have h1 : (a2 i).toInt < (50000#32 : BitVec 32).toInt := IntOp.cmpi_slt.1 hlt
  have c0 : (0#32 : BitVec 32).toInt = 0 := by decide
  have c1 : (50000#32 : BitVec 32).toInt = 50000 := by decide
  rw [c0] at h0
  rw [c1] at h1
  exact ⟨h0, h1⟩

end Cert.PreDecode

end
-- ==== Proof.lean ====
/-
  The certificate: one graph-attention layer as a Pallas program of three kernel regions (the fused node projection
  `h·[WQ|WK|WV]`; the per-edge score, gate and message; the normalisation) among host gathers and scatter-sums,
  against the jnp reference, over the extended reals, on the domain where every edge-list entry is a node index
  (`0 ≤ idx < 50000`: outside it the reference itself indexes out of range, and the programs' out-of-range conventions differ).

  FRAMES. The kernel program — at the word level and idealized — runs to the end, nothing faulting, and leaves its seven
  argument arrays as launched: `frame_all` of the run over the three regions (proof/Proof/Run.lean for the idealized
  program, its word-level copy proof/Proof/KRun.lean), which holds from ANY memory; the reference's frame is its
  generated run with the results dropped. Nothing was rewritten by the ideal pass: `preserves` is `True`.

  VALUES. Both programs compute the specification proof/Proof/Spec.lean. The reference: its generated run, read one
  operation at a time (proof/Proof/RefEdge.lean, RefNode.lean). The kernel: the run leaves every buffer at the fold
  `W9`; read at the two result buffers through the regions' arrays and the host stretches (proof/Proof/KernelResult.lean)
  it is the same two arrays. The laws that join the sides: a product with a 0/1 pooling table is a head's lane sum
  (`x·0 = 0`, `x·1 = x` on every extended real), and `x · (1 / y) = x / y` for `y ≠ 0`, the normaliser `den + ε` being
  positive as a sum of exponentials plus a positive constant. Finiteness of the inputs is not used.
-/
import proofs.«423218_j15375982920242_3_alg».proof.Defs
import proofs.«423218_j15375982920242_3_alg».proof.Proof.Run
import proofs.«423218_j15375982920242_3_alg».proof.Proof.KRun
import proofs.«423218_j15375982920242_3_alg».proof.Proof.KernelResult
import proofs.«423218_j15375982920242_3_alg».proof.Proof.RefEdge
import proofs.«423218_j15375982920242_3_alg».proof.Proof.RefNode
import proofs.«423218_j15375982920242_3_alg».proof.Proof.PreDecode
import proofs.«423218_j15375982920242_3_alg».proof.Proof.Gen.ReferenceIdeal.Run
import proofs.«423218_j15375982920242_3_alg».proof.Proof.Gen.ReferenceIdeal.Read
import proofs.«423218_j15375982920242_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program's frame: the run over its three regions, from any memory. -/
theorem frame_k : Cert.frame_Kernel := fun m ρ _ => Cert.Kernel.Gen.frame_all m ρ

/-- The idealized kernel program's frame: the same run at the exact instance. -/
theorem frame_ki : Cert.frame_KernelIdeal := fun m ρ _ => Cert.KernelIdeal.Gen.frame_all m ρ

/-- The reference's frame: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The domain, read off the precondition: every edge-list entry of core `c`'s argument is a node index. -/
theorem idx_range (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.Pre_finite_inputs.S2x800000.Idx,
      0 ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 50000 :=
  Cert.PreDecode.idx_range _ _ _ _ _ _ _ (hpre c)

/-- At the exact instance, from memories agreeing on the arguments, on the domain: the kernel program's two result
    buffers end at the specification's node and edge arrays of the arguments (the run's fold read at them), and so do the
    reference's (its generated run read back). -/
theorem algebraic : Cert.algebraic_KernelIdeal_ReferenceIdeal := by
  intro m ρ m' ρ' hpre hagree
  refine ⟨fun c => Cert.Spec.nodeOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.Spec.edgeOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6)), ?_, ?_⟩
  · -- the kernel program: every buffer ends at the fold; read it at the results and at the arguments
    refine (θ_run Cert.KernelIdeal.defs _ _).mono (fun r h c => ?_) (Cert.KernelIdeal.Gen.run_all m ρ)
    have hr := idx_range m hpre c
    refine ⟨(h c _ (Cert.KernelIdeal.Gen.mem_uc Cert.KernelIdeal.main_v19 (by decide))).trans (Cert.KernelIdeal.Gen.kernel_node m ρ c hr),
      (h c _ (Cert.KernelIdeal.Gen.mem_uc Cert.KernelIdeal.main_v12_0 (by decide))).trans (Cert.KernelIdeal.Gen.kernel_edge m ρ c hr),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c)⟩
  · -- the reference: its generated run, each result read back as the specification's array of ITS arguments, which agree
    refine (θ_run Cert.ReferenceIdeal.defs _ _).mono (fun r h c => ?_) (Cert.ReferenceIdeal.Value.run (F := Ideal) m' ρ')
    have hr := idx_range m hpre c
    obtain ⟨e0, e1, e2, e3, e4, e5, e6⟩ := hagree c
    have hr' : ∀ i : Cert.ReferenceIdeal.S2x800000.Idx,
        0 ≤ (m' ((c.tc : Thread Cert.ReferenceIdeal.nD Cert.ReferenceIdeal.τ).loc Cert.ReferenceIdeal.main_arg2) i).toInt
        ∧ (m' ((c.tc : Thread Cert.ReferenceIdeal.nD Cert.ReferenceIdeal.τ).loc Cert.ReferenceIdeal.main_arg2) i).toInt < 50000 := by
      rw [e2]; exact hr
    refine ⟨?_, ?_, (h c).2.2⟩
    · rw [(h c).1, Cert.ReferenceIdeal.Read.val_main_v53_eq, Cert.ReferenceIdeal.RefSide.ref_node _ _ _ _ _ _ _ hr', e0, e1, e2, e3, e4, e5, e6]
    · rw [(h c).2.1, Cert.ReferenceIdeal.Read.val_main_v54_eq, Cert.ReferenceIdeal.RefSide.ref_edge _ _ _ _ _ _ hr', e0, e1, e2, e3, e4, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
